-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S64x1024 : Shape := ⟨2, ![64, 1024]⟩
abbrev S64 : Shape := ⟨1, ![64]⟩
abbrev S512x64 : Shape := ⟨2, ![512, 64]⟩
abbrev S512 : Shape := ⟨1, ![512]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S16x512x64x64 .f32) (main_arg1 : FVec F S64x1024 .f32) (main_arg2 : FVec F S64 .f32) (main_arg3 : FVec F S512x64 .f32) (main_arg4 : FVec F S512 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_v13 main_v16
-- ==== Kernel.lean ====
abbrev S16x512x64x64 : Shape := ⟨4, ![16, 512, 64, 64]⟩
abbrev S64x1024 : Shape := ⟨2, ![64, 1024]⟩
abbrev S64 : Shape := ⟨1, ![64]⟩
abbrev S512x64 : Shape := ⟨2, ![512, 64]⟩
abbrev S512 : Shape := ⟨1, ![512]⟩
abbrev S16x512x4096 : Shape := ⟨3, ![16, 512, 4096]⟩
abbrev S64x1 : Shape := ⟨2, ![64, 1]⟩
abbrev S512x1 : Shape := ⟨2, ![512, 1]⟩
abbrev S1x512x4096 : Shape := ⟨3, ![1, 512, 4096]⟩
abbrev S512x4096 : Shape := ⟨2, ![512, 4096]⟩
abbrev S1x512x512 : Shape := ⟨3, ![1, 512, 512]⟩
abbrev S512x512 : Shape := ⟨2, ![512, 512]⟩
abbrev S64x512 : Shape := ⟨2, ![64, 512]⟩

abbrev nBuf : Space → Nat
  | .hbm => 10
  | .vmem => 10
  | .smem => 0
  | _ => 0

abbrev bufTy : (tb : Table) → Fin (tcTables nBuf tb) → BufTy
  | .hbm, ⟨0, _⟩ => ⟨S16x512x64x64, .f32⟩
  | .hbm, ⟨1, _⟩ => ⟨S64x1024, .f32⟩
  | .hbm, ⟨2, _⟩ => ⟨S64, .f32⟩
  | .hbm, ⟨3, _⟩ => ⟨S512x64, .f32⟩
  | .hbm, ⟨4, _⟩ => ⟨S512, .f32⟩
  | .hbm, ⟨5, _⟩ => ⟨S16x512x4096, .f32⟩
  | .hbm, ⟨6, _⟩ => ⟨S64x1, .f32⟩
  | .hbm, ⟨7, _⟩ => ⟨S512x1, .f32⟩
  | .hbm, ⟨8, _⟩ => ⟨S16x512x4096, .f32⟩
  | .hbm, ⟨9, _⟩ => ⟨S16x512x64x64, .f32⟩
  | .local _ .vmem, ⟨0, _⟩ => ⟨S1x512x4096, .f32⟩
  | .local _ .vmem, ⟨1, _⟩ => ⟨S1x512x4096, .f32⟩
  | .local _ .vmem, ⟨2, _⟩ => ⟨S64x1024, .f32⟩
  | .local _ .vmem, ⟨3, _⟩ => ⟨S64x1, .f32⟩
  | .local _ .vmem, ⟨4, _⟩ => ⟨S512x64, .f32⟩
  | .local _ .vmem, ⟨5, _⟩ => ⟨S512x1, .f32⟩
  | .local _ .vmem, ⟨6, _⟩ => ⟨S1x512x4096, .f32⟩
  | .local _ .vmem, ⟨7, _⟩ => ⟨S1x512x4096, .f32⟩
  | .local _ .vmem, ⟨8, _⟩ => ⟨S512x4096, .bf16⟩
  | .local _ .vmem, ⟨9, _⟩ => ⟨S512x1, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32_32 : BitVec 32 := 0#32
  let c0_i32 : BitVec 32 := 0#32
  let c1_i32 : BitVec 32 := 1#32
  let arg9 : BitVec 32 := Scf.iv c0_i32 c1_i32 k0_t1
  let c1_i32_31 : BitVec 32 := 1#32
  let v45 : BitVec 32 := Scalar.muli arg9 c1_i32_31
  let v46 : BitVec 32 := Scalar.addi c0_i32_32 v45
  let c512_i32 : BitVec 32 := 512#32
  let v47 : BitVec 32 := Scalar.muli v46 c512_i32
  v47
def k0_off1 (k0_t1 : Fin k0_t1_loop.trips) : Fin 3 → Nat :=
  let c0_33 : Index := 0#32
  let c0_34 : Index := 0#32
  let c0_i32_32 : BitVec 32 := 0#32
  let c0_i32 : BitVec 32 := 0#32
  let c1_i32 : BitVec 32 := 1#32
  let arg9 : BitVec 32 := Scf.iv c0_i32 c1_i32 k0_t1
  let c1_i32_31 : BitVec 32 := 1#32
  let v45 : BitVec 32 := Scalar.muli arg9 c1_i32_31
  let v46 : BitVec 32 := Scalar.addi c0_i32_32 v45
  let c512_i32 : BitVec 32 := 512#32
  let v47 : BitVec 32 := Scalar.muli v46 c512_i32
  let v48 : BitVec 32 := v47
  let v49 : Index := Scalar.indexCast v48
  ![0, 0, v49.toNat]
def k0_off2 (k0_t1 : Fin k0_t1_loop.trips) : Fin 2 → Nat :=
  let c0_35 : Index := 0#32
  let c0_i32_32 : BitVec 32 := 0#32
  let c0_i32 : BitVec 32 := 0#32
  let c1_i32 : BitVec 32 := 1#32
  let arg9 : BitVec 32 := Scf.iv c0_i32 c1_i32 k0_t1
  let c1_i32_31 : BitVec 32 := 1#32
  let v45 : BitVec 32 := Scalar.muli arg9 c1_i32_31
  let v46 : BitVec 32 := Scalar.addi c0_i32_32 v45
  let c512_i32 : BitVec 32 := 512#32
  let v47 : BitVec 32 := Scalar.muli v46 c512_i32
  let v48 : BitVec 32 := v47
  let v53 : Index := Scalar.indexCast v48
  ![0, v53.toNat]
@[reducible] def k0_t2_loop : Scf.Loop 32 :=
  let c0_i32_27 : BitVec 32 := 0#32
  let c8_i32_28 : BitVec 32 := 8#32
  let v44 : BitVec 32 := Scalar.addi c0_i32_27 c8_i32_28
  let c1_i32_29 : BitVec 32 := 1#32
  ⟨c0_i32_27, v44, c1_i32_29⟩
def k0_mult2 (k0_t2 : Fin k0_t2_loop.trips) : BitVec 32 :=
  let c0_i32_32 : BitVec 32 := 0#32
  let c0_i32_27 : BitVec 32 := 0#32
  let c1_i32_29 : BitVec 32 := 1#32
  let arg9 : BitVec 32 := Scf.iv c0_i32_27 c1_i32_29 k0_t2
  let c1_i32_31 : BitVec 32 := 1#32
  let v45 : BitVec 32 := Scalar.muli arg9 c1_i32_31
  let v46 : BitVec 32 := Scalar.addi c0_i32_32 v45
  let c512_i32 : BitVec 32 := 512#32
  let v47 : BitVec 32 := Scalar.muli v46 c512_i32
  v47
def k0_off3 (k0_t2 : Fin k0_t2_loop.trips) : Fin 2 → Nat :=
  let c0_33 : Index := 0#32
  let c0_i32_32 : BitVec 32 := 0#32
  let c0_i32_27 : BitVec 32 := 0#32
  let c1_i32_29 : BitVec 32 := 1#32
  let arg9 : BitVec 32 := Scf.iv c0_i32_27 c1_i32_29 k0_t2
  let c1_i32_31 : BitVec 32 := 1#32
  let v45 : BitVec 32 := Scalar.muli arg9 c1_i32_31
  let v46 : BitVec 32 := Scalar.addi c0_i32_32 v45
  let c512_i32 : BitVec 32 := 512#32
  let v47 : BitVec 32 := Scalar.muli v46 c512_i32
  let v48 : BitVec 32 := v47
  let v49 : Index := Scalar.indexCast v48
  ![0, v49.toNat]
def k0_off4 (k0_t2 : Fin k0_t2_loop.trips) : Fin 3 → Nat :=
  let c0_35 : Index := 0#32
  let c0_36 : Index := 0#32
  let c0_i32_32 : BitVec 32 := 0#32
  let c0_i32_27 : BitVec 32 := 0#32
  let c1_i32_29 : BitVec 32 := 1#32
  let arg9 : BitVec 32 := Scf.iv c0_i32_27 c1_i32_29 k0_t2
  let c1_i32_31 : BitVec 32 := 1#32
  let v45 : BitVec 32 := Scalar.muli arg9 c1_i32_31
  let v46 : BitVec 32 := Scalar.addi c0_i32_32 v45
  let c512_i32 : BitVec 32 := 512#32
  let v47 : BitVec 32 := Scalar.muli v46 c512_i32
  let v48 : BitVec 32 := v47
  let v52 : Index := Scalar.indexCast v48
  ![0, 0, v52.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x512x64x64_S16x512x4096 : S16x512x64x64.ShapeCasts S16x512x4096
  shapeCasts_S64_S64x1 : S64.ShapeCasts S64x1
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S1x512x512 : 0 < S1x512x512.numel
  shapeCasts_S1x512x512_S512x512 : S1x512x512.ShapeCasts S512x512
  bitsLt_bf16_f32 : FTy.bits .bf16 < FTy.bits .f32
  h_S512x512 : 0 < S512x512.numel
  shapeCasts_S512x512_S512x512 : S512x512.ShapeCasts S512x512
  reduces_S512x512_S512 : S512x512.Reduces [1] S512
  inb_S512x4096_S512x4096_0_0 : ∀ a, (![0, 0] : Fin 2 → Nat) a + S512x4096.size a ≤ S512x4096.size a
  h_S512x4096 : 0 < S512x4096.numel
  broadcasts_S512x1_S512x512 : S512x1.Broadcasts S512x512
  inb_S64x1024_S64x512_0_0 : ∀ a, (![0, 0] : Fin 2 → Nat) a + S64x512.size a ≤ S64x1024.size a
  h_S64x512 : 0 < S64x512.numel
  inb_S64x1024_S64x512_0_512 : ∀ a, (![0, 512] : Fin 2 → Nat) a + S64x512.size a ≤ S64x1024.size a
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S512x64_S512x64_0_0 : ∀ a, (![0, 0] : Fin 2 → Nat) a + S512x64.size a ≤ S512x64.size a
  h_S512x64 : 0 < S512x64.numel
  shapeCasts_S512x512_S1x512x512 : S512x512.ShapeCasts S1x512x512
  shapeCasts_S16x512x4096_S16x512x64x64 : S16x512x4096.ShapeCasts S16x512x64x64
  dot_S512x4096_S512x4096_S512x512_1_1_0_0_n_n_wf : DotDims.WF S512x4096 S512x4096 S512x512 [1] [1] [0] [0] [] []
  dot_S512x512_S512x1_S512x1_1_0_0_1_n_n_wf : DotDims.WF S512x512 S512x1 S512x1 [1] [0] [0] [1] [] []
  dot_S64x512_S512x1_S64x1_1_0_0_1_n_n_wf : DotDims.WF S64x512 S512x1 S64x1 [1] [0] [0] [1] [] []
  dot_S512x64_S64x1_S512x1_1_0_0_1_n_n_wf : DotDims.WF S512x64 S64x1 S512x1 [1] [0] [0] [1] [] []
  dot_S512x512_S512x512_S512x512_1_0_0_1_n_n_wf : DotDims.WF S512x512 S512x512 S512x512 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x512x512.size a ≤ S1x512x4096.size a
  k0_off2_inb : ∀ k0_t1 : Fin k0_t1_loop.trips, ∀ a, (k0_off2 k0_t1) a + S512x512.size a ≤ S512x4096.size a
  k0_off2_packedbf16 : ∀ k0_t1 : Fin k0_t1_loop.trips, (Rect.unit (s := S512x4096) (k0_off2 k0_t1) S512x512.size (k0_off2_inb k0_t1)).PackedRows (EltTy.packing .bf16)
  k0_t2_ok : k0_t2_loop.OK
  k0_mult2_dvd : ∀ k0_t2 : Fin k0_t2_loop.trips, 128 ∣ (k0_mult2 k0_t2).toNat
  k0_off3_inb : ∀ k0_t2 : Fin k0_t2_loop.trips, ∀ a, (k0_off3 k0_t2) a + S512x512.size a ≤ S512x4096.size a
  k0_off4_inb : ∀ k0_t2 : Fin k0_t2_loop.trips, ∀ a, (k0_off4 k0_t2) a + S1x512x512.size a ≤ S1x512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S16x512x4096.size a
  hwx0_0 : ∀ i : grid0.Coords, EltTy.bits .f32 = 32 ∨ (Rect.block (s := S16x512x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .f32 = 32 ∨ (Rect.block (s := S512x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x4096.size a ≤ S16x512x4096.size a
  hwx0_5 : ∀ i : grid0.Coords, EltTy.bits .f32 = 32 ∨ (Rect.block (s := S16x512x4096) S1x512x4096.size (cc0_transform_5 i) (hinb0_5 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf
def dot_S64x512_S512x1_S64x1_1_0_0_1_n_n : DotDims S64x512 S512x1 S64x1 where
  lhsContracting := [1]
  rhsContracting := [0]
  lhsNonContracting := [0]
  rhsNonContracting := [1]
  lhsBatch := []
  rhsBatch := []
  wf := dot_S64x512_S512x1_S64x1_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S64x1024 : Shape := ⟨2, ![64, 1024]⟩
abbrev S64 : Shape := ⟨1, ![64]⟩
abbrev S512x64 : Shape := ⟨2, ![512, 64]⟩
abbrev S512 : Shape := ⟨1, ![512]⟩
abbrev S16x512x4096 : Shape := ⟨3, ![16, 512, 4096]⟩
abbrev S16x512x512 : Shape := ⟨3, ![16, 512, 512]⟩
abbrev S_ : Shape := ⟨0, ![]⟩
abbrev S16x512 : Shape := ⟨2, ![16, 512]⟩
abbrev S16x512x1 : Shape := ⟨3, ![16, 512, 1]⟩
abbrev S16x1024x64x64 : Shape := ⟨4, ![16, 1024, 64, 64]⟩
abbrev S16x1024 : Shape := ⟨2, ![16, 1024]⟩
abbrev S1024x64 : Shape := ⟨2, ![1024, 64]⟩
abbrev S16x64 : Shape := ⟨2, ![16, 64]⟩
abbrev S1x64 : Shape := ⟨2, ![1, 64]⟩
abbrev S64x512 : Shape := ⟨2, ![64, 512]⟩
abbrev S1x512 : Shape := ⟨2, ![1, 512]⟩
abbrev S16x512x1x1 : Shape := ⟨4, ![16, 512, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S64x1024, .f32⟩
  | .hbm, ⟨2, _⟩ => ⟨S64, .f32⟩
  | .hbm, ⟨3, _⟩ => ⟨S512x64, .f32⟩
  | .hbm, ⟨4, _⟩ => ⟨S512, .f32⟩
  | .hbm, ⟨5, _⟩ => ⟨S16x512x4096, .f32⟩
  | .hbm, ⟨6, _⟩ => ⟨S16x512x512, .f32⟩
  | .hbm, ⟨7, _⟩ => ⟨S_, .f32⟩
  | .hbm, ⟨8, _⟩ => ⟨S16x512, .f32⟩
  | .hbm, ⟨9, _⟩ => ⟨S16x512x1, .f32⟩
  | .hbm, ⟨10, _⟩ => ⟨S16x512x512, .f32⟩
  | .hbm, ⟨11, _⟩ => ⟨S16x512x512, .f32⟩
  | .hbm, ⟨12, _⟩ => ⟨S_, .f32⟩
  | .hbm, ⟨13, _⟩ => ⟨S16x512, .f32⟩
  | .hbm, ⟨14, _⟩ => ⟨S_, .f32⟩
  | .hbm, ⟨15, _⟩ => ⟨S16x512, .f32⟩
  | .hbm, ⟨16, _⟩ => ⟨S16x512, .f32⟩
  | .hbm, ⟨17, _⟩ => ⟨S16x512x1, .f32⟩
  | .hbm, ⟨18, _⟩ => ⟨S16x512x512, .f32⟩
  | .hbm, ⟨19, _⟩ => ⟨S16x512x512, .f32⟩
  | .hbm, ⟨20, _⟩ => ⟨S16x512x512, .f32⟩
  | .hbm, ⟨21, _⟩ => ⟨S_, .f32⟩
  | .hbm, ⟨22, _⟩ => ⟨S16x512, .f32⟩
  | .hbm, ⟨23, _⟩ => ⟨S16x512x1, .f32⟩
  | .hbm, ⟨24, _⟩ => ⟨S16x512x512, .f32⟩
  | .hbm, ⟨25, _⟩ => ⟨S16x512x512, .f32⟩
  | .hbm, ⟨26, _⟩ => ⟨S16x512x4096, .f32⟩
  | .hbm, ⟨27, _⟩ => ⟨S16x512x64x64, .f32⟩
  | .hbm, ⟨28, _⟩ => ⟨S16x1024x64x64, .f32⟩
  | .hbm, ⟨29, _⟩ => ⟨S_, .f32⟩
  | .hbm, ⟨30, _⟩ => ⟨S16x1024, .f32⟩
  | .hbm, ⟨31, _⟩ => ⟨S_, .f32⟩
  | .hbm, ⟨32, _⟩ => ⟨S16x1024, .f32⟩
  | .hbm, ⟨33, _⟩ => ⟨S16x1024, .f32⟩
  | .hbm, ⟨34, _⟩ => ⟨S1024x64, .f32⟩
  | .hbm, ⟨35, _⟩ => ⟨S16x64, .f32⟩
  | .hbm, ⟨36, _⟩ => ⟨S1x64, .f32⟩
  | .hbm, ⟨37, _⟩ => ⟨S16x64, .f32⟩
  | .hbm, ⟨38, _⟩ => ⟨S16x64, .f32⟩
  | .hbm, ⟨39, _⟩ => ⟨S_, .f32⟩
  | .hbm, ⟨40, _⟩ => ⟨S16x64, .f32⟩
  | .hbm, ⟨41, _⟩ => ⟨S16x64, .f32⟩
  | .hbm, ⟨42, _⟩ => ⟨S64x512, .f32⟩
  | .hbm, ⟨43, _⟩ => ⟨S16x512, .f32⟩
  | .hbm, ⟨44, _⟩ => ⟨S1x512, .f32⟩
  | .hbm, ⟨45, _⟩ => ⟨S16x512, .f32⟩
  | .hbm, ⟨46, _⟩ => ⟨S16x512, .f32⟩
  | .hbm, ⟨47, _⟩ => ⟨S16x512, .f32⟩
  | .hbm, ⟨48, _⟩ => ⟨S16x512, .f32⟩
  | .hbm, ⟨49, _⟩ => ⟨S_, .f32⟩
  | .hbm, ⟨50, _⟩ => ⟨S16x512, .f32⟩
  | .hbm, ⟨51, _⟩ => ⟨S16x512, .f32⟩
  | .hbm, ⟨52, _⟩ => ⟨S_, .f32⟩
  | .hbm, ⟨53, _⟩ => ⟨S16x512, .f32⟩
  | .hbm, ⟨54, _⟩ => ⟨S16x512, .f32⟩
  | .hbm, ⟨55, _⟩ => ⟨S16x512x1x1, .f32⟩
  | .hbm, ⟨56, _⟩ => ⟨S16x512x64x64, .f32⟩
  | .hbm, ⟨57, _⟩ => ⟨S16x512x64x64, .f32⟩
  | .hbm, ⟨58, _⟩ => ⟨S_, .f32⟩
  | .hbm, ⟨59, _⟩ => ⟨S16x512x1x1, .f32⟩
  | .hbm, ⟨60, _⟩ => ⟨S16x512x1x1, .f32⟩
  | .hbm, ⟨61, _⟩ => ⟨S16x512x64x64, .f32⟩
  | .hbm, ⟨62, _⟩ => ⟨S16x512x64x64, .f32⟩
  | .hbm, ⟨63, _⟩ => ⟨S16x512x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_cst : Ref sig .tc := ⟨.hbm, 39, rfl⟩
abbrev main_call0_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]

class Facts₀ : Prop where
  shapeCasts_S16x512x64x64_S16x512x4096 : S16x512x64x64.ShapeCasts S16x512x4096
  reducesTo_S16x512x512_S16x512_d2 : S16x512x512.ReducesTo [2] S16x512
  h_S_ : 0 < S_.numel
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  bcast_S_S16x512 : S_.BroadcastsInDim S16x512 (![] : Fin 0 → Fin S16x512.rank)
  shapeCasts_S16x512x4096_S16x512x64x64 : S16x512x4096.ShapeCasts S16x512x64x64
  concatenates_S16x512x64x64_S16x512x64x64_S16x1024x64x64_d1 : Shape.Concatenates [S16x512x64x64, S16x512x64x64] S16x1024x64x64 1
  reducesTo_S16x1024x64x64_S16x1024_d2_3 : S16x1024x64x64.ReducesTo [2, 3] S16x1024
  bcast_S_S16x1024 : S_.BroadcastsInDim S16x1024 (![] : Fin 0 → Fin S16x1024.rank)
  transposes_S64x1024_S1024x64_1_0 : S64x1024.Transposes [1, 0] S1024x64
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  bcast_S_S16x64 : S_.BroadcastsInDim S16x64 (![] : Fin 0 → Fin S16x64.rank)
  transposes_S512x64_S64x512_1_0 : S512x64.Transposes [1, 0] S64x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S16x512_S16x512x1x1_0_1 : S16x512.BroadcastsInDim S16x512x1x1 (![0, 1] : Fin 2 → Fin S16x512x1x1.rank)
  bcast_S16x512x1x1_S16x512x64x64_0_1_2_3 : S16x512x1x1.BroadcastsInDim S16x512x64x64 (![0, 1, 2, 3] : Fin 4 → Fin S16x512x64x64.rank)
  bcast_S_S16x512x1x1 : S_.BroadcastsInDim S16x512x1x1 (![] : Fin 0 → Fin S16x512x1x1.rank)
  dot_S16x512x4096_S16x512x4096_S16x512x512_2_2_1_1_0_0_wf : DotDims.WF S16x512x4096 S16x512x4096 S16x512x512 [2] [2] [1] [1] [0] [0]
  dot_S16x512x512_S16x512x4096_S16x512x4096_2_1_1_2_0_0_wf : DotDims.WF S16x512x512 S16x512x4096 S16x512x4096 [2] [1] [1] [2] [0] [0]
  dot_S16x1024_S1024x64_S16x64_1_0_0_1_n_n_wf : DotDims.WF S16x1024 S1024x64 S16x64 [1] [0] [0] [1] [] []
  dot_S16x64_S64x512_S16x512_1_0_0_1_n_n_wf : DotDims.WF S16x64 S64x512 S16x512 [1] [0] [0] [1] [] []

variable [Facts₀]

def dot_S16x512x4096_S16x512x4096_S16x512x512_2_2_1_1_0_0 : DotDims S16x512x4096 S16x512x4096 S16x512x512 where
  lhsContracting := [2]
  rhsContracting := [2]
  lhsNonContracting := [1]
  rhsNonContracting := [1]
  lhsBatch := [0]
  rhsBatch := [0]
  wf := dot_S16x512x4096_S16x512x4096_S16x512x512_2_2_1_1_0_0_wf
def dot_S16x512x512_S16x512x4096_S16x512x4096_2_1_1_2_0_0 : DotDims S16x512x512 S16x512x4096 S16x512x4096 where
  lhsContracting := [2]
  rhsContracting := [1]
  lhsNonContracting := [1]
  rhsNonContracting := [2]
  lhsBatch := [0]
  rhsBatch := [0]
  wf := dot_S16x512x512_S16x512x4096_S16x512x4096_2_1_1_2_0_0_wf
def dot_S16x1024_S1024x64_S16x64_1_0_0_1_n_n : DotDims S16x1024 S1024x64 S16x64 where
  lhsContracting := [1]
  rhsContracting := [0]
  lhsNonContracting := [0]
  rhsNonContracting := [1]
  lhsBatch := []
  rhsBatch := []
  wf := dot_S16x1024_S1024x64_S16x64_1_0_0_1_n_n_wf
def dot_S16x64_S64x512_S16x512_1_0_0_1_n_n : DotDims S16x64 S64x512 S16x512 where
  lhsContracting := [1]
  rhsContracting := [0]
  lhsNonContracting := [0]
  rhsNonContracting := [1]
  lhsBatch := []
  rhsBatch := []
  wf := dot_S16x64_S64x512_S16x512_1_0_0_1_n_n_wf

class Facts : Prop extends Facts₀ where

variable [Facts]
-- ==== Proof.PiecesBits.lean ====
/-
  What one grid point's body leaves in the result's block, as an explicit list of stores.

  The body first walks the element's block `x0 : [1, 512, 4096]` in 8 runs of 512 positions: run `k` is copied
  (rounded to the narrow format) into columns `512 k … 512 k + 511` of a `[512, 4096]` copy, and its row sums are added to a
  `[512, 1]` accumulator that starts at zero. From the whole copy and the accumulator it computes the attention weights and
  the first gate layer; then it walks the 8 runs again and stores, for run `k`, the blend of the element's run with the
  attention applied to the copy's run. So the result's block is written by 8 stores, one per run, each a function of
  `x0`, the weights `x1 … x4` and nothing else — in particular not of what the copy held before the body ran.

  Stated here for any float family: the stores as a list (`outPieces`), the copy as the function its 8 covering stores
  leave (`copyOf`), the accumulator after `k` runs (`accAt`), and that the lists of stores the two loops make, trip after
  trip, are these.
-/
import proofs.«407397_j81492709474559_3_alg».proof.Proof.Gen.Kernel.Loops
import Idealize.ShloMosaic.Lib.Pipeline.Value
import Idealize.ShloMosaic.Lib.Ring

set_option maxRecDepth 16384

noncomputable section

namespace Cert.Kernel.Body

open Cert.Kernel Cert.Kernel.Gen
open Idealize.ShloMosaic Idealize.ShloMosaic.TcCoe Idealize.ShloMosaic.Tactic
open Idealize.SL Idealize.SL.Sem

variable {F : FTy → Type} [FloatOps F]

/-! ## The rectangles of the runs -/

/-- Run `k` of the element's block. -/
abbrev rIn (k : Fin k0_t1_loop.trips) : Rect S1x512x4096 := Rect.unit (s := S1x512x4096) (k0_off1 k) S1x512x512.size (k0_off1_inb k)
/-- Run `k` of the copy, as the first walk writes it. -/
abbrev rCopy (k : Fin k0_t1_loop.trips) : Rect S512x4096 := Rect.unit (s := S512x4096) (k0_off2 k) S512x512.size (k0_off2_inb k)
/-- Run `k` of the copy, as the second walk reads it. -/
abbrev rCopy' (k : Fin k0_t2_loop.trips) : Rect S512x4096 := Rect.unit (s := S512x4096) (k0_off3 k) S512x512.size (k0_off3_inb k)
/-- Run `k` of the element's block and of the result's block, in the second walk. -/
abbrev rOut (k : Fin k0_t2_loop.trips) : Rect S1x512x4096 := Rect.unit (s := S1x512x4096) (k0_off4 k) S1x512x512.size (k0_off4_inb k)
/-- The whole accumulator. -/
abbrev rAcc : Rect S512x1 := Rect.unit (s := S512x1) ![0, 0] S512x1.size inb_S512x1_S512x1_0_0
/-- The whole copy. -/
abbrev rAll : Rect S512x4096 := Rect.unit (s := S512x4096) ![0, 0] S512x4096.size inb_S512x4096_S512x4096_0_0

/-! ## One trip of each walk -/

/-- A trip of the first walk stores the rounded run into the copy and the run's row sums, added to what the accumulator holds,
    into the accumulator. -/
theorem trip1 (𝒱 : Variants) (c : Dev nD) (bd : Option 𝒱.V) (i : grid0.Coords) (arg1 : Memref sig .tc .vmem S1x512x4096 .f32) (harg1 : arg1.IsWhole) (arg2 : Memref sig .tc .vmem S64x1024 .f32) (harg2 : arg2.IsWhole) (arg3 : Memref sig .tc .vmem S64x1 .f32) (harg3 : arg3.IsWhole) (arg4 : Memref sig .tc .vmem S512x64 .f32) (harg4 : arg4.IsWhole) (arg5 : Memref sig .tc .vmem S512x1 .f32) (harg5 : arg5.IsWhole) (arg6 : Memref sig .tc .vmem S1x512x4096 .f32) (harg6 : arg6.IsWhole) (arg7 : Memref sig .tc .vmem S512x4096 .bf16) (harg7 : arg7.IsWhole) (arg8 : Memref sig .tc .vmem S512x1 .f32) (harg8 : arg8.IsWhole)
    (X_arg1 : BufTy.Contents (Elt F) arg1.view.ty) (k : Fin k0_t1_loop.trips) (f_arg7 : BufTy.Contents (Elt F) arg7.view.ty) (f_arg8 : BufTy.Contents (Elt F) arg8.view.ty) :
    tripL_k0_t1 (F := F) 𝒱 c bd i arg1 harg1 arg2 harg2 arg3 harg3 arg4 harg4 arg5 harg5 arg6 harg6 arg7 harg7 arg8 harg8 X_arg1 k f_arg7 f_arg8
      = ([(⟨rCopy k, k0_pay4 (View.readAt (Elt F) arg1.view (rIn k).toLoadRect X_arg1)⟩ : View.Piece (Elt F) S512x4096 .bf16)],
         [(⟨rAcc, k0_pay5 (View.readAt (Elt F) arg1.view (rIn k).toLoadRect X_arg1) (View.readAt (Elt F) arg8.view rAcc.toLoadRect f_arg8)⟩ : View.Piece (Elt F) S512x1 .f32)]) := by
  unfold tripL_k0_t1
  unfold trip_k0_t1
  rfl

/-- A trip of the second walk stores the blend of the element's run with the attention applied to the copy's run. -/
theorem trip2 (𝒱 : Variants) (c : Dev nD) (bd : Option 𝒱.V) (i : grid0.Coords) (arg1 : Memref sig .tc .vmem S1x512x4096 .f32) (harg1 : arg1.IsWhole) (arg2 : Memref sig .tc .vmem S64x1024 .f32) (harg2 : arg2.IsWhole) (arg3 : Memref sig .tc .vmem S64x1 .f32) (harg3 : arg3.IsWhole) (arg4 : Memref sig .tc .vmem S512x64 .f32) (harg4 : arg4.IsWhole) (arg5 : Memref sig .tc .vmem S512x1 .f32) (harg5 : arg5.IsWhole) (arg6 : Memref sig .tc .vmem S1x512x4096 .f32) (harg6 : arg6.IsWhole) (arg7 : Memref sig .tc .vmem S512x4096 .bf16) (harg7 : arg7.IsWhole) (arg8 : Memref sig .tc .vmem S512x1 .f32) (harg8 : arg8.IsWhole)
    (v20 : FVec F S512x512 .bf16) (v29 : FVec F S64x1 .f32) (cst_20 : F .f32) (v32 : Vec F S512x64 .f32) (v34 : Vec F S512x1 .f32)
    (X_arg1 : BufTy.Contents (Elt F) arg1.view.ty) (X_arg7 : BufTy.Contents (Elt F) arg7.view.ty) (k : Fin k0_t2_loop.trips) :
    tripL_k0_t2 (F := F) 𝒱 c bd i arg1 harg1 arg2 harg2 arg3 harg3 arg4 harg4 arg5 harg5 arg6 harg6 arg7 harg7 arg8 harg8 v20 v29 cst_20 v32 v34 X_arg1 X_arg7 k
      = [(⟨rOut k, k0_pay1 v20 v29 cst_20 v32 v34 (View.readAt (Elt F) arg7.view (rCopy' k).toLoadRect X_arg7)
            (View.readAt (Elt F) arg1.view (rOut k).toLoadRect X_arg1)⟩ : View.Piece (Elt F) S1x512x4096 .f32)] := by
  unfold tripL_k0_t2
  unfold trip_k0_t2
  rfl

/-! ## The explicit values -/

/-- Run `k` of the element's block. -/
def chunk (x0 : Vec F S1x512x4096 .f32) (k : Fin k0_t1_loop.trips) : Vec F S1x512x512 .f32 := View.ld x0 (rIn k)

/-- The stores the first `k` trips of the first walk make into the copy (last first). -/
def copyPieces (x0 : Vec F S1x512x4096 .f32) : ℕ → List (View.Piece (Elt F) S512x4096 .bf16)
  | 0 => []
  | k + 1 =>
    if h : k < k0_t1_loop.trips then
      (⟨rCopy ⟨k, h⟩, k0_pay4 (chunk x0 ⟨k, h⟩)⟩ : View.Piece (Elt F) S512x4096 .bf16) :: copyPieces x0 k
    else copyPieces x0 k

/-- The accumulator after the first `k` trips of the first walk. -/
def accAt (x0 : Vec F S1x512x4096 .f32) : ℕ → Vec F S512x1 .f32
  | 0 => k0_pay2
  | k + 1 => if h : k < k0_t1_loop.trips then k0_pay5 (chunk x0 ⟨k, h⟩) (accAt x0 k) else accAt x0 k

/-- The copy after the first walk: what its 8 stores leave. -/
def copyOf (x0 : Vec F S1x512x4096 .f32) : Vec F S512x4096 .bf16 := View.canon (copyPieces x0 k0_t1_loop.trips)

/-- The stores the first `k` trips of the second walk make into the result's block (last first), over the attention weights
    `v20`, the first gate layer `v29`, the second layer's weights and the copy `Q`. -/
def outPiecesOf (v20 : FVec F S512x512 .bf16) (v29 : FVec F S64x1 .f32) (cst : F .f32) (v32 : Vec F S512x64 .f32) (v34 : Vec F S512x1 .f32)
    (x0 : Vec F S1x512x4096 .f32) (Q : Vec F S512x4096 .bf16) : ℕ → List (View.Piece (Elt F) S1x512x4096 .f32)
  | 0 => []
  | k + 1 =>
    if h : k < k0_t2_loop.trips then
      (⟨rOut ⟨k, h⟩, k0_pay1 v20 v29 cst v32 v34 (View.ld Q (rCopy' ⟨k, h⟩)) (View.ld x0 (rOut ⟨k, h⟩))⟩ : View.Piece (Elt F) S1x512x4096 .f32)
        :: outPiecesOf v20 v29 cst v32 v34 x0 Q k
    else outPiecesOf v20 v29 cst v32 v34 x0 Q k

/-- The attention weights the body computes from the copy. -/
def attnOf (x0 : Vec F S1x512x4096 .f32) : FVec F S512x512 .bf16 := k0_pay7 (View.ld (copyOf x0) rAll) (View.ld (copyOf x0) rAll)

/-- The first gate layer (before its `max · 0`) the body computes from the accumulator, the copy and the first layer's weights. -/
def hiddenOf (x0 : Vec F S1x512x4096 .f32) (x1 : Vec F S64x1024 .f32) (x2 : Vec F S64x1 .f32) : FVec F S64x1 .f32 :=
  k0_pay8 (View.ld (accAt x0 k0_t1_loop.trips) rAcc) (View.ld (copyOf x0) rAll) (View.ld (copyOf x0) rAll)
    (View.ld x1 (Rect.unit (s := S64x1024) ![0, 0] S64x512.size inb_S64x1024_S64x512_0_0))
    (View.ld x1 (Rect.unit (s := S64x1024) ![0, 512] S64x512.size inb_S64x1024_S64x512_0_512))
    (View.ld x2 (Rect.unit (s := S64x1) ![0, 0] S64x1.size inb_S64x1_S64x1_0_0))

/-- THE STORES of one grid point's body into the result's block, as functions of the point's input blocks. -/
def outPieces (x0 : Vec F S1x512x4096 .f32) (x1 : Vec F S64x1024 .f32) (x2 : Vec F S64x1 .f32) (x3 : Vec F S512x64 .f32) (x4 : Vec F S512x1 .f32) :
    List (View.Piece (Elt F) S1x512x4096 .f32) :=
  outPiecesOf (attnOf x0) (hiddenOf x0 x1 x2) (FloatOps.ofBits FTy.f32 0#32)
    (View.ld x3 (Rect.unit (s := S512x64) ![0, 0] S512x64.size inb_S512x64_S512x64_0_0))
    (View.ld x4 (Rect.unit (s := S512x1) ![0, 0] S512x1.size inb_S512x1_S512x1_0_0)) x0 (copyOf x0) k0_t2_loop.trips

/-! ## Reads through whole memrefs -/

/-- A load from a whole memref holding `X` reads `X` through the load's rectangle. -/
theorem readAt_unread {sp : Space} {S : Shape} {e : EltTy} (m : Memref sig .tc sp S e) (h : m.IsWhole) (X : S.Idx → Elt F e) (r : Rect S) :
    View.readAt (Elt F) m.view r.toLoadRect (h.unread X) = View.ld X r := by
  rw [View.readAt_eq_ld, h.read_unread]

theorem zero2 : (![0, 0] : Fin S512x1.rank → ℕ) = fun _ => 0 := by
  funext a; match a with | ⟨0, _⟩ => rfl | ⟨1, _⟩ => rfl

theorem zero2' : (![0, 0] : Fin S512x4096.rank → ℕ) = fun _ => 0 := by
  funext a; match a with | ⟨0, _⟩ => rfl | ⟨1, _⟩ => rfl

/-- After a store through a buffer's whole shape, made last, the buffer reads that store's value. -/
theorem read_writes_unit_zero {sp : Space} {S : Shape} {e : EltTy} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h; funext y
  have e := View.read_writes_cons_emb (Val := Elt F) v f (Rect.whole S) w L y
  rw [Rect.emb_whole_apply] at e
  exact e

/-! ## The first walk, trip after trip -/

/-- The copy's stores after `k` trips are `copyPieces`: they do not depend on what the copy or the accumulator held. -/
theorem pb1_fst (𝒱 : Variants) (c : Dev nD) (bd : Option 𝒱.V) (i : grid0.Coords) (arg1 : Memref sig .tc .vmem S1x512x4096 .f32) (harg1 : arg1.IsWhole) (arg2 : Memref sig .tc .vmem S64x1024 .f32) (harg2 : arg2.IsWhole) (arg3 : Memref sig .tc .vmem S64x1 .f32) (harg3 : arg3.IsWhole) (arg4 : Memref sig .tc .vmem S512x64 .f32) (harg4 : arg4.IsWhole) (arg5 : Memref sig .tc .vmem S512x1 .f32) (harg5 : arg5.IsWhole) (arg6 : Memref sig .tc .vmem S1x512x4096 .f32) (harg6 : arg6.IsWhole) (arg7 : Memref sig .tc .vmem S512x4096 .bf16) (harg7 : arg7.IsWhole) (arg8 : Memref sig .tc .vmem S512x1 .f32) (harg8 : arg8.IsWhole) (x0 : Vec F S1x512x4096 .f32)
    (G7 : BufTy.Contents (Elt F) arg7.view.ty) (G8 : BufTy.Contents (Elt F) arg8.view.ty) :
    ∀ k, k ≤ k0_t1_loop.trips → (pb_k0_t1 (F := F) 𝒱 c bd i arg1 harg1 arg2 harg2 arg3 harg3 arg4 harg4 arg5 harg5 arg6 harg6 arg7 harg7 arg8 harg8 (harg1.unread x0) G7 G8 k).1 = copyPieces x0 k
  | 0, _ => rfl
  | k + 1, hk => by
    have hk' : k < k0_t1_loop.trips := hk
    have ih := pb1_fst 𝒱 c bd i arg1 harg1 arg2 harg2 arg3 harg3 arg4 harg4 arg5 harg5 arg6 harg6 arg7 harg7 arg8 harg8 x0 G7 G8 k (Nat.le_of_lt hk')
    have e := pb_k0_t1_succ (F := F) 𝒱 c bd i arg1 harg1 arg2 harg2 arg3 harg3 arg4 harg4 arg5 harg5 arg6 harg6 arg7 harg7 arg8 harg8 (harg1.unread x0) G7 G8 ⟨k, hk'⟩
    rw [show copyPieces x0 (k + 1) = (⟨rCopy ⟨k, hk'⟩, k0_pay4 (chunk x0 ⟨k, hk'⟩)⟩ : View.Piece (Elt F) S512x4096 .bf16) :: copyPieces x0 k from by
      rw [copyPieces, dif_pos hk']]
    refine (congrArg Prod.fst e).trans ?_
    rw [trip1]
    dsimp only
    rw [ih, readAt_unread]
    rfl

/-- The accumulator after `k` trips reads `accAt x0 k`, whatever it held before the body zeroed it. -/
theorem pb1_snd_read (𝒱 : Variants) (c : Dev nD) (bd : Option 𝒱.V) (i : grid0.Coords) (arg1 : Memref sig .tc .vmem S1x512x4096 .f32) (harg1 : arg1.IsWhole) (arg2 : Memref sig .tc .vmem S64x1024 .f32) (harg2 : arg2.IsWhole) (arg3 : Memref sig .tc .vmem S64x1 .f32) (harg3 : arg3.IsWhole) (arg4 : Memref sig .tc .vmem S512x64 .f32) (harg4 : arg4.IsWhole) (arg5 : Memref sig .tc .vmem S512x1 .f32) (harg5 : arg5.IsWhole) (arg6 : Memref sig .tc .vmem S1x512x4096 .f32) (harg6 : arg6.IsWhole) (arg7 : Memref sig .tc .vmem S512x4096 .bf16) (harg7 : arg7.IsWhole) (arg8 : Memref sig .tc .vmem S512x1 .f32) (harg8 : arg8.IsWhole) (x0 : Vec F S1x512x4096 .f32)
    (G7 : BufTy.Contents (Elt F) arg7.view.ty) (f : BufTy.Contents (Elt F) arg8.view.ty) :
    ∀ k, k ≤ k0_t1_loop.trips →
      arg8.view.read (Elt F) (arg8.view.writes (Elt F) (arg8.view.writes (Elt F) f [(⟨rAcc, k0_pay2⟩ : View.Piece (Elt F) S512x1 .f32)])
        (pb_k0_t1 (F := F) 𝒱 c bd i arg1 harg1 arg2 harg2 arg3 harg3 arg4 harg4 arg5 harg5 arg6 harg6 arg7 harg7 arg8 harg8 (harg1.unread x0) G7 (arg8.view.writes (Elt F) f [(⟨rAcc, k0_pay2⟩ : View.Piece (Elt F) S512x1 .f32)]) k).2) = accAt x0 k
  | 0, _ => by
    show arg8.view.read (Elt F) (arg8.view.writes (Elt F) f [(⟨rAcc, k0_pay2⟩ : View.Piece (Elt F) S512x1 .f32)]) = k0_pay2
    exact read_writes_unit_zero _ _ zero2 _ _ _
  | k + 1, hk => by
    have hk' : k < k0_t1_loop.trips := hk
    have ih := pb1_snd_read 𝒱 c bd i arg1 harg1 arg2 harg2 arg3 harg3 arg4 harg4 arg5 harg5 arg6 harg6 arg7 harg7 arg8 harg8 x0 G7 f k (Nat.le_of_lt hk')
    have e := pb_k0_t1_succ (F := F) 𝒱 c bd i arg1 harg1 arg2 harg2 arg3 harg3 arg4 harg4 arg5 harg5 arg6 harg6 arg7 harg7 arg8 harg8 (harg1.unread x0) G7 (arg8.view.writes (Elt F) f [(⟨rAcc, k0_pay2⟩ : View.Piece (Elt F) S512x1 .f32)]) ⟨k, hk'⟩
    rw [show accAt x0 (k + 1) = k0_pay5 (chunk x0 ⟨k, hk'⟩) (accAt x0 k) from by rw [accAt, dif_pos hk']]
    rw [congrArg Prod.snd e, trip1]
    dsimp only
    rw [List.singleton_append, read_writes_unit_zero _ _ zero2, readAt_unread, View.readAt_eq_ld, ih, View.ld_unit_zero zero2]
    rfl

/-! ## The copy read back -/

/-- The 8 stores of the first walk tile the copy. -/
theorem copy_cover (x0 : Vec F S1x512x4096 .f32) (y : S512x4096.Idx) : ∃ p ∈ copyPieces x0 k0_t1_loop.trips, y ∈ p.1.set :=
  View.cover_of_tiledL (copyPieces x0 k0_t1_loop.trips) S512x512.size (by sl_kernel_rfl) y

/-- So a load from the copy after the first walk reads `copyOf x0`, whatever the copy held before. -/
theorem copy_readAt (v : View sig .tc .vmem S512x4096 .bf16) (f : v.ty.Contents (Elt F)) (x0 : Vec F S1x512x4096 .f32) (r : Rect S512x4096) :
    View.readAt (Elt F) v r.toLoadRect (v.writes (Elt F) f (copyPieces x0 k0_t1_loop.trips)) = View.ld (copyOf x0) r := by
  rw [View.readAt_eq_ld, View.read_writes_eq_canon v f _ (copy_cover x0)]
  rfl

/-! ## The second walk, trip after trip -/

theorem pb2_eq (𝒱 : Variants) (c : Dev nD) (bd : Option 𝒱.V) (i : grid0.Coords) (arg1 : Memref sig .tc .vmem S1x512x4096 .f32) (harg1 : arg1.IsWhole) (arg2 : Memref sig .tc .vmem S64x1024 .f32) (harg2 : arg2.IsWhole) (arg3 : Memref sig .tc .vmem S64x1 .f32) (harg3 : arg3.IsWhole) (arg4 : Memref sig .tc .vmem S512x64 .f32) (harg4 : arg4.IsWhole) (arg5 : Memref sig .tc .vmem S512x1 .f32) (harg5 : arg5.IsWhole) (arg6 : Memref sig .tc .vmem S1x512x4096 .f32) (harg6 : arg6.IsWhole) (arg7 : Memref sig .tc .vmem S512x4096 .bf16) (harg7 : arg7.IsWhole) (arg8 : Memref sig .tc .vmem S512x1 .f32) (harg8 : arg8.IsWhole)
    (v20 : FVec F S512x512 .bf16) (v29 : FVec F S64x1 .f32) (cst : F .f32) (v32 : Vec F S512x64 .f32) (v34 : Vec F S512x1 .f32)
    (x0 : Vec F S1x512x4096 .f32) (X7 : BufTy.Contents (Elt F) arg7.view.ty) (Q : Vec F S512x4096 .bf16)
    (hQ : ∀ k : Fin k0_t2_loop.trips, View.readAt (Elt F) arg7.view (rCopy' k).toLoadRect X7 = View.ld Q (rCopy' k)) :
    ∀ k, k ≤ k0_t2_loop.trips →
      pb_k0_t2 (F := F) 𝒱 c bd i arg1 harg1 arg2 harg2 arg3 harg3 arg4 harg4 arg5 harg5 arg6 harg6 arg7 harg7 arg8 harg8 v20 v29 cst v32 v34 (harg1.unread x0) X7 k = outPiecesOf v20 v29 cst v32 v34 x0 Q k
  | 0, _ => rfl
  | k + 1, hk => by
    have hk' : k < k0_t2_loop.trips := hk
    have ih := pb2_eq 𝒱 c bd i arg1 harg1 arg2 harg2 arg3 harg3 arg4 harg4 arg5 harg5 arg6 harg6 arg7 harg7 arg8 harg8 v20 v29 cst v32 v34 x0 X7 Q hQ k (Nat.le_of_lt hk')
    have e := pb_k0_t2_succ (F := F) 𝒱 c bd i arg1 harg1 arg2 harg2 arg3 harg3 arg4 harg4 arg5 harg5 arg6 harg6 arg7 harg7 arg8 harg8 v20 v29 cst v32 v34 (harg1.unread x0) X7 ⟨k, hk'⟩
    rw [show outPiecesOf v20 v29 cst v32 v34 x0 Q (k + 1)
        = (⟨rOut ⟨k, hk'⟩, k0_pay1 v20 v29 cst v32 v34 (View.ld Q (rCopy' ⟨k, hk'⟩)) (View.ld x0 (rOut ⟨k, hk'⟩))⟩ : View.Piece (Elt F) S1x512x4096 .f32)
          :: outPiecesOf v20 v29 cst v32 v34 x0 Q k from by rw [outPiecesOf, dif_pos hk']]
    refine e.trans ?_
    rw [trip2, ih, hQ, readAt_unread]
    rfl

/-! ## What the body's run finds is `outPieces` -/

/-- The list of stores the run of the body finds for the result's block — stated by the run over the start contents `fs0` of the
    copy — is `outPieces` of the input blocks. -/
theorem found_eq (c : Dev nD) (i : grid0.Coords) (arg1 : Memref sig .tc .vmem S1x512x4096 .f32) (harg1 : arg1.IsWhole) (arg2 : Memref sig .tc .vmem S64x1024 .f32) (harg2 : arg2.IsWhole) (arg3 : Memref sig .tc .vmem S64x1 .f32) (harg3 : arg3.IsWhole) (arg4 : Memref sig .tc .vmem S512x64 .f32) (harg4 : arg4.IsWhole) (arg5 : Memref sig .tc .vmem S512x1 .f32) (harg5 : arg5.IsWhole) (arg6 : Memref sig .tc .vmem S1x512x4096 .f32) (harg6 : arg6.IsWhole) (arg7 : Memref sig .tc .vmem S512x4096 .bf16) (harg7 : arg7.IsWhole) (arg8 : Memref sig .tc .vmem S512x1 .f32) (harg8 : arg8.IsWhole)
    (x0 : Vec F S1x512x4096 .f32) (x1 : Vec F S64x1024 .f32) (x2 : Vec F S64x1 .f32) (x3 : Vec F S512x64 .f32) (x4 : Vec F S512x1 .f32)
    (fs0 : BufTy.Contents (Elt F) arg7.view.ty) :
    pb_k0_t2 (F := F) Variants.none c none i arg1 harg1 arg2 harg2 arg3 harg3 arg4 harg4 arg5 harg5 arg6 harg6 arg7 harg7 arg8 harg8
        (k0_pay7 (View.readAt (Elt F) arg7.view rAll.toLoadRect (arg7.view.writes (Elt F) fs0 (pb_k0_t1 (F := F) Variants.none c none i arg1 harg1 arg2 harg2 arg3 harg3 arg4 harg4 arg5 harg5 arg6 harg6 arg7 harg7 arg8 harg8 (harg1.unread x0) fs0 (arg8.view.writes (Elt F) arg8.view.junk [(⟨rAcc, k0_pay2⟩ : View.Piece (Elt F) S512x1 .f32)]) (Scf.trips k0_t1_loop.lb k0_t1_loop.ub k0_t1_loop.st)).1)) (View.readAt (Elt F) arg7.view rAll.toLoadRect (arg7.view.writes (Elt F) fs0 (pb_k0_t1 (F := F) Variants.none c none i arg1 harg1 arg2 harg2 arg3 harg3 arg4 harg4 arg5 harg5 arg6 harg6 arg7 harg7 arg8 harg8 (harg1.unread x0) fs0 (arg8.view.writes (Elt F) arg8.view.junk [(⟨rAcc, k0_pay2⟩ : View.Piece (Elt F) S512x1 .f32)]) (Scf.trips k0_t1_loop.lb k0_t1_loop.ub k0_t1_loop.st)).1)))
        (k0_pay8 (View.readAt (Elt F) arg8.view rAcc.toLoadRect (arg8.view.writes (Elt F) arg8.view.junk ((pb_k0_t1 (F := F) Variants.none c none i arg1 harg1 arg2 harg2 arg3 harg3 arg4 harg4 arg5 harg5 arg6 harg6 arg7 harg7 arg8 harg8 (harg1.unread x0) fs0 (arg8.view.writes (Elt F) arg8.view.junk [(⟨rAcc, k0_pay2⟩ : View.Piece (Elt F) S512x1 .f32)]) (Scf.trips k0_t1_loop.lb k0_t1_loop.ub k0_t1_loop.st)).2 ++ [(⟨rAcc, k0_pay2⟩ : View.Piece (Elt F) S512x1 .f32)]))) (View.readAt (Elt F) arg7.view rAll.toLoadRect (arg7.view.writes (Elt F) fs0 (pb_k0_t1 (F := F) Variants.none c none i arg1 harg1 arg2 harg2 arg3 harg3 arg4 harg4 arg5 harg5 arg6 harg6 arg7 harg7 arg8 harg8 (harg1.unread x0) fs0 (arg8.view.writes (Elt F) arg8.view.junk [(⟨rAcc, k0_pay2⟩ : View.Piece (Elt F) S512x1 .f32)]) (Scf.trips k0_t1_loop.lb k0_t1_loop.ub k0_t1_loop.st)).1)) (View.readAt (Elt F) arg7.view rAll.toLoadRect (arg7.view.writes (Elt F) fs0 (pb_k0_t1 (F := F) Variants.none c none i arg1 harg1 arg2 harg2 arg3 harg3 arg4 harg4 arg5 harg5 arg6 harg6 arg7 harg7 arg8 harg8 (harg1.unread x0) fs0 (arg8.view.writes (Elt F) arg8.view.junk [(⟨rAcc, k0_pay2⟩ : View.Piece (Elt F) S512x1 .f32)]) (Scf.trips k0_t1_loop.lb k0_t1_loop.ub k0_t1_loop.st)).1))
          (View.readAt (Elt F) arg2.view (Rect.unit (s := S64x1024) ![0, 0] S64x512.size inb_S64x1024_S64x512_0_0).toLoadRect (harg2.unread x1))
          (View.readAt (Elt F) arg2.view (Rect.unit (s := S64x1024) ![0, 512] S64x512.size inb_S64x1024_S64x512_0_512).toLoadRect (harg2.unread x1))
          (View.readAt (Elt F) arg3.view (Rect.unit (s := S64x1) ![0, 0] S64x1.size inb_S64x1_S64x1_0_0).toLoadRect (harg3.unread x2)))
        (FloatOps.ofBits FTy.f32 0#32)
        (View.readAt (Elt F) arg4.view (Rect.unit (s := S512x64) ![0, 0] S512x64.size inb_S512x64_S512x64_0_0).toLoadRect (harg4.unread x3))
        (View.readAt (Elt F) arg5.view (Rect.unit (s := S512x1) ![0, 0] S512x1.size inb_S512x1_S512x1_0_0).toLoadRect (harg5.unread x4))
        (harg1.unread x0)
        (arg7.view.writes (Elt F) fs0 (pb_k0_t1 (F := F) Variants.none c none i arg1 harg1 arg2 harg2 arg3 harg3 arg4 harg4 arg5 harg5 arg6 harg6 arg7 harg7 arg8 harg8 (harg1.unread x0) fs0 (arg8.view.writes (Elt F) arg8.view.junk [(⟨rAcc, k0_pay2⟩ : View.Piece (Elt F) S512x1 .f32)]) (Scf.trips k0_t1_loop.lb k0_t1_loop.ub k0_t1_loop.st)).1)
        (Scf.trips k0_t2_loop.lb k0_t2_loop.ub k0_t2_loop.st)
      = outPieces x0 x1 x2 x3 x4 := by
  have h1 := pb1_fst (F := F) Variants.none c none i arg1 harg1 arg2 harg2 arg3 harg3 arg4 harg4 arg5 harg5 arg6 harg6 arg7 harg7 arg8 harg8 x0 fs0 (arg8.view.writes (Elt F) arg8.view.junk [(⟨rAcc, k0_pay2⟩ : View.Piece (Elt F) S512x1 .f32)]) _ (le_refl k0_t1_loop.trips)
  have h2 := pb1_snd_read (F := F) Variants.none c none i arg1 harg1 arg2 harg2 arg3 harg3 arg4 harg4 arg5 harg5 arg6 harg6 arg7 harg7 arg8 harg8 x0 fs0 arg8.view.junk _ (le_refl k0_t1_loop.trips)
  rw [View.writes_append]
  rw [View.readAt_eq_ld (v := arg8.view), show Scf.trips k0_t1_loop.lb k0_t1_loop.ub k0_t1_loop.st = k0_t1_loop.trips from rfl, h2]
  rw [h1]
  simp only [copy_readAt, readAt_unread]
  exact pb2_eq (F := F) Variants.none c none i arg1 harg1 arg2 harg2 arg3 harg3 arg4 harg4 arg5 harg5 arg6 harg6 arg7 harg7 arg8 harg8 _ _ _ _ _ x0 _ (copyOf x0) (fun k => copy_readAt _ _ x0 _) _ (le_refl _)

end Cert.Kernel.Body

end
-- ==== Proof.Pieces.lean ====
/-
  What one grid point's body leaves in the result's block, as an explicit list of stores.

  The body first walks the element's block `x0 : [1, 512, 4096]` in 8 runs of 512 positions: run `k` is copied
  (rounded to the narrow format) into columns `512 k … 512 k + 511` of a `[512, 4096]` copy, and its row sums are added to a
  `[512, 1]` accumulator that starts at zero. From the whole copy and the accumulator it computes the attention weights and
  the first gate layer; then it walks the 8 runs again and stores, for run `k`, the blend of the element's run with the
  attention applied to the copy's run. So the result's block is written by 8 stores, one per run, each a function of
  `x0`, the weights `x1 … x4` and nothing else — in particular not of what the copy held before the body ran.

  Stated here for any float family: the stores as a list (`outPieces`), the copy as the function its 8 covering stores
  leave (`copyOf`), the accumulator after `k` runs (`accAt`), and that the lists of stores the two loops make, trip after
  trip, are these.
-/
import proofs.«407397_j81492709474559_3_alg».proof.Proof.Gen.KernelIdeal.Loops
import Idealize.ShloMosaic.Lib.Pipeline.Value
import Idealize.ShloMosaic.Lib.Ring

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

/-! ## The rectangles of the runs -/

/-- Run `k` of the element's block. -/
abbrev rIn (k : Fin k0_t1_loop.trips) : Rect S1x512x4096 := Rect.unit (s := S1x512x4096) (k0_off1 k) S1x512x512.size (k0_off1_inb k)
/-- Run `k` of the copy, as the first walk writes it. -/
abbrev rCopy (k : Fin k0_t1_loop.trips) : Rect S512x4096 := Rect.unit (s := S512x4096) (k0_off2 k) S512x512.size (k0_off2_inb k)
/-- Run `k` of the copy, as the second walk reads it. -/
abbrev rCopy' (k : Fin k0_t2_loop.trips) : Rect S512x4096 := Rect.unit (s := S512x4096) (k0_off3 k) S512x512.size (k0_off3_inb k)
/-- Run `k` of the element's block and of the result's block, in the second walk. -/
abbrev rOut (k : Fin k0_t2_loop.trips) : Rect S1x512x4096 := Rect.unit (s := S1x512x4096) (k0_off4 k) S1x512x512.size (k0_off4_inb k)
/-- The whole accumulator. -/
abbrev rAcc : Rect S512x1 := Rect.unit (s := S512x1) ![0, 0] S512x1.size inb_S512x1_S512x1_0_0
/-- The whole copy. -/
abbrev rAll : Rect S512x4096 := Rect.unit (s := S512x4096) ![0, 0] S512x4096.size inb_S512x4096_S512x4096_0_0

/-! ## One trip of each walk -/

/-- A trip of the first walk stores the rounded run into the copy and the run's row sums, added to what the accumulator holds,
    into the accumulator. -/
theorem trip1 (𝒱 : Variants) (c : Dev nD) (bd : Option 𝒱.V) (i : grid0.Coords) (arg1 : Memref sig .tc .vmem S1x512x4096 .f32) (harg1 : arg1.IsWhole) (arg2 : Memref sig .tc .vmem S64x1024 .f32) (harg2 : arg2.IsWhole) (arg3 : Memref sig .tc .vmem S64x1 .f32) (harg3 : arg3.IsWhole) (arg4 : Memref sig .tc .vmem S512x64 .f32) (harg4 : arg4.IsWhole) (arg5 : Memref sig .tc .vmem S512x1 .f32) (harg5 : arg5.IsWhole) (arg6 : Memref sig .tc .vmem S1x512x4096 .f32) (harg6 : arg6.IsWhole) (arg7 : Memref sig .tc .vmem S512x4096 .bf16) (harg7 : arg7.IsWhole) (arg8 : Memref sig .tc .vmem S512x1 .f32) (harg8 : arg8.IsWhole)
    (X_arg1 : BufTy.Contents (Elt F) arg1.view.ty) (k : Fin k0_t1_loop.trips) (f_arg7 : BufTy.Contents (Elt F) arg7.view.ty) (f_arg8 : BufTy.Contents (Elt F) arg8.view.ty) :
    tripL_k0_t1 (F := F) 𝒱 c bd i arg1 harg1 arg2 harg2 arg3 harg3 arg4 harg4 arg5 harg5 arg6 harg6 arg7 harg7 arg8 harg8 X_arg1 k f_arg7 f_arg8
      = ([(⟨rCopy k, k0_pay4 (View.readAt (Elt F) arg1.view (rIn k).toLoadRect X_arg1)⟩ : View.Piece (Elt F) S512x4096 .bf16)],
         [(⟨rAcc, k0_pay5 (View.readAt (Elt F) arg1.view (rIn k).toLoadRect X_arg1) (View.readAt (Elt F) arg8.view rAcc.toLoadRect f_arg8)⟩ : View.Piece (Elt F) S512x1 .f32)]) := by
  unfold tripL_k0_t1
  unfold trip_k0_t1
  rfl

/-- A trip of the second walk stores the blend of the element's run with the attention applied to the copy's run. -/
theorem trip2 (𝒱 : Variants) (c : Dev nD) (bd : Option 𝒱.V) (i : grid0.Coords) (arg1 : Memref sig .tc .vmem S1x512x4096 .f32) (harg1 : arg1.IsWhole) (arg2 : Memref sig .tc .vmem S64x1024 .f32) (harg2 : arg2.IsWhole) (arg3 : Memref sig .tc .vmem S64x1 .f32) (harg3 : arg3.IsWhole) (arg4 : Memref sig .tc .vmem S512x64 .f32) (harg4 : arg4.IsWhole) (arg5 : Memref sig .tc .vmem S512x1 .f32) (harg5 : arg5.IsWhole) (arg6 : Memref sig .tc .vmem S1x512x4096 .f32) (harg6 : arg6.IsWhole) (arg7 : Memref sig .tc .vmem S512x4096 .bf16) (harg7 : arg7.IsWhole) (arg8 : Memref sig .tc .vmem S512x1 .f32) (harg8 : arg8.IsWhole)
    (v20 : FVec F S512x512 .bf16) (v29 : FVec F S64x1 .f32) (cst_20 : F .f32) (v32 : Vec F S512x64 .f32) (v34 : Vec F S512x1 .f32)
    (X_arg1 : BufTy.Contents (Elt F) arg1.view.ty) (X_arg7 : BufTy.Contents (Elt F) arg7.view.ty) (k : Fin k0_t2_loop.trips) :
    tripL_k0_t2 (F := F) 𝒱 c bd i arg1 harg1 arg2 harg2 arg3 harg3 arg4 harg4 arg5 harg5 arg6 harg6 arg7 harg7 arg8 harg8 v20 v29 cst_20 v32 v34 X_arg1 X_arg7 k
      = [(⟨rOut k, k0_pay1 v20 v29 cst_20 v32 v34 (View.readAt (Elt F) arg7.view (rCopy' k).toLoadRect X_arg7)
            (View.readAt (Elt F) arg1.view (rOut k).toLoadRect X_arg1)⟩ : View.Piece (Elt F) S1x512x4096 .f32)] := by
  unfold tripL_k0_t2
  unfold trip_k0_t2
  rfl

/-! ## The explicit values -/

/-- Run `k` of the element's block. -/
def chunk (x0 : Vec F S1x512x4096 .f32) (k : Fin k0_t1_loop.trips) : Vec F S1x512x512 .f32 := View.ld x0 (rIn k)

/-- The stores the first `k` trips of the first walk make into the copy (last first). -/
def copyPieces (x0 : Vec F S1x512x4096 .f32) : ℕ → List (View.Piece (Elt F) S512x4096 .bf16)
  | 0 => []
  | k + 1 =>
    if h : k < k0_t1_loop.trips then
      (⟨rCopy ⟨k, h⟩, k0_pay4 (chunk x0 ⟨k, h⟩)⟩ : View.Piece (Elt F) S512x4096 .bf16) :: copyPieces x0 k
    else copyPieces x0 k

/-- The accumulator after the first `k` trips of the first walk. -/
def accAt (x0 : Vec F S1x512x4096 .f32) : ℕ → Vec F S512x1 .f32
  | 0 => k0_pay2
  | k + 1 => if h : k < k0_t1_loop.trips then k0_pay5 (chunk x0 ⟨k, h⟩) (accAt x0 k) else accAt x0 k

/-- The copy after the first walk: what its 8 stores leave. -/
def copyOf (x0 : Vec F S1x512x4096 .f32) : Vec F S512x4096 .bf16 := View.canon (copyPieces x0 k0_t1_loop.trips)

/-- The stores the first `k` trips of the second walk make into the result's block (last first), over the attention weights
    `v20`, the first gate layer `v29`, the second layer's weights and the copy `Q`. -/
def outPiecesOf (v20 : FVec F S512x512 .bf16) (v29 : FVec F S64x1 .f32) (cst : F .f32) (v32 : Vec F S512x64 .f32) (v34 : Vec F S512x1 .f32)
    (x0 : Vec F S1x512x4096 .f32) (Q : Vec F S512x4096 .bf16) : ℕ → List (View.Piece (Elt F) S1x512x4096 .f32)
  | 0 => []
  | k + 1 =>
    if h : k < k0_t2_loop.trips then
      (⟨rOut ⟨k, h⟩, k0_pay1 v20 v29 cst v32 v34 (View.ld Q (rCopy' ⟨k, h⟩)) (View.ld x0 (rOut ⟨k, h⟩))⟩ : View.Piece (Elt F) S1x512x4096 .f32)
        :: outPiecesOf v20 v29 cst v32 v34 x0 Q k
    else outPiecesOf v20 v29 cst v32 v34 x0 Q k

/-- The attention weights the body computes from the copy. -/
def attnOf (x0 : Vec F S1x512x4096 .f32) : FVec F S512x512 .bf16 := k0_pay7 (View.ld (copyOf x0) rAll) (View.ld (copyOf x0) rAll)

/-- The first gate layer (before its `max · 0`) the body computes from the accumulator, the copy and the first layer's weights. -/
def hiddenOf (x0 : Vec F S1x512x4096 .f32) (x1 : Vec F S64x1024 .f32) (x2 : Vec F S64x1 .f32) : FVec F S64x1 .f32 :=
  k0_pay8 (View.ld (accAt x0 k0_t1_loop.trips) rAcc) (View.ld (copyOf x0) rAll) (View.ld (copyOf x0) rAll)
    (View.ld x1 (Rect.unit (s := S64x1024) ![0, 0] S64x512.size inb_S64x1024_S64x512_0_0))
    (View.ld x1 (Rect.unit (s := S64x1024) ![0, 512] S64x512.size inb_S64x1024_S64x512_0_512))
    (View.ld x2 (Rect.unit (s := S64x1) ![0, 0] S64x1.size inb_S64x1_S64x1_0_0))

/-- THE STORES of one grid point's body into the result's block, as functions of the point's input blocks. -/
def outPieces (x0 : Vec F S1x512x4096 .f32) (x1 : Vec F S64x1024 .f32) (x2 : Vec F S64x1 .f32) (x3 : Vec F S512x64 .f32) (x4 : Vec F S512x1 .f32) :
    List (View.Piece (Elt F) S1x512x4096 .f32) :=
  outPiecesOf (attnOf x0) (hiddenOf x0 x1 x2) (FloatOps.ofBits FTy.f32 0#32)
    (View.ld x3 (Rect.unit (s := S512x64) ![0, 0] S512x64.size inb_S512x64_S512x64_0_0))
    (View.ld x4 (Rect.unit (s := S512x1) ![0, 0] S512x1.size inb_S512x1_S512x1_0_0)) x0 (copyOf x0) k0_t2_loop.trips

/-! ## Reads through whole memrefs -/

/-- A load from a whole memref holding `X` reads `X` through the load's rectangle. -/
theorem readAt_unread {sp : Space} {S : Shape} {e : EltTy} (m : Memref sig .tc sp S e) (h : m.IsWhole) (X : S.Idx → Elt F e) (r : Rect S) :
    View.readAt (Elt F) m.view r.toLoadRect (h.unread X) = View.ld X r := by
  rw [View.readAt_eq_ld, h.read_unread]

theorem zero2 : (![0, 0] : Fin S512x1.rank → ℕ) = fun _ => 0 := by
  funext a; match a with | ⟨0, _⟩ => rfl | ⟨1, _⟩ => rfl

theorem zero2' : (![0, 0] : Fin S512x4096.rank → ℕ) = fun _ => 0 := by
  funext a; match a with | ⟨0, _⟩ => rfl | ⟨1, _⟩ => rfl

/-- After a store through a buffer's whole shape, made last, the buffer reads that store's value. -/
theorem read_writes_unit_zero {sp : Space} {S : Shape} {e : EltTy} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h; funext y
  have e := View.read_writes_cons_emb (Val := Elt F) v f (Rect.whole S) w L y
  rw [Rect.emb_whole_apply] at e
  exact e

/-! ## The first walk, trip after trip -/

/-- The copy's stores after `k` trips are `copyPieces`: they do not depend on what the copy or the accumulator held. -/
theorem pb1_fst (𝒱 : Variants) (c : Dev nD) (bd : Option 𝒱.V) (i : grid0.Coords) (arg1 : Memref sig .tc .vmem S1x512x4096 .f32) (harg1 : arg1.IsWhole) (arg2 : Memref sig .tc .vmem S64x1024 .f32) (harg2 : arg2.IsWhole) (arg3 : Memref sig .tc .vmem S64x1 .f32) (harg3 : arg3.IsWhole) (arg4 : Memref sig .tc .vmem S512x64 .f32) (harg4 : arg4.IsWhole) (arg5 : Memref sig .tc .vmem S512x1 .f32) (harg5 : arg5.IsWhole) (arg6 : Memref sig .tc .vmem S1x512x4096 .f32) (harg6 : arg6.IsWhole) (arg7 : Memref sig .tc .vmem S512x4096 .bf16) (harg7 : arg7.IsWhole) (arg8 : Memref sig .tc .vmem S512x1 .f32) (harg8 : arg8.IsWhole) (x0 : Vec F S1x512x4096 .f32)
    (G7 : BufTy.Contents (Elt F) arg7.view.ty) (G8 : BufTy.Contents (Elt F) arg8.view.ty) :
    ∀ k, k ≤ k0_t1_loop.trips → (pb_k0_t1 (F := F) 𝒱 c bd i arg1 harg1 arg2 harg2 arg3 harg3 arg4 harg4 arg5 harg5 arg6 harg6 arg7 harg7 arg8 harg8 (harg1.unread x0) G7 G8 k).1 = copyPieces x0 k
  | 0, _ => rfl
  | k + 1, hk => by
    have hk' : k < k0_t1_loop.trips := hk
    have ih := pb1_fst 𝒱 c bd i arg1 harg1 arg2 harg2 arg3 harg3 arg4 harg4 arg5 harg5 arg6 harg6 arg7 harg7 arg8 harg8 x0 G7 G8 k (Nat.le_of_lt hk')
    have e := pb_k0_t1_succ (F := F) 𝒱 c bd i arg1 harg1 arg2 harg2 arg3 harg3 arg4 harg4 arg5 harg5 arg6 harg6 arg7 harg7 arg8 harg8 (harg1.unread x0) G7 G8 ⟨k, hk'⟩
    rw [show copyPieces x0 (k + 1) = (⟨rCopy ⟨k, hk'⟩, k0_pay4 (chunk x0 ⟨k, hk'⟩)⟩ : View.Piece (Elt F) S512x4096 .bf16) :: copyPieces x0 k from by
      rw [copyPieces, dif_pos hk']]
    refine (congrArg Prod.fst e).trans ?_
    rw [trip1]
    dsimp only
    rw [ih, readAt_unread]
    rfl

/-- The accumulator after `k` trips reads `accAt x0 k`, whatever it held before the body zeroed it. -/
theorem pb1_snd_read (𝒱 : Variants) (c : Dev nD) (bd : Option 𝒱.V) (i : grid0.Coords) (arg1 : Memref sig .tc .vmem S1x512x4096 .f32) (harg1 : arg1.IsWhole) (arg2 : Memref sig .tc .vmem S64x1024 .f32) (harg2 : arg2.IsWhole) (arg3 : Memref sig .tc .vmem S64x1 .f32) (harg3 : arg3.IsWhole) (arg4 : Memref sig .tc .vmem S512x64 .f32) (harg4 : arg4.IsWhole) (arg5 : Memref sig .tc .vmem S512x1 .f32) (harg5 : arg5.IsWhole) (arg6 : Memref sig .tc .vmem S1x512x4096 .f32) (harg6 : arg6.IsWhole) (arg7 : Memref sig .tc .vmem S512x4096 .bf16) (harg7 : arg7.IsWhole) (arg8 : Memref sig .tc .vmem S512x1 .f32) (harg8 : arg8.IsWhole) (x0 : Vec F S1x512x4096 .f32)
    (G7 : BufTy.Contents (Elt F) arg7.view.ty) (f : BufTy.Contents (Elt F) arg8.view.ty) :
    ∀ k, k ≤ k0_t1_loop.trips →
      arg8.view.read (Elt F) (arg8.view.writes (Elt F) (arg8.view.writes (Elt F) f [(⟨rAcc, k0_pay2⟩ : View.Piece (Elt F) S512x1 .f32)])
        (pb_k0_t1 (F := F) 𝒱 c bd i arg1 harg1 arg2 harg2 arg3 harg3 arg4 harg4 arg5 harg5 arg6 harg6 arg7 harg7 arg8 harg8 (harg1.unread x0) G7 (arg8.view.writes (Elt F) f [(⟨rAcc, k0_pay2⟩ : View.Piece (Elt F) S512x1 .f32)]) k).2) = accAt x0 k
  | 0, _ => by
    show arg8.view.read (Elt F) (arg8.view.writes (Elt F) f [(⟨rAcc, k0_pay2⟩ : View.Piece (Elt F) S512x1 .f32)]) = k0_pay2
    exact read_writes_unit_zero _ _ zero2 _ _ _
  | k + 1, hk => by
    have hk' : k < k0_t1_loop.trips := hk
    have ih := pb1_snd_read 𝒱 c bd i arg1 harg1 arg2 harg2 arg3 harg3 arg4 harg4 arg5 harg5 arg6 harg6 arg7 harg7 arg8 harg8 x0 G7 f k (Nat.le_of_lt hk')
    have e := pb_k0_t1_succ (F := F) 𝒱 c bd i arg1 harg1 arg2 harg2 arg3 harg3 arg4 harg4 arg5 harg5 arg6 harg6 arg7 harg7 arg8 harg8 (harg1.unread x0) G7 (arg8.view.writes (Elt F) f [(⟨rAcc, k0_pay2⟩ : View.Piece (Elt F) S512x1 .f32)]) ⟨k, hk'⟩
    rw [show accAt x0 (k + 1) = k0_pay5 (chunk x0 ⟨k, hk'⟩) (accAt x0 k) from by rw [accAt, dif_pos hk']]
    rw [congrArg Prod.snd e, trip1]
    dsimp only
    rw [List.singleton_append, read_writes_unit_zero _ _ zero2, readAt_unread, View.readAt_eq_ld, ih, View.ld_unit_zero zero2]
    rfl

/-! ## The copy read back -/

/-- The 8 stores of the first walk tile the copy. -/
theorem copy_cover (x0 : Vec F S1x512x4096 .f32) (y : S512x4096.Idx) : ∃ p ∈ copyPieces x0 k0_t1_loop.trips, y ∈ p.1.set :=
  View.cover_of_tiledL (copyPieces x0 k0_t1_loop.trips) S512x512.size (by sl_kernel_rfl) y

/-- So a load from the copy after the first walk reads `copyOf x0`, whatever the copy held before. -/
theorem copy_readAt (v : View sig .tc .vmem S512x4096 .bf16) (f : v.ty.Contents (Elt F)) (x0 : Vec F S1x512x4096 .f32) (r : Rect S512x4096) :
    View.readAt (Elt F) v r.toLoadRect (v.writes (Elt F) f (copyPieces x0 k0_t1_loop.trips)) = View.ld (copyOf x0) r := by
  rw [View.readAt_eq_ld, View.read_writes_eq_canon v f _ (copy_cover x0)]
  rfl

/-! ## The second walk, trip after trip -/

theorem pb2_eq (𝒱 : Variants) (c : Dev nD) (bd : Option 𝒱.V) (i : grid0.Coords) (arg1 : Memref sig .tc .vmem S1x512x4096 .f32) (harg1 : arg1.IsWhole) (arg2 : Memref sig .tc .vmem S64x1024 .f32) (harg2 : arg2.IsWhole) (arg3 : Memref sig .tc .vmem S64x1 .f32) (harg3 : arg3.IsWhole) (arg4 : Memref sig .tc .vmem S512x64 .f32) (harg4 : arg4.IsWhole) (arg5 : Memref sig .tc .vmem S512x1 .f32) (harg5 : arg5.IsWhole) (arg6 : Memref sig .tc .vmem S1x512x4096 .f32) (harg6 : arg6.IsWhole) (arg7 : Memref sig .tc .vmem S512x4096 .bf16) (harg7 : arg7.IsWhole) (arg8 : Memref sig .tc .vmem S512x1 .f32) (harg8 : arg8.IsWhole)
    (v20 : FVec F S512x512 .bf16) (v29 : FVec F S64x1 .f32) (cst : F .f32) (v32 : Vec F S512x64 .f32) (v34 : Vec F S512x1 .f32)
    (x0 : Vec F S1x512x4096 .f32) (X7 : BufTy.Contents (Elt F) arg7.view.ty) (Q : Vec F S512x4096 .bf16)
    (hQ : ∀ k : Fin k0_t2_loop.trips, View.readAt (Elt F) arg7.view (rCopy' k).toLoadRect X7 = View.ld Q (rCopy' k)) :
    ∀ k, k ≤ k0_t2_loop.trips →
      pb_k0_t2 (F := F) 𝒱 c bd i arg1 harg1 arg2 harg2 arg3 harg3 arg4 harg4 arg5 harg5 arg6 harg6 arg7 harg7 arg8 harg8 v20 v29 cst v32 v34 (harg1.unread x0) X7 k = outPiecesOf v20 v29 cst v32 v34 x0 Q k
  | 0, _ => rfl
  | k + 1, hk => by
    have hk' : k < k0_t2_loop.trips := hk
    have ih := pb2_eq 𝒱 c bd i arg1 harg1 arg2 harg2 arg3 harg3 arg4 harg4 arg5 harg5 arg6 harg6 arg7 harg7 arg8 harg8 v20 v29 cst v32 v34 x0 X7 Q hQ k (Nat.le_of_lt hk')
    have e := pb_k0_t2_succ (F := F) 𝒱 c bd i arg1 harg1 arg2 harg2 arg3 harg3 arg4 harg4 arg5 harg5 arg6 harg6 arg7 harg7 arg8 harg8 v20 v29 cst v32 v34 (harg1.unread x0) X7 ⟨k, hk'⟩
    rw [show outPiecesOf v20 v29 cst v32 v34 x0 Q (k + 1)
        = (⟨rOut ⟨k, hk'⟩, k0_pay1 v20 v29 cst v32 v34 (View.ld Q (rCopy' ⟨k, hk'⟩)) (View.ld x0 (rOut ⟨k, hk'⟩))⟩ : View.Piece (Elt F) S1x512x4096 .f32)
          :: outPiecesOf v20 v29 cst v32 v34 x0 Q k from by rw [outPiecesOf, dif_pos hk']]
    refine e.trans ?_
    rw [trip2, ih, hQ, readAt_unread]
    rfl

/-! ## What the body's run finds is `outPieces` -/

/-- The list of stores the run of the body finds for the result's block — stated by the run over the start contents `fs0` of the
    copy — is `outPieces` of the input blocks. -/
theorem found_eq (c : Dev nD) (i : grid0.Coords) (arg1 : Memref sig .tc .vmem S1x512x4096 .f32) (harg1 : arg1.IsWhole) (arg2 : Memref sig .tc .vmem S64x1024 .f32) (harg2 : arg2.IsWhole) (arg3 : Memref sig .tc .vmem S64x1 .f32) (harg3 : arg3.IsWhole) (arg4 : Memref sig .tc .vmem S512x64 .f32) (harg4 : arg4.IsWhole) (arg5 : Memref sig .tc .vmem S512x1 .f32) (harg5 : arg5.IsWhole) (arg6 : Memref sig .tc .vmem S1x512x4096 .f32) (harg6 : arg6.IsWhole) (arg7 : Memref sig .tc .vmem S512x4096 .bf16) (harg7 : arg7.IsWhole) (arg8 : Memref sig .tc .vmem S512x1 .f32) (harg8 : arg8.IsWhole)
    (x0 : Vec F S1x512x4096 .f32) (x1 : Vec F S64x1024 .f32) (x2 : Vec F S64x1 .f32) (x3 : Vec F S512x64 .f32) (x4 : Vec F S512x1 .f32)
    (fs0 : BufTy.Contents (Elt F) arg7.view.ty) :
    pb_k0_t2 (F := F) Variants.none c none i arg1 harg1 arg2 harg2 arg3 harg3 arg4 harg4 arg5 harg5 arg6 harg6 arg7 harg7 arg8 harg8
        (k0_pay7 (View.readAt (Elt F) arg7.view rAll.toLoadRect (arg7.view.writes (Elt F) fs0 (pb_k0_t1 (F := F) Variants.none c none i arg1 harg1 arg2 harg2 arg3 harg3 arg4 harg4 arg5 harg5 arg6 harg6 arg7 harg7 arg8 harg8 (harg1.unread x0) fs0 (arg8.view.writes (Elt F) arg8.view.junk [(⟨rAcc, k0_pay2⟩ : View.Piece (Elt F) S512x1 .f32)]) (Scf.trips k0_t1_loop.lb k0_t1_loop.ub k0_t1_loop.st)).1)) (View.readAt (Elt F) arg7.view rAll.toLoadRect (arg7.view.writes (Elt F) fs0 (pb_k0_t1 (F := F) Variants.none c none i arg1 harg1 arg2 harg2 arg3 harg3 arg4 harg4 arg5 harg5 arg6 harg6 arg7 harg7 arg8 harg8 (harg1.unread x0) fs0 (arg8.view.writes (Elt F) arg8.view.junk [(⟨rAcc, k0_pay2⟩ : View.Piece (Elt F) S512x1 .f32)]) (Scf.trips k0_t1_loop.lb k0_t1_loop.ub k0_t1_loop.st)).1)))
        (k0_pay8 (View.readAt (Elt F) arg8.view rAcc.toLoadRect (arg8.view.writes (Elt F) arg8.view.junk ((pb_k0_t1 (F := F) Variants.none c none i arg1 harg1 arg2 harg2 arg3 harg3 arg4 harg4 arg5 harg5 arg6 harg6 arg7 harg7 arg8 harg8 (harg1.unread x0) fs0 (arg8.view.writes (Elt F) arg8.view.junk [(⟨rAcc, k0_pay2⟩ : View.Piece (Elt F) S512x1 .f32)]) (Scf.trips k0_t1_loop.lb k0_t1_loop.ub k0_t1_loop.st)).2 ++ [(⟨rAcc, k0_pay2⟩ : View.Piece (Elt F) S512x1 .f32)]))) (View.readAt (Elt F) arg7.view rAll.toLoadRect (arg7.view.writes (Elt F) fs0 (pb_k0_t1 (F := F) Variants.none c none i arg1 harg1 arg2 harg2 arg3 harg3 arg4 harg4 arg5 harg5 arg6 harg6 arg7 harg7 arg8 harg8 (harg1.unread x0) fs0 (arg8.view.writes (Elt F) arg8.view.junk [(⟨rAcc, k0_pay2⟩ : View.Piece (Elt F) S512x1 .f32)]) (Scf.trips k0_t1_loop.lb k0_t1_loop.ub k0_t1_loop.st)).1)) (View.readAt (Elt F) arg7.view rAll.toLoadRect (arg7.view.writes (Elt F) fs0 (pb_k0_t1 (F := F) Variants.none c none i arg1 harg1 arg2 harg2 arg3 harg3 arg4 harg4 arg5 harg5 arg6 harg6 arg7 harg7 arg8 harg8 (harg1.unread x0) fs0 (arg8.view.writes (Elt F) arg8.view.junk [(⟨rAcc, k0_pay2⟩ : View.Piece (Elt F) S512x1 .f32)]) (Scf.trips k0_t1_loop.lb k0_t1_loop.ub k0_t1_loop.st)).1))
          (View.readAt (Elt F) arg2.view (Rect.unit (s := S64x1024) ![0, 0] S64x512.size inb_S64x1024_S64x512_0_0).toLoadRect (harg2.unread x1))
          (View.readAt (Elt F) arg2.view (Rect.unit (s := S64x1024) ![0, 512] S64x512.size inb_S64x1024_S64x512_0_512).toLoadRect (harg2.unread x1))
          (View.readAt (Elt F) arg3.view (Rect.unit (s := S64x1) ![0, 0] S64x1.size inb_S64x1_S64x1_0_0).toLoadRect (harg3.unread x2)))
        (FloatOps.ofBits FTy.f32 0#32)
        (View.readAt (Elt F) arg4.view (Rect.unit (s := S512x64) ![0, 0] S512x64.size inb_S512x64_S512x64_0_0).toLoadRect (harg4.unread x3))
        (View.readAt (Elt F) arg5.view (Rect.unit (s := S512x1) ![0, 0] S512x1.size inb_S512x1_S512x1_0_0).toLoadRect (harg5.unread x4))
        (harg1.unread x0)
        (arg7.view.writes (Elt F) fs0 (pb_k0_t1 (F := F) Variants.none c none i arg1 harg1 arg2 harg2 arg3 harg3 arg4 harg4 arg5 harg5 arg6 harg6 arg7 harg7 arg8 harg8 (harg1.unread x0) fs0 (arg8.view.writes (Elt F) arg8.view.junk [(⟨rAcc, k0_pay2⟩ : View.Piece (Elt F) S512x1 .f32)]) (Scf.trips k0_t1_loop.lb k0_t1_loop.ub k0_t1_loop.st)).1)
        (Scf.trips k0_t2_loop.lb k0_t2_loop.ub k0_t2_loop.st)
      = outPieces x0 x1 x2 x3 x4 := by
  have h1 := pb1_fst (F := F) Variants.none c none i arg1 harg1 arg2 harg2 arg3 harg3 arg4 harg4 arg5 harg5 arg6 harg6 arg7 harg7 arg8 harg8 x0 fs0 (arg8.view.writes (Elt F) arg8.view.junk [(⟨rAcc, k0_pay2⟩ : View.Piece (Elt F) S512x1 .f32)]) _ (le_refl k0_t1_loop.trips)
  have h2 := pb1_snd_read (F := F) Variants.none c none i arg1 harg1 arg2 harg2 arg3 harg3 arg4 harg4 arg5 harg5 arg6 harg6 arg7 harg7 arg8 harg8 x0 fs0 arg8.view.junk _ (le_refl k0_t1_loop.trips)
  rw [View.writes_append]
  rw [View.readAt_eq_ld (v := arg8.view), show Scf.trips k0_t1_loop.lb k0_t1_loop.ub k0_t1_loop.st = k0_t1_loop.trips from rfl, h2]
  rw [h1]
  simp only [copy_readAt, readAt_unread]
  exact pb2_eq (F := F) Variants.none c none i arg1 harg1 arg2 harg2 arg3 harg3 arg4 harg4 arg5 harg5 arg6 harg6 arg7 harg7 arg8 harg8 _ _ _ _ _ x0 _ (copyOf x0) (fun k => copy_readAt _ _ x0 _) _ (le_refl _)

end Cert.KernelIdeal.Body

end
-- ==== Proof.Spec.lean ====
/-
  Channel attention with a squeeze-and-excite gate, on ONE batch element, over the extended reals.

  The element is a matrix `q` of 512 channels by 4096 positions. Its channel energies are
  `e c d = ∑ n, q c n * q d n`; a row-wise softmax of a shifted `-e` gives the attention weights `a c d`;
  the mixed map is `(a q) c n = ∑ d, a c d * q d n`; the position-means of `q` and of the mixed map, stacked to a
  vector of length 1024, pass through a two-layer gate (64 hidden units, `max · 0`, then the logistic
  function), and the result blends the element with its mixed map channel by channel:
  `out c n = g c * q c n + (1 - g c) * (a q) c n`.

  Two arrangements of this one function are stated here, and nothing is proved about them in this file:
  `outK` shifts each energy row by its MINIMUM, takes means as products with `1/4096`, obtains the mean of the
  mixed map as the attention applied to the means of `q`, and feeds the gate's first layer in two halves;
  `outR` shifts by the row MAXIMUM and then by the maximum of the shifted row, takes means as quotients by
  `4096`, averages the mixed map itself, and feeds the first layer the stacked vector. The float words the two
  programs spell are read here once as the numbers they denote.
-/
import Idealize.ShloMosaic.PureOps.Ideal
import Mathlib.Algebra.BigOperators.Fin

noncomputable section

namespace Cert.ChannelAttn

open Idealize.ShloMosaic

/-! ## The float words of the two programs -/

/-- The word of `2⁻¹²` denotes the real `1/4096`. -/
theorem ofBits_inv4096 : Ideal.ofBits .f32 0x39800000#32 = ((1 / 4096 : ℝ) : EReal) := by
  simp [Ideal.ofBits, Ideal.ieee, -EReal.coe_mul]; norm_num

/-- The word of `4096.0` denotes the real `4096`. -/
theorem ofBits_4096 : Ideal.ofBits .f32 0x45800000#32 = ((4096 : ℝ) : EReal) := by
  simp [Ideal.ofBits, Ideal.ieee, -EReal.coe_mul]; norm_num

/-- The word of `1.0` denotes `1`. -/
theorem ofBits_one : Ideal.ofBits .f32 0x3F800000#32 = 1 := by
  simp [Ideal.ofBits, Ideal.ieee, -EReal.coe_mul]; norm_num

/-- The word of `+0.0` denotes `0`. -/
theorem ofBits_zero : Ideal.ofBits .f32 0x00000000#32 = 0 := by
  simp [Ideal.ofBits, Ideal.ieee]

/-- The word of `+∞` denotes `⊤`. -/
theorem ofBits_posInf : Ideal.ofBits .f32 0x7F800000#32 = ⊤ := by
  simp [Ideal.ofBits, Ideal.ieee]

/-- The word of `-∞` denotes `⊥`. -/
theorem ofBits_negInf : Ideal.ofBits .f32 0xFF800000#32 = ⊥ := by
  simp [Ideal.ofBits, Ideal.ieee]

/-! ## Indices of the stacked vector of length 1024 -/

/-- Entry `k` of the first half. -/
abbrev lo (k : Fin 512) : Fin 1024 := ⟨k.val, by omega⟩
/-- Entry `k` of the second half. -/
abbrev hi (k : Fin 512) : Fin 1024 := ⟨512 + k.val, by omega⟩
/-- Position `n'` of the `k`-th run of 512 positions. -/
abbrev pos (k : Fin 8) (n' : Fin 512) : Fin 4096 := ⟨512 * k.val + n'.val, by omega⟩

variable (q : Fin 512 → Fin 4096 → EReal) (w1 : Fin 64 → Fin 1024 → EReal) (b1 : Fin 64 → EReal)
  (w2 : Fin 512 → Fin 64 → EReal) (b2 : Fin 512 → EReal)

/-! ## What both arrangements share -/

/-- The energy of channels `c` and `d`: the inner product of their rows. -/
def energy (c d : Fin 512) : EReal := ∑ n : Fin 4096, q c n * q d n

/-- The sum of channel `c` over the positions. -/
def rowSum (c : Fin 512) : EReal := ∑ n : Fin 4096, q c n

/-! ## Shifted by the row minimum -/

/-- The least energy of row `c`. -/
def rowMin (c : Fin 512) : EReal := (Finset.univ : Finset (Fin 512)).fold min ⊤ (fun d => energy q c d)

/-- `exp (min_c - e c d)`: at most `1`. -/
def expK (c d : Fin 512) : EReal := Ideal.exp (rowMin q c - energy q c d)

/-- The attention weights, normalised row by row. -/
def attnK (c d : Fin 512) : EReal := Ideal.div (expK q c d) (∑ d' : Fin 512, expK q c d')

/-- The mean of channel `c` as a product with `1/4096`. -/
def meanK (c : Fin 512) : EReal := rowSum q c * ((1 / 4096 : ℝ) : EReal)

/-- The mean of the mixed map's channel `c`, as the attention applied to the means. -/
def mixMeanK (c : Fin 512) : EReal := ∑ d : Fin 512, attnK q c d * meanK q d

/-- The first gate layer before its `max · 0`: the two halves of the weights applied to the two mean vectors. -/
def preHiddenK (j : Fin 64) : EReal :=
  ((∑ k : Fin 512, w1 j (lo k) * meanK q k) + (∑ k : Fin 512, w1 j (hi k) * mixMeanK q k)) + b1 j

/-- The gate of channel `c`. -/
def gateK (c : Fin 512) : EReal :=
  Ideal.logistic ((∑ j : Fin 64, w2 c j * max (preHiddenK q w1 b1 j) 0) + b2 c)

/-- The mixed map. -/
def mixK (c : Fin 512) (n : Fin 4096) : EReal := ∑ d : Fin 512, attnK q c d * q d n

/-- The blend. -/
def outK (c : Fin 512) (n : Fin 4096) : EReal :=
  gateK q w1 b1 w2 b2 c * q c n + (1 - gateK q w1 b1 w2 b2 c) * mixK q c n

/-! ## Shifted by the row maximum, then by the maximum of the shifted row -/

/-- The greatest energy of row `c`. -/
def rowMax (c : Fin 512) : EReal := (Finset.univ : Finset (Fin 512)).fold max ⊥ (fun d => energy q c d)

/-- `max_c - e c d`. -/
def shiftR (c d : Fin 512) : EReal := rowMax q c - energy q c d

/-- The greatest entry of the shifted row, joined with `⊥`. -/
def shiftMaxR (c : Fin 512) : EReal := max ⊥ ((Finset.univ : Finset (Fin 512)).fold max ⊥ (fun d => shiftR q c d))

/-- The exponential of the twice shifted energy. -/
def expR (c d : Fin 512) : EReal := Ideal.exp (shiftR q c d - shiftMaxR q c)

/-- The attention weights, normalised row by row. -/
def attnR (c d : Fin 512) : EReal := Ideal.div (expR q c d) (∑ d' : Fin 512, expR q c d')

/-- The mixed map. -/
def mixR (c : Fin 512) (n : Fin 4096) : EReal := ∑ d : Fin 512, attnR q c d * q d n

/-- The stacked means: of `q`'s channels, then of the mixed map's, each a quotient by `4096`. -/
def catMeanR (k : Fin 1024) : EReal :=
  Ideal.div (if h : k.val < 512 then rowSum q ⟨k.val, h⟩ else ∑ n : Fin 4096, mixR q ⟨k.val - 512, by omega⟩ n)
    ((4096 : ℝ) : EReal)

/-- The first gate layer before its `max · 0`. -/
def preHiddenR (j : Fin 64) : EReal := (∑ k : Fin 1024, catMeanR q k * w1 j k) + b1 j

/-- The gate of channel `c`, the logistic function spelt out. -/
def gateR (c : Fin 512) : EReal :=
  Ideal.div 1 (1 + Ideal.exp (-((∑ j : Fin 64, max (preHiddenR q w1 b1 j) 0 * w2 c j) + b2 c)))

/-- The blend. -/
def outR (c : Fin 512) (n : Fin 4096) : EReal :=
  gateR q w1 b1 w2 b2 c * q c n + (1 - gateR q w1 b1 w2 b2 c) * mixR q c n

end Cert.ChannelAttn

end
-- ==== Proof.SpecIdx.lean ====
/-
  The arrays of the two programs as the arguments of `Cert.ChannelAttn.outK` / `outR`: batch element `b` of the
  input `x : [16, 512, 64, 64]` is the matrix `q c n = x b c (n / 64) (n % 64)` (the 64 × 64 positions in row-major
  order), and the gate's weights and biases are read coordinate by coordinate.
-/
import proofs.«407397_j81492709474559_3_alg».proof.Proof.Spec
import Idealize.ShloMosaic.Lib.ValueIdx

noncomputable section

namespace Cert.ChannelAttn

open Idealize.ShloMosaic Idealize.ShloMosaic.ValueIdx

/-- Position `(h, w)` of the 64 × 64 grid, in row-major order. -/
abbrev hw (h w : Fin 64) : Fin 4096 := ⟨64 * h.val + w.val, by omega⟩

/-- The row of position `n`. -/
abbrev rowOf (n : Fin 4096) : Fin 64 := ⟨n.val / 64, by omega⟩
/-- The column of position `n`. -/
abbrev colOf (n : Fin 4096) : Fin 64 := ⟨n.val % 64, by omega⟩

/-- Batch element `b` of the rank-4 input as a 512 × 4096 matrix. -/
def qOf (x : (⟨4, ![16, 512, 64, 64]⟩ : Shape).Idx → EReal) (b : Fin 16) : Fin 512 → Fin 4096 → EReal :=
  fun c n => x (ix4 b c (rowOf n) (colOf n))

/-- Batch element `b` of the input already flattened to `[16, 512, 4096]`. -/
def qOf3 (x : (⟨3, ![16, 512, 4096]⟩ : Shape).Idx → EReal) (b : Fin 16) : Fin 512 → Fin 4096 → EReal :=
  fun c n => x (ix3 b c n)

/-- The first layer's weights `[64, 1024]`. -/
def w1Of (w : (⟨2, ![64, 1024]⟩ : Shape).Idx → EReal) : Fin 64 → Fin 1024 → EReal := fun j k => w (ix2 j k)
/-- The first layer's bias `[64]`. -/
def b1Of (v : (⟨1, ![64]⟩ : Shape).Idx → EReal) : Fin 64 → EReal := fun j => v (ix1 j)
/-- The second layer's weights `[512, 64]`. -/
def w2Of (w : (⟨2, ![512, 64]⟩ : Shape).Idx → EReal) : Fin 512 → Fin 64 → EReal := fun c j => w (ix2 c j)
/-- The second layer's bias `[512]`. -/
def b2Of (v : (⟨1, ![512]⟩ : Shape).Idx → EReal) : Fin 512 → EReal := fun c => v (ix1 c)

end Cert.ChannelAttn

end
-- ==== Proof.Payload.lean ====
/-
  The arithmetic of the tiled channel-attention program, read one entry at a time over the extended reals.

  Each named piece of the program's pure arithmetic is a vector expression: products of matrices, sums and minima
  along the lanes kept as columns, broadcasts of those columns, the exponential and the logistic function lane by
  lane. Read at one index, with every operation exact, each piece is an entry of the function the specification
  names for it: the zero column, a run of 512 positions of the element, one step of the row sums, the attention
  weights `attnK`, the first gate layer `preHiddenK`, and a run of 512 positions of the blend `outK`.

  The file goes from the parts to the whole: the lanewise functions and the casts to and from a column at an
  index; a sum and a minimum along the lanes; each of the five matrix products as a sum over its one contracted
  coordinate; the two keepdims steps of the row-wise softmax; then the pieces themselves.
-/
import proofs.«407397_j81492709474559_3_alg».proof.Proof.Spec
import proofs.«407397_j81492709474559_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section
namespace Cert.KernelIdeal.Payload
open Cert.KernelIdeal Cert.KernelIdeal.Gen Cert.ChannelAttn Idealize.ShloMosaic Idealize.ShloMosaic.ValueIdx

/-! ## The lanewise functions at an index -/

section Lanewise
variable {s : Shape} {φ : FTy}

/-- The exponential of a vector, at an index. -/
theorem exp_apply (x : FVec Ideal s φ) (i : s.Idx) : exp x i = Ideal.exp (x i) := rfl
/-- The logistic function of a vector, at an index. -/
theorem logistic_apply (x : FVec Ideal s φ) (i : s.Idx) : logistic x i = Ideal.logistic (x i) := rfl
/-- A cast to the same shape, at an index. -/
theorem shapeCast_self_apply {α : Type} (v : s.Idx → α) (h : s.ShapeCasts s) (i : s.Idx) : shapeCast s v h i = v i :=
  congrFun (shapeCast_self v h) i

end Lanewise

/-! ## Layout: a column's casts and broadcast, and the lane reductions' source index -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The source index of a reduction along the lanes: row `c`, lane `k`. -/
theorem lift_lanes (c : Fin 512) (k : Fin 512) :
    reduces_S512x512_S512.lift (ix1 c) k = ix2 c k :=
  funext fun a => Fin.ext (by
    match a with
    | ⟨0, _⟩ => rfl
    | ⟨1, _⟩ => rfl)

/-- A sum along the lanes, read at a row. -/
theorem sumLanes_apply (x : FVec Ideal S512x512 .f32) (c : Fin 512) :
    multiReduction (F := Ideal) .add [1] S512 x 0x00000000#32 reduces_S512x512_S512 (.inl rfl) rfl (ix1 c)
      = ∑ k : Fin 512, x (ix2 c k) := by
  refine (Ideal.multiReduction_add_single x _ reduces_S512x512_S512 (.inl rfl) rfl (ix1 c)).trans ?_
  exact Finset.sum_congr rfl fun k _ => congrArg x (lift_lanes c k)

/-- A minimum along the lanes, read at a row: the fold of `min` from `⊤`. -/
theorem minLanes_apply (x : FVec Ideal S512x512 .f32) (c : Fin 512) :
    multiReduction (F := Ideal) .minimumf [1] S512 x 0x7F800000#32 reduces_S512x512_S512 (.inl rfl) rfl (ix1 c)
      = (Finset.univ : Finset (Fin 512)).fold min ⊤ (fun k => x (ix2 c k)) := by
  have e : multiReduction (F := Ideal) .minimumf [1] S512 x 0x7F800000#32 reduces_S512x512_S512 (.inl rfl) rfl (ix1 c)
      = (Finset.univ : Finset (Fin 512)).fold (FloatOps.minimumf (F := Ideal) (φ := .f32)) (FloatOps.ofBits (F := Ideal) .f32 0x7F800000#32)
          (x ∘ reduces_S512x512_S512.lift (ix1 c)) := by
    refine (multiReduction_minimumf_eq_fold x _ reduces_S512x512_S512 (.inl rfl) rfl (ix1 c)).trans ?_
    exact reduces_S512x512_S512.fold_filter_drop_single _ _ x (ix1 c)
  rw [e]
  show Finset.fold min (Ideal.ofBits .f32 0x7F800000#32) (x ∘ reduces_S512x512_S512.lift (ix1 c)) Finset.univ = _
  rw [ofBits_posInf]
  exact congrArg (Finset.fold min ⊤ · Finset.univ) (funext fun k => congrArg x (lift_lanes c k))

/-- The accumulator's first contents: zero. -/
theorem pay2_apply (c : Fin 512) : k0_pay2 (F := Ideal) (ix2 c (0 : Fin 1)) = 0 := by
  unfold k0_pay2
  rw [shapeCast_self]
  exact ofBits_zero
/-- A loaded run of positions without its unit axis. -/
theorem pay3_apply (v50 : Vec Ideal S1x512x512 .f32) (c n' : Fin 512) :
    k0_pay3 (F := Ideal) v50 (ix2 c n') = v50 (ix3 (0 : Fin 1) c n') := by
  unfold k0_pay3
  exact shapeCast_1ab_ab_apply v50 _ c n'
/-- What is stored into the copy of the element: the loaded run of positions itself. -/
theorem pay4_apply (v50 : Vec Ideal S1x512x512 .f32) (c n' : Fin 512) :
    k0_pay4 (F := Ideal) v50 (ix2 c n') = v50 (ix3 (0 : Fin 1) c n') := by
  unfold k0_pay4
  rw [shapeCast_self]
  exact pay3_apply v50 c n'
/-- One accumulation step: the row sums of one run of positions added to what was there. -/
theorem pay5_apply (v50 : Vec Ideal S1x512x512 .f32) (v57 : Vec Ideal S512x1 .f32) (c : Fin 512) :
    k0_pay5 (F := Ideal) v50 v57 (ix2 c (0 : Fin 1)) = v57 (ix2 c (0 : Fin 1)) + ∑ n' : Fin 512, v50 (ix3 (0 : Fin 1) c n') := by
  unfold k0_pay5
  rw [shapeCast_self]
  refine congrArg (v57 (ix2 c (0 : Fin 1)) + ·) ?_
  refine (shapeCast_a_a1_apply _ _ c (0 : Fin 1)).trans ?_
  refine (sumLanes_apply _ c).trans ?_
  exact Finset.sum_congr rfl fun n' _ => pay3_apply v50 c n'

/-! ## The products of the program, each read at an index -/

/-! ### Rows against rows over the 4096 positions -/

theorem lhs_energy_0 (i : S512x512.Idx) (q : dot_S512x4096_S512x4096_S512x512_1_1_0_0_n_n.contr.Idx) :
    (dot_S512x4096_S512x4096_S512x512_1_1_0_0_n_n.lhsIdx i q 0).val = (i 0).val := by
  unfold DotDims.lhsIdx
  rw [dif_neg (show ¬(0 : Fin S512x4096.rank) ∈ dot_S512x4096_S512x4096_S512x512_1_1_0_0_n_n.lhsBatch by decide), dif_pos (show (0 : Fin S512x4096.rank) ∈ dot_S512x4096_S512x4096_S512x512_1_1_0_0_n_n.lhsNonContracting by decide)]
  rfl
theorem lhs_energy_1 (i : S512x512.Idx) (q : dot_S512x4096_S512x4096_S512x512_1_1_0_0_n_n.contr.Idx) :
    (dot_S512x4096_S512x4096_S512x512_1_1_0_0_n_n.lhsIdx i q 1).val = (q ⟨0, by decide⟩).val :=
  dot_S512x4096_S512x4096_S512x512_1_1_0_0_n_n.lhsIdx_val_of_single rfl i q
theorem rhs_energy_0 (i : S512x512.Idx) (q : dot_S512x4096_S512x4096_S512x512_1_1_0_0_n_n.contr.Idx) :
    (dot_S512x4096_S512x4096_S512x512_1_1_0_0_n_n.rhsIdx i q 0).val = (i 1).val := by
  unfold DotDims.rhsIdx
  rw [dif_neg (show ¬(0 : Fin S512x4096.rank) ∈ dot_S512x4096_S512x4096_S512x512_1_1_0_0_n_n.rhsBatch by decide), dif_pos (show (0 : Fin S512x4096.rank) ∈ dot_S512x4096_S512x4096_S512x512_1_1_0_0_n_n.rhsNonContracting by decide)]
  rfl
theorem rhs_energy_1 (i : S512x512.Idx) (q : dot_S512x4096_S512x4096_S512x512_1_1_0_0_n_n.contr.Idx) :
    (dot_S512x4096_S512x4096_S512x512_1_1_0_0_n_n.rhsIdx i q 1).val = (q ⟨0, by decide⟩).val :=
  dot_S512x4096_S512x4096_S512x512_1_1_0_0_n_n.rhsIdx_val_of_single rfl i q

/-- Entry `(c, d)` of the product of a matrix with another's transpose: the inner product of rows `c` and `d`. -/
theorem matmul_energy_apply (x y : FVec Ideal S512x4096 .bf16) (c d : Fin 512) :
    matmul dot_S512x4096_S512x4096_S512x512_1_1_0_0_n_n none x y (constant (F := Ideal) S512x512 .f32 0x00000000#32) (ix2 c d)
      = ∑ n : Fin 4096, x (ix2 c n) * y (ix2 d n) := by
  refine (Ideal.matmul_constant_zero_apply dot_S512x4096_S512x4096_S512x512_1_1_0_0_n_n none x y (ix2 c d)).trans ?_
  rw [← Equiv.sum_comp (contrEquiv1 dot_S512x4096_S512x4096_S512x512_1_1_0_0_n_n 4096 rfl rfl).symm]
  refine Finset.sum_congr rfl fun k _ => ?_
  have hk := contrEquiv1_symm_val dot_S512x4096_S512x4096_S512x512_1_1_0_0_n_n 4096 rfl rfl k
  have el : dot_S512x4096_S512x4096_S512x512_1_1_0_0_n_n.lhsIdx (ix2 c d) ((contrEquiv1 dot_S512x4096_S512x4096_S512x512_1_1_0_0_n_n 4096 rfl rfl).symm k) = ix2 c k := funext fun a => Fin.ext (by
    match a with
    | ⟨0, _⟩ => exact lhs_energy_0 _ _
    | ⟨1, _⟩ => exact (lhs_energy_1 _ _).trans hk)
  have er : dot_S512x4096_S512x4096_S512x512_1_1_0_0_n_n.rhsIdx (ix2 c d) ((contrEquiv1 dot_S512x4096_S512x4096_S512x512_1_1_0_0_n_n 4096 rfl rfl).symm k) = ix2 d k := funext fun a => Fin.ext (by
    match a with
    | ⟨0, _⟩ => exact rhs_energy_0 _ _
    | ⟨1, _⟩ => exact (rhs_energy_1 _ _).trans hk)
  rw [el, er]

/-! ### A 512 × 512 matrix against a column -/

theorem lhs_mixMean_0 (i : S512x1.Idx) (q : dot_S512x512_S512x1_S512x1_1_0_0_1_n_n.contr.Idx) :
    (dot_S512x512_S512x1_S512x1_1_0_0_1_n_n.lhsIdx i q 0).val = (i 0).val := by
  unfold DotDims.lhsIdx
  rw [dif_neg (show ¬(0 : Fin S512x512.rank) ∈ dot_S512x512_S512x1_S512x1_1_0_0_1_n_n.lhsBatch by decide), dif_pos (show (0 : Fin S512x512.rank) ∈ dot_S512x512_S512x1_S512x1_1_0_0_1_n_n.lhsNonContracting by decide)]
  rfl
theorem lhs_mixMean_1 (i : S512x1.Idx) (q : dot_S512x512_S512x1_S512x1_1_0_0_1_n_n.contr.Idx) :
    (dot_S512x512_S512x1_S512x1_1_0_0_1_n_n.lhsIdx i q 1).val = (q ⟨0, by decide⟩).val :=
  dot_S512x512_S512x1_S512x1_1_0_0_1_n_n.lhsIdx_val_of_single rfl i q
theorem rhs_mixMean_0 (i : S512x1.Idx) (q : dot_S512x512_S512x1_S512x1_1_0_0_1_n_n.contr.Idx) :
    (dot_S512x512_S512x1_S512x1_1_0_0_1_n_n.rhsIdx i q 0).val = (q ⟨0, by decide⟩).val :=
  dot_S512x512_S512x1_S512x1_1_0_0_1_n_n.rhsIdx_val_of_single rfl i q
theorem rhs_mixMean_1 (i : S512x1.Idx) (q : dot_S512x512_S512x1_S512x1_1_0_0_1_n_n.contr.Idx) :
    (dot_S512x512_S512x1_S512x1_1_0_0_1_n_n.rhsIdx i q 1).val = (i 1).val := by
  unfold DotDims.rhsIdx
  rw [dif_neg (show ¬(1 : Fin S512x1.rank) ∈ dot_S512x512_S512x1_S512x1_1_0_0_1_n_n.rhsBatch by decide), dif_pos (show (1 : Fin S512x1.rank) ∈ dot_S512x512_S512x1_S512x1_1_0_0_1_n_n.rhsNonContracting by decide)]
  rfl

/-- Entry `c` of a 512 × 512 matrix applied to a column. -/
theorem matmul_mixMean_apply (x : FVec Ideal S512x512 .f32) (y : FVec Ideal S512x1 .f32) (c : Fin 512) (u : Fin 1) :
    matmul dot_S512x512_S512x1_S512x1_1_0_0_1_n_n none x y (constant (F := Ideal) S512x1 .f32 0x00000000#32) (ix2 c u)
      = ∑ d : Fin 512, x (ix2 c d) * y (ix2 d u) := by
  refine (Ideal.matmul_constant_zero_apply dot_S512x512_S512x1_S512x1_1_0_0_1_n_n none x y (ix2 c u)).trans ?_
  rw [← Equiv.sum_comp (contrEquiv1 dot_S512x512_S512x1_S512x1_1_0_0_1_n_n 512 rfl rfl).symm]
  refine Finset.sum_congr rfl fun k _ => ?_
  have hk := contrEquiv1_symm_val dot_S512x512_S512x1_S512x1_1_0_0_1_n_n 512 rfl rfl k
  have el : dot_S512x512_S512x1_S512x1_1_0_0_1_n_n.lhsIdx (ix2 c u) ((contrEquiv1 dot_S512x512_S512x1_S512x1_1_0_0_1_n_n 512 rfl rfl).symm k) = ix2 c k := funext fun a => Fin.ext (by
    match a with
    | ⟨0, _⟩ => exact lhs_mixMean_0 _ _
    | ⟨1, _⟩ => exact (lhs_mixMean_1 _ _).trans hk)
  have er : dot_S512x512_S512x1_S512x1_1_0_0_1_n_n.rhsIdx (ix2 c u) ((contrEquiv1 dot_S512x512_S512x1_S512x1_1_0_0_1_n_n 512 rfl rfl).symm k) = ix2 k u := funext fun a => Fin.ext (by
    match a with
    | ⟨0, _⟩ => exact (rhs_mixMean_0 _ _).trans hk
    | ⟨1, _⟩ => exact rhs_mixMean_1 _ _)
  rw [el, er]

/-! ### A 64 × 512 matrix against a column -/

theorem lhs_hidden_0 (i : S64x1.Idx) (q : dot_S64x512_S512x1_S64x1_1_0_0_1_n_n.contr.Idx) :
    (dot_S64x512_S512x1_S64x1_1_0_0_1_n_n.lhsIdx i q 0).val = (i 0).val := by
  unfold DotDims.lhsIdx
  rw [dif_neg (show ¬(0 : Fin S64x512.rank) ∈ dot_S64x512_S512x1_S64x1_1_0_0_1_n_n.lhsBatch by decide), dif_pos (show (0 : Fin S64x512.rank) ∈ dot_S64x512_S512x1_S64x1_1_0_0_1_n_n.lhsNonContracting by decide)]
  rfl
theorem lhs_hidden_1 (i : S64x1.Idx) (q : dot_S64x512_S512x1_S64x1_1_0_0_1_n_n.contr.Idx) :
    (dot_S64x512_S512x1_S64x1_1_0_0_1_n_n.lhsIdx i q 1).val = (q ⟨0, by decide⟩).val :=
  dot_S64x512_S512x1_S64x1_1_0_0_1_n_n.lhsIdx_val_of_single rfl i q
theorem rhs_hidden_0 (i : S64x1.Idx) (q : dot_S64x512_S512x1_S64x1_1_0_0_1_n_n.contr.Idx) :
    (dot_S64x512_S512x1_S64x1_1_0_0_1_n_n.rhsIdx i q 0).val = (q ⟨0, by decide⟩).val :=
  dot_S64x512_S512x1_S64x1_1_0_0_1_n_n.rhsIdx_val_of_single rfl i q
theorem rhs_hidden_1 (i : S64x1.Idx) (q : dot_S64x512_S512x1_S64x1_1_0_0_1_n_n.contr.Idx) :
    (dot_S64x512_S512x1_S64x1_1_0_0_1_n_n.rhsIdx i q 1).val = (i 1).val := by
  unfold DotDims.rhsIdx
  rw [dif_neg (show ¬(1 : Fin S512x1.rank) ∈ dot_S64x512_S512x1_S64x1_1_0_0_1_n_n.rhsBatch by decide), dif_pos (show (1 : Fin S512x1.rank) ∈ dot_S64x512_S512x1_S64x1_1_0_0_1_n_n.rhsNonContracting by decide)]
  rfl

/-- Entry `j` of a 64 × 512 matrix applied to a column. -/
theorem matmul_hidden_apply (x : FVec Ideal S64x512 .f32) (y : FVec Ideal S512x1 .f32) (j : Fin 64) (u : Fin 1) :
    matmul dot_S64x512_S512x1_S64x1_1_0_0_1_n_n none x y (constant (F := Ideal) S64x1 .f32 0x00000000#32) (ix2 j u)
      = ∑ k : Fin 512, x (ix2 j k) * y (ix2 k u) := by
  refine (Ideal.matmul_constant_zero_apply dot_S64x512_S512x1_S64x1_1_0_0_1_n_n none x y (ix2 j u)).trans ?_
  rw [← Equiv.sum_comp (contrEquiv1 dot_S64x512_S512x1_S64x1_1_0_0_1_n_n 512 rfl rfl).symm]
  refine Finset.sum_congr rfl fun k _ => ?_
  have hk := contrEquiv1_symm_val dot_S64x512_S512x1_S64x1_1_0_0_1_n_n 512 rfl rfl k
  have el : dot_S64x512_S512x1_S64x1_1_0_0_1_n_n.lhsIdx (ix2 j u) ((contrEquiv1 dot_S64x512_S512x1_S64x1_1_0_0_1_n_n 512 rfl rfl).symm k) = ix2 j k := funext fun a => Fin.ext (by
    match a with
    | ⟨0, _⟩ => exact lhs_hidden_0 _ _
    | ⟨1, _⟩ => exact (lhs_hidden_1 _ _).trans hk)
  have er : dot_S64x512_S512x1_S64x1_1_0_0_1_n_n.rhsIdx (ix2 j u) ((contrEquiv1 dot_S64x512_S512x1_S64x1_1_0_0_1_n_n 512 rfl rfl).symm k) = ix2 k u := funext fun a => Fin.ext (by
    match a with
    | ⟨0, _⟩ => exact (rhs_hidden_0 _ _).trans hk
    | ⟨1, _⟩ => exact rhs_hidden_1 _ _)
  rw [el, er]

/-! ### A 512 × 64 matrix against a column -/

theorem lhs_gate_0 (i : S512x1.Idx) (q : dot_S512x64_S64x1_S512x1_1_0_0_1_n_n.contr.Idx) :
    (dot_S512x64_S64x1_S512x1_1_0_0_1_n_n.lhsIdx i q 0).val = (i 0).val := by
  unfold DotDims.lhsIdx
  rw [dif_neg (show ¬(0 : Fin S512x64.rank) ∈ dot_S512x64_S64x1_S512x1_1_0_0_1_n_n.lhsBatch by decide), dif_pos (show (0 : Fin S512x64.rank) ∈ dot_S512x64_S64x1_S512x1_1_0_0_1_n_n.lhsNonContracting by decide)]
  rfl
theorem lhs_gate_1 (i : S512x1.Idx) (q : dot_S512x64_S64x1_S512x1_1_0_0_1_n_n.contr.Idx) :
    (dot_S512x64_S64x1_S512x1_1_0_0_1_n_n.lhsIdx i q 1).val = (q ⟨0, by decide⟩).val :=
  dot_S512x64_S64x1_S512x1_1_0_0_1_n_n.lhsIdx_val_of_single rfl i q
theorem rhs_gate_0 (i : S512x1.Idx) (q : dot_S512x64_S64x1_S512x1_1_0_0_1_n_n.contr.Idx) :
    (dot_S512x64_S64x1_S512x1_1_0_0_1_n_n.rhsIdx i q 0).val = (q ⟨0, by decide⟩).val :=
  dot_S512x64_S64x1_S512x1_1_0_0_1_n_n.rhsIdx_val_of_single rfl i q
theorem rhs_gate_1 (i : S512x1.Idx) (q : dot_S512x64_S64x1_S512x1_1_0_0_1_n_n.contr.Idx) :
    (dot_S512x64_S64x1_S512x1_1_0_0_1_n_n.rhsIdx i q 1).val = (i 1).val := by
  unfold DotDims.rhsIdx
  rw [dif_neg (show ¬(1 : Fin S64x1.rank) ∈ dot_S512x64_S64x1_S512x1_1_0_0_1_n_n.rhsBatch by decide), dif_pos (show (1 : Fin S64x1.rank) ∈ dot_S512x64_S64x1_S512x1_1_0_0_1_n_n.rhsNonContracting by decide)]
  rfl

/-- Entry `c` of a 512 × 64 matrix applied to a column. -/
theorem matmul_gate_apply (x : FVec Ideal S512x64 .f32) (y : FVec Ideal S64x1 .f32) (c : Fin 512) (u : Fin 1) :
    matmul dot_S512x64_S64x1_S512x1_1_0_0_1_n_n none x y (constant (F := Ideal) S512x1 .f32 0x00000000#32) (ix2 c u)
      = ∑ j : Fin 64, x (ix2 c j) * y (ix2 j u) := by
  refine (Ideal.matmul_constant_zero_apply dot_S512x64_S64x1_S512x1_1_0_0_1_n_n none x y (ix2 c u)).trans ?_
  rw [← Equiv.sum_comp (contrEquiv1 dot_S512x64_S64x1_S512x1_1_0_0_1_n_n 64 rfl rfl).symm]
  refine Finset.sum_congr rfl fun k _ => ?_
  have hk := contrEquiv1_symm_val dot_S512x64_S64x1_S512x1_1_0_0_1_n_n 64 rfl rfl k
  have el : dot_S512x64_S64x1_S512x1_1_0_0_1_n_n.lhsIdx (ix2 c u) ((contrEquiv1 dot_S512x64_S64x1_S512x1_1_0_0_1_n_n 64 rfl rfl).symm k) = ix2 c k := funext fun a => Fin.ext (by
    match a with
    | ⟨0, _⟩ => exact lhs_gate_0 _ _
    | ⟨1, _⟩ => exact (lhs_gate_1 _ _).trans hk)
  have er : dot_S512x64_S64x1_S512x1_1_0_0_1_n_n.rhsIdx (ix2 c u) ((contrEquiv1 dot_S512x64_S64x1_S512x1_1_0_0_1_n_n 64 rfl rfl).symm k) = ix2 k u := funext fun a => Fin.ext (by
    match a with
    | ⟨0, _⟩ => exact (rhs_gate_0 _ _).trans hk
    | ⟨1, _⟩ => exact rhs_gate_1 _ _)
  rw [el, er]

/-! ### A 512 × 512 matrix against a 512 × 512 run of positions -/

theorem lhs_mix_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_mix_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_mix_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_mix_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- Entry `(c, n')` of a 512 × 512 matrix applied to a run of 512 positions. -/
theorem matmul_mix_apply (x y : FVec Ideal S512x512 .bf16) (c n' : Fin 512) :
    matmul dot_S512x512_S512x512_S512x512_1_0_0_1_n_n none x y (constant (F := Ideal) S512x512 .f32 0x00000000#32) (ix2 c n')
      = ∑ d : Fin 512, x (ix2 c d) * y (ix2 d n') := by
  refine (Ideal.matmul_constant_zero_apply dot_S512x512_S512x512_S512x512_1_0_0_1_n_n none x y (ix2 c n')).trans ?_
  rw [← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 c n') ((contrEquiv1 dot_S512x512_S512x512_S512x512_1_0_0_1_n_n 512 rfl rfl).symm k) = ix2 c k := funext fun a => Fin.ext (by
    match a with
    | ⟨0, _⟩ => exact lhs_mix_0 _ _
    | ⟨1, _⟩ => exact (lhs_mix_1 _ _).trans hk)
  have er : dot_S512x512_S512x512_S512x512_1_0_0_1_n_n.rhsIdx (ix2 c n') ((contrEquiv1 dot_S512x512_S512x512_S512x512_1_0_0_1_n_n 512 rfl rfl).symm k) = ix2 k n' := funext fun a => Fin.ext (by
    match a with
    | ⟨0, _⟩ => exact (rhs_mix_0 _ _).trans hk
    | ⟨1, _⟩ => exact rhs_mix_1 _ _)
  rw [el, er]

/-! ## The two keepdims steps of the row-wise softmax -/

/-- A matrix subtracted from its row minima, kept as a column and broadcast back. -/
theorem rowMin_sub_apply (e : FVec Ideal S512x512 .f32) (c d : Fin 512) :
    subf (broadcastTo S512x512
        (shapeCast S512x1 (multiReduction (F := Ideal) .minimumf [1] S512 e 0x7F800000#32 reduces_S512x512_S512 (.inl rfl) rfl)
          shapeCasts_S512_S512x1) broadcasts_S512x1_S512x512) e (ix2 c d)
      = (Finset.univ : Finset (Fin 512)).fold min ⊤ (fun k => e (ix2 c k)) - e (ix2 c d) := by
  refine (subf_apply _ _ _).trans ?_
  refine congrArg (· - e (ix2 c d)) ?_
  refine (broadcastTo_a1_ab_apply _ _ c d).trans ?_
  refine (shapeCast_a_a1_apply _ _ c (0 : Fin 1)).trans ?_
  exact minLanes_apply e c

/-- A matrix divided by its row sums, kept as a column and broadcast back. -/
theorem div_rowSum_apply (p : FVec Ideal S512x512 .f32) (c d : Fin 512) :
    divf p (broadcastTo S512x512
        (shapeCast S512x1 (multiReduction (F := Ideal) .add [1] S512 p 0x00000000#32 reduces_S512x512_S512 (.inl rfl) rfl)
          shapeCasts_S512_S512x1) broadcasts_S512x1_S512x512) (ix2 c d)
      = Ideal.div (p (ix2 c d)) (∑ k : Fin 512, p (ix2 c k)) := by
  refine (divf_apply _ _ _).trans ?_
  refine congrArg (Ideal.div (p (ix2 c d))) ?_
  refine (broadcastTo_a1_ab_apply _ _ c d).trans ?_
  refine (shapeCast_a_a1_apply _ _ c (0 : Fin 1)).trans ?_
  exact sumLanes_apply p c

/-- The row-wise softmax of the negated matrix, shifted by the row minima: entry `(c, d)`. -/
theorem softmax_apply (e : FVec Ideal S512x512 .f32) (E : Fin 512 → Fin 512 → EReal) (hE : ∀ c d, e (ix2 c d) = E c d)
    (c d : Fin 512) :
    divf
        (exp (subf (broadcastTo S512x512
          (shapeCast S512x1 (multiReduction (F := Ideal) .minimumf [1] S512 e 0x7F800000#32 reduces_S512x512_S512 (.inl rfl) rfl)
            shapeCasts_S512_S512x1) broadcasts_S512x1_S512x512) e))
        (broadcastTo S512x512
          (shapeCast S512x1 (multiReduction (F := Ideal) .add [1] S512
            (exp (subf (broadcastTo S512x512
              (shapeCast S512x1 (multiReduction (F := Ideal) .minimumf [1] S512 e 0x7F800000#32 reduces_S512x512_S512 (.inl rfl) rfl)
                shapeCasts_S512_S512x1) broadcasts_S512x1_S512x512) e))
            0x00000000#32 reduces_S512x512_S512 (.inl rfl) rfl)
            shapeCasts_S512_S512x1) broadcasts_S512x1_S512x512) (ix2 c d)
      = Ideal.div (Ideal.exp ((Finset.univ : Finset (Fin 512)).fold min ⊤ (fun k => E c k) - E c d))
          (∑ d' : Fin 512, Ideal.exp ((Finset.univ : Finset (Fin 512)).fold min ⊤ (fun k => E c k) - E c d')) := by
  have hexp : ∀ k : Fin 512,
      exp (subf (broadcastTo S512x512
          (shapeCast S512x1 (multiReduction (F := Ideal) .minimumf [1] S512 e 0x7F800000#32 reduces_S512x512_S512 (.inl rfl) rfl)
            shapeCasts_S512_S512x1) broadcasts_S512x1_S512x512) e) (ix2 c k)
        = Ideal.exp ((Finset.univ : Finset (Fin 512)).fold min ⊤ (fun k => E c k) - E c k) := fun k => by
    refine (exp_apply _ _).trans (congrArg Ideal.exp ?_)
    refine (rowMin_sub_apply e c k).trans ?_
    rw [hE c k, show (fun k => e (ix2 c k)) = fun k => E c k from funext fun k => hE c k]
  refine (div_rowSum_apply _ c d).trans ?_
  rw [hexp d]
  exact congrArg (Ideal.div _) (Finset.sum_congr rfl fun d' _ => hexp d')

/-- The energies from the copy of the element. -/
theorem energy_apply (Q : FVec Ideal S512x4096 .bf16) (q : Fin 512 → Fin 4096 → EReal) (hQ : ∀ c n, Q (ix2 c n) = q c n) (c d : Fin 512) :
    matmul dot_S512x4096_S512x4096_S512x512_1_1_0_0_n_n none Q Q (constant (F := Ideal) S512x512 .f32 0x00000000#32) (ix2 c d)
      = energy q c d := by
  refine (matmul_energy_apply Q Q c d).trans ?_
  unfold energy
  exact Finset.sum_congr rfl fun n _ => by rw [hQ c n, hQ d n]

/-- The attention weights from the copy of the element. -/
theorem pay6_apply (Q : Vec Ideal S512x4096 .bf16) (q : Fin 512 → Fin 4096 → EReal) (hQ : ∀ c n, Q (ix2 c n) = q c n) (c d : Fin 512) :
    k0_pay6 (F := Ideal) Q Q (ix2 c d) = attnK q c d := by
  unfold k0_pay6 attnK expK rowMin
  exact softmax_apply _ (energy q) (energy_apply Q q hQ) c d
theorem pay7_apply (Q : Vec Ideal S512x4096 .bf16) (q : Fin 512 → Fin 4096 → EReal) (hQ : ∀ c n, Q (ix2 c n) = q c n) (c d : Fin 512) :
    k0_pay7 (F := Ideal) Q Q (ix2 c d) = attnK q c d := by
  unfold k0_pay7
  exact (truncf_apply (φ := .f32) (ψ := .bf16) (k0_pay6 (F := Ideal) Q Q) bitsLt_bf16_f32 (ix2 c d)).trans (pay6_apply Q q hQ c d)

/-- The column of means from the column of row sums. -/
theorem mean_apply (v5 : FVec Ideal S512x1 .f32) (q : Fin 512 → Fin 4096 → EReal)
    (h5 : ∀ c, v5 (ix2 c (0 : Fin 1)) = rowSum q c) (k : Fin 512) :
    mulf v5 (broadcast S512x1 (Scalar.ofBits (F := Ideal) .f32 0x39800000#32)) (ix2 k (0 : Fin 1)) = meanK q k := by
  refine (mulf_apply _ _ _).trans ?_
  unfold meanK
  exact congrArg₂ (· * ·) (h5 k) ofBits_inv4096

/-- The first gate layer before its `max · 0`. -/
theorem pay8_apply (v5 : Vec Ideal S512x1 .f32) (Q : Vec Ideal S512x4096 .bf16) (v22 v23 : Vec Ideal S64x512 .f32) (v27 : Vec Ideal S64x1 .f32)
    (q : Fin 512 → Fin 4096 → EReal) (w1 : Fin 64 → Fin 1024 → EReal) (b1 : Fin 64 → EReal)
    (h5 : ∀ c, v5 (ix2 c (0 : Fin 1)) = rowSum q c) (hQ : ∀ c n, Q (ix2 c n) = q c n)
    (h22 : ∀ j k, v22 (ix2 j k) = w1 j (lo k)) (h23 : ∀ j k, v23 (ix2 j k) = w1 j (hi k)) (h27 : ∀ j, v27 (ix2 j (0 : Fin 1)) = b1 j) (j : Fin 64) :
    k0_pay8 (F := Ideal) v5 Q Q v22 v23 v27 (ix2 j (0 : Fin 1)) = preHiddenK q w1 b1 j := by
  unfold k0_pay8 preHiddenK
  refine (addf_apply _ _ _).trans ?_
  refine congrArg₂ (· + ·) ?_ ((shapeCast_self_apply _ _ _).trans (h27 j))
  refine (addf_apply _ _ _).trans ?_
  refine congrArg₂ (· + ·) ?_ ?_
  · refine (matmul_hidden_apply _ _ j (0 : Fin 1)).trans ?_
    exact Finset.sum_congr rfl fun k _ => congrArg₂ (· * ·) (h22 j k) (mean_apply v5 q h5 k)
  · refine (matmul_hidden_apply _ _ j (0 : Fin 1)).trans ?_
    refine Finset.sum_congr rfl fun k _ => congrArg₂ (· * ·) (h23 j k) ?_
    refine (matmul_mixMean_apply _ _ k (0 : Fin 1)).trans ?_
    unfold mixMeanK
    exact Finset.sum_congr rfl fun d _ => congrArg₂ (· * ·) (pay6_apply Q q hQ k d) (mean_apply v5 q h5 d)

/-- The gate from the first layer's output. -/
theorem gate_apply (v29 : FVec Ideal S64x1 .f32) (cst : Ideal .f32) (v32 : FVec Ideal S512x64 .f32) (v34 : FVec Ideal S512x1 .f32)
    (q : Fin 512 → Fin 4096 → EReal) (w1 : Fin 64 → Fin 1024 → EReal) (b1 : Fin 64 → EReal) (w2 : Fin 512 → Fin 64 → EReal) (b2 : Fin 512 → EReal)
    (h29 : ∀ j, v29 (ix2 j (0 : Fin 1)) = preHiddenK q w1 b1 j) (hc : cst = 0)
    (h32 : ∀ c j, v32 (ix2 c j) = w2 c j) (h34 : ∀ c, v34 (ix2 c (0 : Fin 1)) = b2 c) (c : Fin 512) :
    logistic (addf
        (matmul dot_S512x64_S64x1_S512x1_1_0_0_1_n_n none v32 (maximumf v29 (broadcast S64x1 cst))
          (constant (F := Ideal) S512x1 .f32 0x00000000#32))
        (shapeCast S512x1 v34 shapeCasts_S512x1_S512x1)) (ix2 c (0 : Fin 1))
      = gateK q w1 b1 w2 b2 c := by
  refine (logistic_apply _ _).trans ?_
  unfold gateK
  refine congrArg Ideal.logistic ?_
  refine (addf_apply _ _ _).trans ?_
  refine congrArg₂ (· + ·) ?_ ((shapeCast_self_apply _ _ _).trans (h34 c))
  refine (matmul_gate_apply _ _ c (0 : Fin 1)).trans ?_
  refine Finset.sum_congr rfl fun j _ => congrArg₂ (· * ·) (h32 c j) ?_
  refine (maximumf_apply _ _ _).trans ?_
  exact congrArg₂ max (h29 j) hc

/-- One stored run of 512 positions of the result: the blend at those positions. -/
theorem pay1_apply (v20 : FVec Ideal S512x512 .bf16) (v29 : FVec Ideal S64x1 .f32) (cst : Ideal .f32) (v32 : Vec Ideal S512x64 .f32) (v34 : Vec Ideal S512x1 .f32)
    (v50 : Vec Ideal S512x512 .bf16) (v53 : Vec Ideal S1x512x512 .f32)
    (q : Fin 512 → Fin 4096 → EReal) (w1 : Fin 64 → Fin 1024 → EReal) (b1 : Fin 64 → EReal) (w2 : Fin 512 → Fin 64 → EReal) (b2 : Fin 512 → EReal) (k : Fin 8)
    (h20 : ∀ c d, v20 (ix2 c d) = attnK q c d) (h29 : ∀ j, v29 (ix2 j (0 : Fin 1)) = preHiddenK q w1 b1 j) (hc : cst = 0)
    (h32 : ∀ c j, v32 (ix2 c j) = w2 c j) (h34 : ∀ c, v34 (ix2 c (0 : Fin 1)) = b2 c)
    (h50 : ∀ d n', v50 (ix2 d n') = q d (pos k n')) (h53 : ∀ c n', v53 (ix3 (0 : Fin 1) c n') = q c (pos k n')) (c n' : Fin 512) :
    k0_pay1 (F := Ideal) v20 v29 cst v32 v34 v50 v53 (ix3 (0 : Fin 1) c n') = outK q w1 b1 w2 b2 c (pos k n') := by
  have hg := gate_apply v29 cst v32 v34 q w1 b1 w2 b2 h29 hc h32 h34 c
  unfold k0_pay1 outK
  refine (shapeCast_ab_1ab_apply _ _ (0 : Fin 1) c n').trans ?_
  refine (addf_apply _ _ _).trans ?_
  refine congrArg₂ (· + ·) ?_ ?_
  · refine (mulf_apply _ _ _).trans ?_
    refine congrArg₂ (· * ·) ?_ ?_
    · refine (broadcastTo_a1_ab_apply _ _ c n').trans ?_
      exact (shapeCast_self_apply _ _ _).trans hg
    · exact (shapeCast_1ab_ab_apply _ _ c n').trans (h53 c n')
  · refine (mulf_apply _ _ _).trans ?_
    refine congrArg₂ (· * ·) ?_ ?_
    · refine (broadcastTo_a1_ab_apply _ _ c n').trans ?_
      refine (shapeCast_self_apply _ _ _).trans ?_
      refine (subf_apply _ _ _).trans ?_
      exact congrArg₂ (· - ·) ofBits_one hg
    · refine (matmul_mix_apply _ _ c n').trans ?_
      unfold mixK
      exact Finset.sum_congr rfl fun d _ => congrArg₂ (· * ·) (h20 c d) (h50 d n')

end Cert.KernelIdeal.Payload
end
-- ==== Proof.BlockValue.lean ====
/-
  The block one grid point writes, over the extended reals, is the specification's blend of the point's input blocks.

  The point's element is a matrix `q` of 512 channels by 4096 positions, read from the block `x0 : [1, 512, 4096]` as
  `q c n = x0 (0, c, n)`; the gate's weights and biases are the blocks `x1 … x4` read coordinate by coordinate.

  The first walk over the 8 runs of 512 positions stores run `k` of the element over columns `512 k … 512 k + 511` of
  the copy, so every store holds ONE function of the copy's index, the element itself, and the 8 stores tile the copy: the
  copy is the element (`copyOf_apply`). Each run adds its 512 entries of a row to the accumulator, which starts at zero:
  after `k` runs row `c` holds the sum of its first `512 k` positions, and after 8 runs the sum of all 4096
  (`accAt_apply`). Hence the attention weights and the first gate layer the body computes from the copy and the
  accumulator are `attnK q` and `preHiddenK q w1 b1`. The second walk stores, over run `k` of the result's block, the
  blend of run `k` of the element with the attention applied to run `k` of the copy, which is `outK` at positions
  `512 k + n'`: again every store holds one function of the block's index, the 8 stores tile the block (`out_cover`),
  and the block is `outK` (`canon_outPieces_apply`).
-/
import proofs.«407397_j81492709474559_3_alg».proof.Proof.Pieces
import proofs.«407397_j81492709474559_3_alg».proof.Proof.Payload
import Idealize.ShloMosaic.Lib.ValueIdx
import Idealize.ShloMosaic.Lib.Pipeline.Value
import Idealize.ShloMosaic.Lib.Ring
import Mathlib.Algebra.BigOperators.Fin
import Mathlib.Algebra.BigOperators.Group.Finset.Basic

noncomputable section
namespace Cert.KernelIdeal.Body
open Cert.KernelIdeal Cert.KernelIdeal.Gen Cert.KernelIdeal.Payload Cert.ChannelAttn Idealize.ShloMosaic Idealize.ShloMosaic.ValueIdx
open Idealize.ShloMosaic.Tactic

/-! ## The point's blocks as the specification's arguments -/

/-- The element as a matrix of channels by positions. -/
def qBlk (x0 : Vec Ideal S1x512x4096 .f32) : Fin 512 → Fin 4096 → EReal := fun c n => x0 (ix3 (0 : Fin 1) c n)
/-- The first layer's weights. -/
def w1Blk (x1 : Vec Ideal S64x1024 .f32) : Fin 64 → Fin 1024 → EReal := fun j k => x1 (ix2 j k)
/-- The first layer's bias. -/
def b1Blk (x2 : Vec Ideal S64x1 .f32) : Fin 64 → EReal := fun j => x2 (ix2 j (0 : Fin 1))
/-- The second layer's weights. -/
def w2Blk (x3 : Vec Ideal S512x64 .f32) : Fin 512 → Fin 64 → EReal := fun c j => x3 (ix2 c j)
/-- The second layer's bias. -/
def b2Blk (x4 : Vec Ideal S512x1 .f32) : Fin 512 → EReal := fun c => x4 (ix2 c (0 : Fin 1))

/-! ## The number of runs -/

/-- The first walk has 8 runs. -/
theorem trips1 : k0_t1_loop.trips = 8 := by decide

/-! ## The copy -/

/-- The element read at the copy's index: entry `(c, n)` of the copy is entry `(0, c, n)` of the element. -/
def copyG (x0 : Vec Ideal S1x512x4096 .f32) : S512x4096.Idx → EReal :=
  fun y => x0 (ix3 (0 : Fin 1) (⟨(y 0).val, idx2_lt0 y⟩ : Fin 512) (⟨(y 1).val, idx2_lt1 y⟩ : Fin 4096))

/-- Run `k` of the element, stored over run `k` of the copy, is the element at the copy's index. -/
theorem copyPiece_agree (x0 : Vec Ideal S1x512x4096 .f32) (k : Fin k0_t1_loop.trips) (x : (rCopy k).shape.Idx) :
    k0_pay4 (F := Ideal) (chunk x0 k) x = copyG x0 ((rCopy k).emb x) := by
  obtain ⟨a, b, rfl⟩ : ∃ a b : Fin 512, x = ix2 a b := ⟨x 0, x 1, eq_ix2 x⟩
  rw [pay4_apply]
  have h1 := k0_off1_eq k
  have h2 := k0_off2_eq k
  show x0 ((rIn k).idx (ix3 (0 : Fin 1) a b)) = _
  unfold copyG
  refine congrArg x0 ?_
  funext ax
  refine Fin.ext ?_
  match ax with
  | ⟨0, _⟩ => show k0_off1 k 0 + 1 * 0 = 0; rw [h1]; rfl
  | ⟨1, _⟩ => show k0_off1 k 1 + 1 * a.val = k0_off2 k 0 + 1 * a.val; rw [h1, h2]; rfl
  | ⟨2, _⟩ => show k0_off1 k 2 + 1 * b.val = k0_off2 k 1 + 1 * b.val; rw [h1, h2]; rfl

/-- The stores of the first `k` runs all hold the element at the copy's index. -/
theorem copyPieces_agree (x0 : Vec Ideal S1x512x4096 .f32) :
    ∀ k, k ≤ k0_t1_loop.trips → ∀ p ∈ copyPieces (F := Ideal) x0 k, ∀ x : p.1.shape.Idx, p.2 x = copyG x0 (p.1.emb x)
  | 0, _ => by
    intro p hp
    exact absurd hp List.not_mem_nil
  | k + 1, hk => by
    have hk' : k < k0_t1_loop.trips := hk
    intro p hp
    rw [copyPieces, dif_pos hk'] at hp
    rcases List.mem_cons.mp hp with rfl | hp'
    · exact copyPiece_agree x0 ⟨k, hk'⟩
    · exact copyPieces_agree x0 k (Nat.le_of_lt hk') p hp'

/-- The copy holds the element: entry (c, n) is the element's. -/
theorem copyOf_apply (x0 : Vec Ideal S1x512x4096 .f32) (c : Fin 512) (n : Fin 4096) : copyOf (F := Ideal) x0 (ix2 c n) = qBlk x0 c n := by
  unfold copyOf
  exact View.canon_apply_of_pieces (copyG x0) _ (copyPieces_agree x0 _ (le_refl _)) (ix2 c n) (copy_cover x0 _)

/-! ## The accumulator -/

/-- Row `c` of the element at a position given as a natural number (zero past the last position). -/
def rowAt (x0 : Vec Ideal S1x512x4096 .f32) (c : Fin 512) (m : ℕ) : EReal := if h : m < 4096 then qBlk x0 c ⟨m, h⟩ else 0

/-- Entry `(c, n')` of run `k` is the element's entry at position `512 k + n'`. -/
theorem chunk_apply (x0 : Vec Ideal S1x512x4096 .f32) (k : Fin k0_t1_loop.trips) (c n' : Fin 512) :
    chunk (F := Ideal) x0 k (ix3 (0 : Fin 1) c n') = rowAt x0 c (512 * k.val + n'.val) := by
  have hk : k.val < 8 := by have := k.isLt; have := k0_t1_abs.2.1; omega
  have hm : 512 * k.val + n'.val < 4096 := by have := n'.isLt; omega
  have h1 := k0_off1_eq k
  unfold rowAt
  rw [dif_pos hm]
  show x0 ((rIn k).idx (ix3 (0 : Fin 1) c n')) = x0 _
  refine congrArg x0 ?_
  funext ax
  refine Fin.ext ?_
  match ax with
  | ⟨0, _⟩ => show k0_off1 k 0 + 1 * 0 = 0; rw [h1]; rfl
  | ⟨1, _⟩ => show k0_off1 k 1 + 1 * c.val = c.val; rw [h1]; show 0 + 1 * c.val = c.val; omega
  | ⟨2, _⟩ => show k0_off1 k 2 + 1 * n'.val = 512 * k.val + n'.val; rw [h1]; show 512 * k.val + 1 * n'.val = _; omega

/-- After `k` runs the accumulator holds the sum of the first `512 k` positions of each row. -/
theorem accAt_partial (x0 : Vec Ideal S1x512x4096 .f32) (c : Fin 512) :
    ∀ k, k ≤ k0_t1_loop.trips → accAt (F := Ideal) x0 k (ix2 c (0 : Fin 1)) = ∑ m ∈ Finset.range (512 * k), rowAt x0 c m
  | 0, _ => by
    rw [show accAt (F := Ideal) x0 0 = k0_pay2 (F := Ideal) from rfl, pay2_apply]
    simp
  | k + 1, hk => by
    have hk' : k < k0_t1_loop.trips := hk
    have ih := accAt_partial x0 c k (Nat.le_of_lt hk')
    have hs : ∑ n' : Fin 512, chunk (F := Ideal) x0 ⟨k, hk'⟩ (ix3 (0 : Fin 1) c n') = ∑ i ∈ Finset.range 512, rowAt x0 c (512 * k + i) := by
      rw [Finset.sum_range]
      exact Finset.sum_congr rfl fun n' _ => chunk_apply x0 ⟨k, hk'⟩ c n'
    rw [show accAt (F := Ideal) x0 (k + 1) = k0_pay5 (chunk x0 ⟨k, hk'⟩) (accAt x0 k) from by rw [accAt, dif_pos hk'],
      pay5_apply, ih, hs, Nat.mul_succ, Finset.sum_range_add]

/-- The accumulator after the 8 trips holds the row sums. -/
theorem accAt_apply (x0 : Vec Ideal S1x512x4096 .f32) (c : Fin 512) : accAt (F := Ideal) x0 k0_t1_loop.trips (ix2 c (0 : Fin 1)) = rowSum (qBlk x0) c := by
  rw [accAt_partial x0 c _ (le_refl _), show 512 * k0_t1_loop.trips = 4096 from by rw [trips1], Finset.sum_range]
  unfold rowSum
  exact Finset.sum_congr rfl fun n _ => by unfold rowAt; rw [dif_pos n.isLt]

/-! ## The result's block -/

/-- The 8 stores tile the result's block. -/
theorem out_cover (x0 : Vec Ideal S1x512x4096 .f32) (x1 : Vec Ideal S64x1024 .f32) (x2 : Vec Ideal S64x1 .f32) (x3 : Vec Ideal S512x64 .f32) (x4 : Vec Ideal S512x1 .f32)
    (y : S1x512x4096.Idx) : ∃ p ∈ outPieces (F := Ideal) x0 x1 x2 x3 x4, y ∈ p.1.set :=
  View.cover_of_tiledL (outPieces x0 x1 x2 x3 x4) S1x512x512.size (by sl_kernel_rfl) y

/-- The attention weights the body computes are the specification's, of the element. -/
theorem attnOf_apply (x0 : Vec Ideal S1x512x4096 .f32) (c d : Fin 512) : attnOf (F := Ideal) x0 (ix2 c d) = attnK (qBlk x0) c d := by
  unfold attnOf
  rw [View.ld_unit_zero zero2']
  exact pay7_apply _ _ (copyOf_apply x0) c d

/-- The first half of the first layer's weights: column `k`. -/
theorem w1_lo_apply (x1 : Vec Ideal S64x1024 .f32) (j : Fin 64) (k : Fin 512) :
    View.ld x1 (Rect.unit (s := S64x1024) ![0, 0] S64x512.size inb_S64x1024_S64x512_0_0) (ix2 j k) = w1Blk x1 j (lo k) := by
  show x1 _ = x1 _
  refine congrArg x1 ?_
  funext ax
  refine Fin.ext ?_
  match ax with
  | ⟨0, _⟩ => show 0 + 1 * j.val = j.val; omega
  | ⟨1, _⟩ => show 0 + 1 * k.val = k.val; omega

/-- The second half of the first layer's weights: column `512 + k`. -/
theorem w1_hi_apply (x1 : Vec Ideal S64x1024 .f32) (j : Fin 64) (k : Fin 512) :
    View.ld x1 (Rect.unit (s := S64x1024) ![0, 512] S64x512.size inb_S64x1024_S64x512_0_512) (ix2 j k) = w1Blk x1 j (hi k) := by
  show x1 _ = x1 _
  refine congrArg x1 ?_
  funext ax
  refine Fin.ext ?_
  match ax with
  | ⟨0, _⟩ => show 0 + 1 * j.val = j.val; omega
  | ⟨1, _⟩ => show 512 + 1 * k.val = 512 + k.val; omega

/-- The first gate layer the body computes is the specification's, of the element and the first layer's weights. -/
theorem hiddenOf_apply (x0 : Vec Ideal S1x512x4096 .f32) (x1 : Vec Ideal S64x1024 .f32) (x2 : Vec Ideal S64x1 .f32) (j : Fin 64) :
    hiddenOf (F := Ideal) x0 x1 x2 (ix2 j (0 : Fin 1)) = preHiddenK (qBlk x0) (w1Blk x1) (b1Blk x2) j := by
  unfold hiddenOf
  rw [View.ld_unit_zero zero2', View.ld_unit_zero zero2, View.ld_unit_zero (S := S64x1) zero2]
  exact pay8_apply _ _ _ _ _ (qBlk x0) (w1Blk x1) (b1Blk x2) (accAt_apply x0) (copyOf_apply x0) (w1_lo_apply x1) (w1_hi_apply x1)
    (fun _ => rfl) j

/-- The specification's blend read at the result block's index. -/
def outG (x0 : Vec Ideal S1x512x4096 .f32) (x1 : Vec Ideal S64x1024 .f32) (x2 : Vec Ideal S64x1 .f32) (x3 : Vec Ideal S512x64 .f32) (x4 : Vec Ideal S512x1 .f32) :
    S1x512x4096.Idx → EReal :=
  fun y => outK (qBlk x0) (w1Blk x1) (b1Blk x2) (w2Blk x3) (b2Blk x4) (⟨(y 1).val, (y 1).isLt⟩ : Fin 512) (⟨(y 2).val, (y 2).isLt⟩ : Fin 4096)

/-- Run `k` of the copy, as the second walk reads it, is run `k` of the element. -/
theorem copyRun_apply (x0 : Vec Ideal S1x512x4096 .f32) (k : Fin k0_t2_loop.trips) (hk : k.val < 8) (d n' : Fin 512) :
    View.ld (copyOf (F := Ideal) x0) (rCopy' k) (ix2 d n') = qBlk x0 d (pos ⟨k.val, hk⟩ n') := by
  have h3 := k0_off3_eq k
  rw [← copyOf_apply]
  show copyOf (F := Ideal) x0 _ = copyOf (F := Ideal) x0 _
  refine congrArg (copyOf (F := Ideal) x0) ?_
  funext ax
  refine Fin.ext ?_
  match ax with
  | ⟨0, _⟩ => show k0_off3 k 0 + 1 * d.val = d.val; rw [h3]; show 0 + 1 * d.val = d.val; omega
  | ⟨1, _⟩ => show k0_off3 k 1 + 1 * n'.val = 512 * k.val + n'.val; rw [h3]; show 512 * k.val + 1 * n'.val = _; omega

/-- Run `k` of the element, as the second walk reads it. -/
theorem eltRun_apply (x0 : Vec Ideal S1x512x4096 .f32) (k : Fin k0_t2_loop.trips) (hk : k.val < 8) (c n' : Fin 512) :
    View.ld x0 (rOut k) (ix3 (0 : Fin 1) c n') = qBlk x0 c (pos ⟨k.val, hk⟩ n') := by
  have h4 := k0_off4_eq k
  show x0 _ = x0 _
  refine congrArg x0 ?_
  funext ax
  refine Fin.ext ?_
  match ax with
  | ⟨0, _⟩ => show k0_off4 k 0 + 1 * 0 = 0; rw [h4]; rfl
  | ⟨1, _⟩ => show k0_off4 k 1 + 1 * c.val = c.val; rw [h4]; show 0 + 1 * c.val = c.val; omega
  | ⟨2, _⟩ => show k0_off4 k 2 + 1 * n'.val = 512 * k.val + n'.val; rw [h4]; show 512 * k.val + 1 * n'.val = _; omega

/-- The store of run `k` of the second walk holds the blend at the result block's index. -/
theorem outPiece_agree (x0 : Vec Ideal S1x512x4096 .f32) (x1 : Vec Ideal S64x1024 .f32) (x2 : Vec Ideal S64x1 .f32) (x3 : Vec Ideal S512x64 .f32) (x4 : Vec Ideal S512x1 .f32)
    (k : Fin k0_t2_loop.trips) (x : (rOut k).shape.Idx) :
    k0_pay1 (F := Ideal) (attnOf x0) (hiddenOf x0 x1 x2) (FloatOps.ofBits FTy.f32 0#32)
        (View.ld x3 (Rect.unit (s := S512x64) ![0, 0] S512x64.size inb_S512x64_S512x64_0_0))
        (View.ld x4 (Rect.unit (s := S512x1) ![0, 0] S512x1.size inb_S512x1_S512x1_0_0))
        (View.ld (copyOf x0) (rCopy' k)) (View.ld x0 (rOut k)) x
      = outG x0 x1 x2 x3 x4 ((rOut k).emb x) := by
  obtain ⟨u, c, n', rfl⟩ : ∃ (u : Fin 1) (c n' : Fin 512), x = ix3 u c n' := ⟨x 0, x 1, x 2, eq_ix3 x⟩
  obtain rfl : u = 0 := Subsingleton.elim _ _
  have hk : k.val < 8 := by have := k.isLt; have := k0_t2_abs.2.1; omega
  have h4 := k0_off4_eq k
  rw [View.ld_unit_zero (S := S512x64) zero2, View.ld_unit_zero zero2]
  refine (pay1_apply _ _ _ _ _ _ _ (qBlk x0) (w1Blk x1) (b1Blk x2) (w2Blk x3) (b2Blk x4) ⟨k.val, hk⟩
    (attnOf_apply x0) (hiddenOf_apply x0 x1 x2) ofBits_zero (fun _ _ => rfl) (fun _ => rfl)
    (copyRun_apply x0 k hk) (eltRun_apply x0 k hk) c n').trans ?_
  unfold outG
  congr 1
  · refine Fin.ext ?_
    show c.val = k0_off4 k 1 + 1 * c.val
    rw [h4]; show c.val = 0 + 1 * c.val; omega
  · refine Fin.ext ?_
    show 512 * k.val + n'.val = k0_off4 k 2 + 1 * n'.val
    rw [h4]; show _ = 512 * k.val + 1 * n'.val; omega

/-- The stores of the first `k` runs of the second walk all hold the blend at the result block's index. -/
theorem outPieces_agree (x0 : Vec Ideal S1x512x4096 .f32) (x1 : Vec Ideal S64x1024 .f32) (x2 : Vec Ideal S64x1 .f32) (x3 : Vec Ideal S512x64 .f32) (x4 : Vec Ideal S512x1 .f32) :
    ∀ k, k ≤ k0_t2_loop.trips →
      ∀ p ∈ outPiecesOf (F := Ideal) (attnOf x0) (hiddenOf x0 x1 x2) (FloatOps.ofBits FTy.f32 0#32)
          (View.ld x3 (Rect.unit (s := S512x64) ![0, 0] S512x64.size inb_S512x64_S512x64_0_0))
          (View.ld x4 (Rect.unit (s := S512x1) ![0, 0] S512x1.size inb_S512x1_S512x1_0_0)) x0 (copyOf x0) k,
        ∀ x : p.1.shape.Idx, p.2 x = outG x0 x1 x2 x3 x4 (p.1.emb x)
  | 0, _ => by
    intro p hp
    exact absurd hp List.not_mem_nil
  | k + 1, hk => by
    have hk' : k < k0_t2_loop.trips := hk
    intro p hp
    rw [outPiecesOf, dif_pos hk'] at hp
    rcases List.mem_cons.mp hp with rfl | hp'
    · exact outPiece_agree x0 x1 x2 x3 x4 ⟨k, hk'⟩
    · exact outPieces_agree x0 x1 x2 x3 x4 k (Nat.le_of_lt hk') p hp'

/-- THE BLOCK: what the 8 stores leave at channel `ch`, position `n`, is `outK` of the point's blocks. -/
theorem canon_outPieces_apply (x0 : Vec Ideal S1x512x4096 .f32) (x1 : Vec Ideal S64x1024 .f32) (x2 : Vec Ideal S64x1 .f32) (x3 : Vec Ideal S512x64 .f32) (x4 : Vec Ideal S512x1 .f32)
    (ch : Fin 512) (n : Fin 4096) :
    View.canon (outPieces (F := Ideal) x0 x1 x2 x3 x4) (ix3 (0 : Fin 1) ch n)
      = outK (qBlk x0) (w1Blk x1) (b1Blk x2) (w2Blk x3) (b2Blk x4) ch n :=
  View.canon_apply_of_pieces (outG x0 x1 x2 x3 x4) _ (outPieces_agree x0 x1 x2 x3 x4 _ (le_refl _)) (ix3 (0 : Fin 1) ch n)
    (out_cover x0 x1 x2 x3 x4 _)

end Cert.KernelIdeal.Body
end
-- ==== Proof.KValue.lean ====
/-
  The tiled program's result array, read: batch element `b`, channel `c`, position `(h, w)` holds
  `Cert.ChannelAttn.outK` of batch element `b` at `(c, 64 h + w)`.

  The program flattens the input to `[16, 512, 4096]` and turns the two biases into columns; its one region walks a
  grid of 16 points, point `t` being handed batch element `t` and the whole of the four weight arrays, and writing block
  `t` of a `[16, 512, 4096]` array; a last reshape gives `[16, 512, 64, 64]`. Here: the three reshapes before the region
  read at an index; the blocks a point is handed; the block it writes (the 8 stores of its body, read back as one function);
  that the 16 blocks tile the array; and the last reshape.
-/
import proofs.«407397_j81492709474559_3_alg».proof.Proof.FrameP
import proofs.«407397_j81492709474559_3_alg».proof.Proof.SpecIdx
import proofs.«407397_j81492709474559_3_alg».proof.Proof.BlockValue
import Idealize.ShloMosaic.Lib.Pipeline.Value
import Idealize.ShloMosaic.Lib.StableHlo.Run
import Idealize.ShloMosaic.Lib.Tactic
import Idealize.ShloMosaic.Lib.ValueIdx

set_option maxRecDepth 16384

noncomputable section

namespace Cert.KernelIdeal.KValue

open Cert.KernelIdeal Cert.KernelIdeal.Gen Cert.KernelIdeal.GenP Cert.KernelIdeal.Body Cert.ChannelAttn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The point's number as a batch index; the printed index maps over the grid -/

/-- Grid point `t` works on batch element `t`. -/
def tb (t : Fin cfg0.N) : Fin 16 := ⟨t.val, by have h : t.val < grid0.N := t.isLt; rw [N_0] at h; exact h⟩

/-- The element's window and the result's window move along the batch axis with the point; every other window stays at block (0, 0). -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The arrays the region finds: three reshapes of the arguments -/

/-- The flattened input at (b, c, n) is the input at (b, c, n / 64, n % 64). -/
theorem V_v0_apply (c : Dev nD) (b : Fin 16) (ch : Fin 512) (n : Fin 4096) :
    (V m c main_v0 : S16x512x4096.Idx → EReal) (ix3 b ch n) = qOf (m ((c.tc : Thread nD τ).loc main_arg0)) b ch n := by
  have e : (V m c main_v0 : S16x512x4096.Idx → EReal)
      = shapeCast S16x512x4096 (m ((c.tc : Thread nD τ).loc main_arg0)) shapeCasts_S16x512x64x64_S16x512x4096 := by
    show StableHlo.after hostOps0 (fun b => m (c, b)) (Proc.devRef .tc main_v0) = _
    after_results; rfl
  rw [e]
  refine (shapeCast_apply _ _ (ix3 b ch n) (ix4 b ch (rowOf n) (colOf n)) ?_).trans rfl
  rw [Shape.rowMajor_val_four, Shape.rowMajor_val_three]
  show ((b.val * 512 + ch.val) * 64 + n.val / 64) * 64 + n.val % 64 = (b.val * 512 + ch.val) * 4096 + n.val
  omega

/-- The first layer's bias as a column. -/
theorem V_v1_apply (c : Dev nD) (j : Fin 64) :
    (V m c main_v1 : S64x1.Idx → EReal) (ix2 j (0 : Fin 1)) = b1Of (m ((c.tc : Thread nD τ).loc main_arg2)) j := by
  have e : (V m c main_v1 : S64x1.Idx → EReal) = shapeCast S64x1 (m ((c.tc : Thread nD τ).loc main_arg2)) shapeCasts_S64_S64x1 := by
    show StableHlo.after hostOps0 (fun b => m (c, b)) (Proc.devRef .tc main_v1) = _
    after_results; rfl
  rw [e]
  refine (shapeCast_apply _ _ (ix2 j (0 : Fin 1)) (ix1 j) ?_).trans rfl
  rw [Shape.rowMajor_val_one, Shape.rowMajor_val_two]
  show j.val = j.val * 1 + 0
  omega

/-- The second layer's bias as a column. -/
theorem V_v2_apply (c : Dev nD) (ch : Fin 512) :
    (V m c main_v2 : S512x1.Idx → EReal) (ix2 ch (0 : Fin 1)) = b2Of (m ((c.tc : Thread nD τ).loc main_arg4)) ch := by
  have e : (V m c main_v2 : S512x1.Idx → EReal) = shapeCast S512x1 (m ((c.tc : Thread nD τ).loc main_arg4)) shapeCasts_S512_S512x1 := by
    show StableHlo.after hostOps0 (fun b => m (c, b)) (Proc.devRef .tc main_v2) = _
    after_results; rfl
  rw [e]
  refine (shapeCast_apply _ _ (ix2 ch (0 : Fin 1)) (ix1 ch) ?_).trans rfl
  rw [Shape.rowMajor_val_one, Shape.rowMajor_val_two]
  show ch.val = ch.val * 1 + 0
  omega

/-! ## The blocks a point is handed -/

/-- Point `t`'s block of the flattened input is batch element `t`. -/
theorem iblk0_apply (c : Dev nD) (t : Fin cfg0.N) (ch : Fin 512) (n : Fin 4096) :
    (iblk m c 0 t : S1x512x4096.Idx → EReal) (ix3 (0 : Fin 1) ch n) = qOf (m ((c.tc : Thread nD τ).loc main_arg0)) (tb t) ch n := by
  obtain ⟨e0, e1, e2, -⟩ := idx_facts t
  unfold iblk
  rw [View.read_apply]
  show (V m c main_v0 : S16x512x4096.Idx → EReal) (((cfg0.win 0).blk t).view.emb (ix3 (0 : Fin 1) ch n)) = _
  have hemb : ((cfg0.win 0).blk t).view.emb (ix3 (0 : Fin 1) ch n) = ix3 (tb t) ch n := by
    funext a; apply Fin.ext
    match a with
    | ⟨0, _⟩ => show win0_0.index t (0 : Fin 3) * 1 + 1 * 0 = t.val; omega
    | ⟨1, _⟩ => show win0_0.index t (1 : Fin 3) * 512 + 1 * ch.val = ch.val; omega
    | ⟨2, _⟩ => show win0_0.index t (2 : Fin 3) * 4096 + 1 * n.val = n.val; omega
  rw [hemb]
  exact V_v0_apply m c (tb t) ch n

/-- Every point is handed the whole of the first layer's weights. -/
theorem iblk1_apply (c : Dev nD) (t : Fin cfg0.N) (j : Fin 64) (k : Fin 1024) :
    (iblk m c 1 t : S64x1024.Idx → EReal) (ix2 j k) = w1Of (m ((c.tc : Thread nD τ).loc main_arg1)) j k := by
  obtain ⟨-, -, -, -, -, -, e0, e1, -⟩ := idx_facts t
  unfold iblk
  rw [View.read_apply]
  show (V m c main_arg1 : S64x1024.Idx → EReal) (((cfg0.win 1).blk t).view.emb (ix2 j k)) = _
  have hemb : ((cfg0.win 1).blk t).view.emb (ix2 j k) = ix2 j k := by
    funext a; apply Fin.ext
    match a with
    | ⟨0, _⟩ => show win0_1.index t (0 : Fin 2) * 64 + 1 * j.val = j.val; omega
    | ⟨1, _⟩ => show win0_1.index t (1 : Fin 2) * 1024 + 1 * k.val = k.val; omega
  rw [hemb, V_main_arg1]
  rfl

/-- … and the whole of the first layer's bias, -/
theorem iblk2_apply (c : Dev nD) (t : Fin cfg0.N) (j : Fin 64) :
    (iblk m c 2 t : S64x1.Idx → EReal) (ix2 j (0 : Fin 1)) = b1Of (m ((c.tc : Thread nD τ).loc main_arg2)) j := by
  obtain ⟨-, -, -, -, -, -, -, -, e0, e1, -⟩ := idx_facts t
  unfold iblk
  rw [View.read_apply]
  show (V m c main_v1 : S64x1.Idx → EReal) (((cfg0.win 2).blk t).view.emb (ix2 j (0 : Fin 1))) = _
  have hemb : ((cfg0.win 2).blk t).view.emb (ix2 j (0 : Fin 1)) = ix2 j (0 : Fin 1) := by
    funext a; apply Fin.ext
    match a with
    | ⟨0, _⟩ => show win0_2.index t (0 : Fin 2) * 64 + 1 * j.val = j.val; omega
    | ⟨1, _⟩ => show win0_2.index t (1 : Fin 2) * 1 + 1 * 0 = 0; omega
  rw [hemb]
  exact V_v1_apply m c j

/-- … of the second layer's weights, -/
theorem iblk3_apply (c : Dev nD) (t : Fin cfg0.N) (ch : Fin 512) (j : Fin 64) :
    (iblk m c 3 t : S512x64.Idx → EReal) (ix2 ch j) = w2Of (m ((c.tc : Thread nD τ).loc main_arg3)) ch j := by
  obtain ⟨-, -, -, -, -, -, -, -, -, -, e0, e1, -⟩ := idx_facts t
  unfold iblk
  rw [View.read_apply]
  show (V m c main_arg3 : S512x64.Idx → EReal) (((cfg0.win 3).blk t).view.emb (ix2 ch j)) = _
  have hemb : ((cfg0.win 3).blk t).view.emb (ix2 ch j) = ix2 ch j := by
    funext a; apply Fin.ext
    match a with
    | ⟨0, _⟩ => show win0_3.index t (0 : Fin 2) * 512 + 1 * ch.val = ch.val; omega
    | ⟨1, _⟩ => show win0_3.index t (1 : Fin 2) * 64 + 1 * j.val = j.val; omega
  rw [hemb, V_main_arg3]
  rfl

/-- … and of the second layer's bias. -/
theorem iblk4_apply (c : Dev nD) (t : Fin cfg0.N) (ch : Fin 512) :
    (iblk m c 4 t : S512x1.Idx → EReal) (ix2 ch (0 : Fin 1)) = b2Of (m ((c.tc : Thread nD τ).loc main_arg4)) ch := by
  obtain ⟨-, -, -, -, -, -, -, -, -, -, -, -, e0, e1⟩ := idx_facts t
  unfold iblk
  rw [View.read_apply]
  show (V m c main_v2 : S512x1.Idx → EReal) (((cfg0.win 4).blk t).view.emb (ix2 ch (0 : Fin 1))) = _
  have hemb : ((cfg0.win 4).blk t).view.emb (ix2 ch (0 : Fin 1)) = ix2 ch (0 : Fin 1) := by
    funext a; apply Fin.ext
    match a with
    | ⟨0, _⟩ => show win0_4.index t (0 : Fin 2) * 512 + 1 * ch.val = ch.val; omega
    | ⟨1, _⟩ => show win0_4.index t (1 : Fin 2) * 1 + 1 * 0 = 0; omega
  rw [hemb]
  exact V_v2_apply m c ch

/-! ## The block a point writes -/

/-- What point `t` leaves in the result's staging buffer: `outK` of batch element `t`. -/
theorem outsAt_apply (c : Dev nD) (t : Fin cfg0.N) (ch : Fin 512) (n : Fin 4096) :
    (outsAt0 m c t : S1x512x4096.Idx → EReal) (ix3 (0 : Fin 1) ch n) = outK (qOf (m ((c.tc : Thread nD τ).loc main_arg0)) (tb t)) (w1Of (m ((c.tc : Thread nD τ).loc main_arg1))) (b1Of (m ((c.tc : Thread nD τ).loc main_arg2))) (w2Of (m ((c.tc : Thread nD τ).loc main_arg3))) (b2Of (m ((c.tc : Thread nD τ).loc main_arg4))) ch n := by
  unfold outsAt0 out0_A_5
  rw [View.read_writes_junk_eq_canon]
  refine (canon_outPieces_apply (iblk m c 0 t) (iblk m c 1 t) (iblk m c 2 t) (iblk m c 3 t) (iblk m c 4 t) ch n).trans ?_
  rw [show qBlk (iblk m c 0 t) = qOf (m ((c.tc : Thread nD τ).loc main_arg0)) (tb t) from funext fun a => funext fun b => iblk0_apply m c t a b,
    show w1Blk (iblk m c 1 t) = w1Of (m ((c.tc : Thread nD τ).loc main_arg1)) from funext fun a => funext fun b => iblk1_apply m c t a b,
    show b1Blk (iblk m c 2 t) = b1Of (m ((c.tc : Thread nD τ).loc main_arg2)) from funext fun a => iblk2_apply m c t a,
    show w2Blk (iblk m c 3 t) = w2Of (m ((c.tc : Thread nD τ).loc main_arg3)) from funext fun a => funext fun b => iblk3_apply m c t a b,
    show b2Blk (iblk m c 4 t) = b2Of (m ((c.tc : Thread nD τ).loc main_arg4)) from funext fun a => iblk4_apply m c t a]

/-! ## From blocks to the array, and through the last reshape -/

/-- The result before the last reshape: `outK` of each batch element, on `[16, 512, 4096]`. -/
def res3 (c : Dev nD) : S16x512x4096.Idx → EReal := fun i => outK (qOf (m ((c.tc : Thread nD τ).loc main_arg0)) (i 0)) (w1Of (m ((c.tc : Thread nD τ).loc main_arg1))) (b1Of (m ((c.tc : Thread nD τ).loc main_arg2))) (w2Of (m ((c.tc : Thread nD τ).loc main_arg3))) (b2Of (m ((c.tc : Thread nD τ).loc main_arg4))) (i 1) (i 2)

/-- The result: the same on `[16, 512, 64, 64]`, position `(h, w)` being `64 h + w`. -/
def res4 (c : Dev nD) : S16x512x64x64.Idx → EReal := fun i => outK (qOf (m ((c.tc : Thread nD τ).loc main_arg0)) (i 0)) (w1Of (m ((c.tc : Thread nD τ).loc main_arg1))) (b1Of (m ((c.tc : Thread nD τ).loc main_arg2))) (w2Of (m ((c.tc : Thread nD τ).loc main_arg3))) (b2Of (m ((c.tc : Thread nD τ).loc main_arg4))) (i 1) (hw (i 2) (i 3))

/-- WHAT POINT `t` WRITES BACK is block `t` of `res3`. -/
theorem flushed_eq (c : Dev nD) (t : Fin cfg0.N) :
    (dats m 0 c).flushed 5 t = ((cfg0.win 5).blk t).view.read (Elt Ideal) (res3 m c) := by
  obtain ⟨-, -, -, e0, e1, e2, -⟩ := idx_facts t
  show (cfg0.win 5).cut (grid0.coords t) ((dats m 0 c).after 5 t) = _
  rw [after0_5]
  funext j
  obtain ⟨ja, ch, n, rfl⟩ : ∃ (ja : Fin 1) (ch : Fin 512) (n : Fin 4096), j = ix3 ja ch n := ⟨j 0, j 1, j 2, eq_ix3 j⟩
  obtain rfl : ja = 0 := Subsingleton.elim _ _
  rw [View.read_apply]
  show (outsAt0 m c t : S1x512x4096.Idx → EReal) (ix3 (0 : Fin 1) ch n) = res3 m c (((cfg0.win 5).blk t).view.emb (ix3 (0 : Fin 1) ch n))
  have hemb : ((cfg0.win 5).blk t).view.emb (ix3 (0 : Fin 1) ch n) = ix3 (tb t) ch n := by
    funext a; apply Fin.ext
    match a with
    | ⟨0, _⟩ => show win0_5.index t (0 : Fin 3) * 1 + 1 * 0 = t.val; omega
    | ⟨1, _⟩ => show win0_5.index t (1 : Fin 3) * 512 + 1 * ch.val = ch.val; omega
    | ⟨2, _⟩ => show win0_5.index t (2 : Fin 3) * 4096 + 1 * n.val = n.val; omega
  rw [hemb, outsAt_apply]
  rfl

/-- An index of the array is in point `t`'s block iff each coordinate is in the block's range on its axis. -/
theorem mem_blk5 (t : Fin cfg0.N) (i : S16x512x4096.Idx) :
    i ∈ ((cfg0.win 5).blk t).view.set ↔ ∀ a : Fin 3, win0_5.index t a * S1x512x4096.size a ≤ (i a).val ∧ (i a).val < win0_5.index t a * S1x512x4096.size a + S1x512x4096.size a := by
  show i ∈ ((View.whole main_v3).slice (win0_5.rect t)).set ↔ _
  rw [View.set_slice_whole, Rect.mem_set_unit]
  exact Iff.rfl

/-- Every index of the array is in the block of the point of its batch coordinate. -/
theorem cover5 (i : S16x512x4096.Idx) : ∃ t : Fin cfg0.N, (cfg0.win 5).flush t = true ∧ i ∈ ((cfg0.win 5).blk t).view.set := by
  have hi0 : (i 0).val < 16 := (i 0).isLt
  have hi1 : (i 1).val < 512 := (i 1).isLt
  have hi2 : (i 2).val < 4096 := (i 2).isLt
  have hN : (i 0).val < grid0.N := by rw [N_0]; exact hi0
  refine ⟨⟨(i 0).val, hN⟩, flush0_5 _, ?_⟩
  obtain ⟨-, -, -, e0, e1, e2, -⟩ := idx_facts ⟨(i 0).val, hN⟩
  rw [mem_blk5]
  intro a
  match a with
  | ⟨0, _⟩ => show win0_5.index ⟨(i 0).val, hN⟩ (0 : Fin 3) * 1 ≤ (i 0).val ∧ (i 0).val < win0_5.index ⟨(i 0).val, hN⟩ (0 : Fin 3) * 1 + 1
              rw [e0]; show (i 0).val * 1 ≤ (i 0).val ∧ (i 0).val < (i 0).val * 1 + 1; omega
  | ⟨1, _⟩ => show win0_5.index ⟨(i 0).val, hN⟩ (1 : Fin 3) * 512 ≤ (i 1).val ∧ (i 1).val < win0_5.index ⟨(i 0).val, hN⟩ (1 : Fin 3) * 512 + 512
              rw [e1]; omega
  | ⟨2, _⟩ => show win0_5.index ⟨(i 0).val, hN⟩ (2 : Fin 3) * 4096 ≤ (i 2).val ∧ (i 2).val < win0_5.index ⟨(i 0).val, hN⟩ (2 : Fin 3) * 4096 + 4096
              rw [e2]; omega

/-- THE ARRAY after the region: `res3`. -/
theorem final5 (c : Dev nD) : (dats m 0 c).arrAt 5 cfg0.N = res3 m c :=
  (dats m 0 c).arrAt_eq_of_cover 5 (res3 m c) (fun t _ => flushed_eq m c t) cover5

/-- The last reshape of it is `res4`. -/
theorem tail_eq (c : Dev nD) : Pipeline.afterTail₀ cfgs (dats m) 0 (V0 m) [hostOps1] c main_v4 = res4 m c := by
  unfold Pipeline.afterTail₀
  show StableHlo.after hostOps1 _ (Proc.devRef .tc main_v4) = _
  after_results
  have e3 : Pipeline.withArrays (cfgs 0).spec c (V0 m c) (fun w => (dats m 0 c).arrAt w (cfgs 0).N) (Proc.devRef .tc main_v3) = res3 m c :=
    (Pipeline.withArrays_arr spec0 launch0.win.arr_inj c _ _ 5).trans (final5 m c)
  rw [e3]
  funext i
  obtain ⟨b, ch, h, w, rfl⟩ : ∃ (b : Fin 16) (ch : Fin 512) (h w : Fin 64), i = ix4 b ch h w := ⟨i 0, i 1, i 2, i 3, eq_ix4 i⟩
  refine (shapeCast_apply (res3 m c) shapeCasts_S16x512x4096_S16x512x64x64 (ix4 b ch h w) (ix3 b ch (hw h w)) ?_).trans rfl
  rw [Shape.rowMajor_val_three, Shape.rowMajor_val_four]
  show (b.val * 512 + ch.val) * 4096 + (64 * h.val + w.val) = ((b.val * 512 + ch.val) * 64 + h.val) * 64 + w.val
  omega

/-! ## The run, read -/

/-- Every weakly fair execution of the tiled program ends with its result array at `res4` and its arguments unchanged. -/
theorem run : θ_run defs (onTc (τ := τ) (main (F := Ideal))) ⟨m, fun _ => 0, ρ⟩ fun r => ∀ c : Dev nD,
      r.2.mem ((c.tc : Thread nD τ).loc main_v4) = res4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v4 (Pipeline.mem_restRefs_of main_v4 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.KernelIdeal.KValue

end
-- ==== Proof.RefValue.lean ====
/-
  The plain program's result, read index by index: it is `Cert.ChannelAttn.outR` of each batch element.

  Stage by stage, at explicit coordinates. The flattened input at `(b, c, n)` is entry `(c, n)` of the matrix `q` of batch
  element `b`; the first contraction is the energy `∑ n, q c n * q d n`; the two maxima over the last axis are folds of
  `max` from `⊥` over a row, which give the row maximum and the maximum of the shifted row; exponential, row sum from `0`
  and quotient give the attention weights; the second contraction gives the mixed map, read back on the 64 × 64 grid at
  position `64 h + w`. The stack of the input on the mixed map along the channels reads the input below 512 and the mixed
  map from 512 on; its sum over the two grid axes from `0` is the sum over the 4096 positions (the bijection
  `(h, w) ↦ 64 h + w`), and the quotient by `4096` gives the stacked means. The two dense layers are sums over the
  contracted axis against the transposed weights, with `max · 0` between them and `1 / (1 + exp (-·))` after; the result is
  the blend `g c * q c n + (1 - g c) * (a q) c n`.
-/
import proofs.«407397_j81492709474559_3_alg».proof.Proof.Spec
import proofs.«407397_j81492709474559_3_alg».proof.Proof.SpecIdx
import proofs.«407397_j81492709474559_3_alg».proof.Proof.RefRead

noncomputable section

namespace Cert.ReferenceIdeal.RefValue

open Cert.ReferenceIdeal Cert.ReferenceIdeal.Gen Cert.ReferenceIdeal.ReadP Cert.ChannelAttn Idealize.ShloMosaic Idealize.ShloMosaic.ValueIdx Idealize.SL.Sem

/-! ## Positions of the 64 × 64 grid -/

theorem rowOf_hw (h w : Fin 64) : rowOf (hw h w) = h := Fin.ext (by show (64 * h.val + w.val) / 64 = h.val; omega)
theorem colOf_hw (h w : Fin 64) : colOf (hw h w) = w := Fin.ext (by show (64 * h.val + w.val) % 64 = w.val; omega)
theorem hw_rowOf_colOf (n : Fin 4096) : hw (rowOf n) (colOf n) = n :=
  Fin.ext (by show 64 * (n.val / 64) + n.val % 64 = n.val; omega)

variable (x0 : (⟨S16x512x64x64, .f32⟩ : BufTy).Contents (Elt Ideal)) (x1 : (⟨S64x1024, .f32⟩ : BufTy).Contents (Elt Ideal))
  (x2 : (⟨S64, .f32⟩ : BufTy).Contents (Elt Ideal)) (x3 : (⟨S512x64, .f32⟩ : BufTy).Contents (Elt Ideal))
  (x4 : (⟨S512, .f32⟩ : BufTy).Contents (Elt Ideal))

/-! ## The attention weights (stages 0 to 16) -/

/-- The flattened input at `(b, c, n)` is entry `(c, n)` of batch element `b`. -/
theorem v0_at (b : Fin 16) (c : Fin 512) (n : Fin 4096) :
    val_main_v0 (F := Ideal) x0 (ix3 b c n) = qOf x0 b c n := by
  rw [val_main_v0_apply]
  refine congrArg x0 (funext fun a => Fin.ext ?_)
  have hb := b.isLt; have hc := c.isLt; have hn := n.isLt
  match a with
  | ⟨0, _⟩ => show ((b.val * 512 + c.val) * 4096 + n.val) / 2097152 = b.val; omega
  | ⟨1, _⟩ => show ((b.val * 512 + c.val) * 4096 + n.val) / 4096 % 512 = c.val; omega
  | ⟨2, _⟩ => show ((b.val * 512 + c.val) * 4096 + n.val) / 64 % 64 = n.val / 64; omega
  | ⟨3, _⟩ => show ((b.val * 512 + c.val) * 4096 + n.val) % 64 = n.val % 64; omega

/-- The first contraction is the energy. -/
theorem v1_at (b : Fin 16) (c d : Fin 512) :
    val_main_v1 (F := Ideal) x0 (ix3 b c d) = energy (qOf x0 b) c d := by
  rw [val_main_v1_apply]
  unfold energy
  refine Finset.sum_congr rfl fun k _ => ?_
  rw [show lidx_main_v1 (ix3 b c d) k = ix3 b c k from funext fun a => by match a with | ⟨0, _⟩ => rfl | ⟨1, _⟩ => rfl | ⟨2, _⟩ => rfl,
    show ridx_main_v1 (ix3 b c d) k = ix3 b d k from funext fun a => by match a with | ⟨0, _⟩ => rfl | ⟨1, _⟩ => rfl | ⟨2, _⟩ => rfl, v0_at, v0_at]

/-- A maximum over the last axis of a `[16, 512, 512]` array from an initial value that denotes `⊥`, at `(b, c)`:
    the fold of `max` over the row. -/
theorem reduce_max_at (f : S16x512x512.Idx → EReal) (init : (⟨S_, .f32⟩ : BufTy).Contents (Elt Ideal))
    (hinit : init (Shape.Idx.first h_S_) = ⊥) (b : Fin 16) (c : Fin 512) :
    Host.reduce (FloatOps.maximumf (F := Ideal) (φ := .f32)) f init reducesTo_S16x512x512_S16x512_d2 h_S_ (ix2 b c)
      = (Finset.univ : Finset (Fin 512)).fold max ⊥ (fun d => f (ix3 b c d)) := by
  rw [Host.reduce_eq_fold_single (FloatOps.maximumf (F := Ideal) (φ := .f32)) f init reducesTo_S16x512x512_S16x512_d2
    (by decide : S16x512x512.Reduces [2] S16x512) h_S_ (ix2 b c), hinit]
  refine Finset.fold_congr fun d _ => ?_
  exact congrArg f (funext fun a => Fin.ext (by match a with | ⟨0, _⟩ => rfl | ⟨1, _⟩ => rfl | ⟨2, _⟩ => rfl))

theorem v2_at (b : Fin 16) (c : Fin 512) : val_main_v2 (F := Ideal) x0 (ix2 b c) = rowMax (qOf x0 b) c := by
  unfold val_main_v2
  rw [reduce_max_at (val_main_v1 (F := Ideal) x0) (val_main_cst (F := Ideal)) (by rw [val_main_cst_apply]; exact ofBits_negInf) b c]
  unfold rowMax
  exact Finset.fold_congr fun d _ => v1_at x0 b c d

theorem v5_at (b : Fin 16) (c d : Fin 512) : val_main_v5 (F := Ideal) x0 (ix3 b c d) = shiftR (qOf x0 b) c d := by
  rw [val_main_v5_apply, val_main_v4_apply, val_main_v3_apply,
    show idx_main_v3 (idx_main_v4 (ix3 b c d)) = ix2 b c from funext fun a => by match a with | ⟨0, _⟩ => rfl | ⟨1, _⟩ => rfl, v2_at, v1_at]
  rfl

theorem v6_at (b : Fin 16) (c : Fin 512) :
    val_main_v6 (F := Ideal) x0 (ix2 b c) = (Finset.univ : Finset (Fin 512)).fold max ⊥ (fun d => shiftR (qOf x0 b) c d) := by
  unfold val_main_v6
  rw [reduce_max_at (val_main_v5 (F := Ideal) x0) (val_main_cst_0 (F := Ideal)) (by rw [val_main_cst_0_apply]; exact ofBits_negInf) b c]
  exact Finset.fold_congr fun d _ => v5_at x0 b c d

theorem v8_at (b : Fin 16) (c : Fin 512) : val_main_v8 (F := Ideal) x0 (ix2 b c) = shiftMaxR (qOf x0 b) c := by
  rw [val_main_v8_apply, val_main_v7_apply, val_main_cst_1_apply, v6_at]
  show max (Ideal.ofBits .f32 0xFF800000#32) _ = _
  rw [ofBits_negInf]
  rfl

theorem v12_at (b : Fin 16) (c d : Fin 512) : val_main_v12 (F := Ideal) x0 (ix3 b c d) = expR (qOf x0 b) c d := by
  rw [val_main_v12_apply, val_main_v11_apply, val_main_v10_apply, val_main_v9_apply,
    show idx_main_v9 (idx_main_v10 (ix3 b c d)) = ix2 b c from funext fun a => by match a with | ⟨0, _⟩ => rfl | ⟨1, _⟩ => rfl, v8_at, v5_at]
  rfl

theorem v13_at (b : Fin 16) (c : Fin 512) :
    val_main_v13 (F := Ideal) x0 (ix2 b c) = ∑ d : Fin 512, expR (qOf x0 b) c d := by
  rw [val_main_v13_apply, val_main_cst_2_apply]
  show Ideal.ofBits .f32 0x00000000#32 + _ = _
  rw [ofBits_zero, zero_add]
  refine Finset.sum_congr rfl fun k _ => ?_
  rw [show idx_main_v13 (ix2 b c) k = ix3 b c k from funext fun a => by match a with | ⟨0, _⟩ => rfl | ⟨1, _⟩ => rfl | ⟨2, _⟩ => rfl, v12_at]

theorem v16_at (b : Fin 16) (c d : Fin 512) : val_main_v16 (F := Ideal) x0 (ix3 b c d) = attnR (qOf x0 b) c d := by
  rw [val_main_v16_apply, val_main_v15_apply, val_main_v14_apply,
    show idx_main_v14 (idx_main_v15 (ix3 b c d)) = ix2 b c from funext fun a => by match a with | ⟨0, _⟩ => rfl | ⟨1, _⟩ => rfl, v13_at, v12_at]
  rfl

/-! ## The mixed map (stages 17 and 18) -/

theorem v17_at (b : Fin 16) (c : Fin 512) (n : Fin 4096) :
    val_main_v17 (F := Ideal) x0 (ix3 b c n) = mixR (qOf x0 b) c n := by
  rw [val_main_v17_apply]
  unfold mixR
  refine Finset.sum_congr rfl fun k _ => ?_
  rw [show lidx_main_v17 (ix3 b c n) k = ix3 b c k from funext fun a => by match a with | ⟨0, _⟩ => rfl | ⟨1, _⟩ => rfl | ⟨2, _⟩ => rfl,
    show ridx_main_v17 (ix3 b c n) k = ix3 b k n from funext fun a => by match a with | ⟨0, _⟩ => rfl | ⟨1, _⟩ => rfl | ⟨2, _⟩ => rfl, v16_at, v0_at]

theorem v18_at (b : Fin 16) (c : Fin 512) (h w : Fin 64) :
    val_main_v18 (F := Ideal) x0 (ix4 b c h w) = mixR (qOf x0 b) c (hw h w) := by
  rw [val_main_v18_apply, show idx_main_v18 (ix4 b c h w) = ix3 b c (hw h w) from funext fun a => Fin.ext (by
    have hb := b.isLt; have hc := c.isLt; have hh := h.isLt; have hw' := w.isLt
    match a with
    | ⟨0, _⟩ => show (((b.val * 512 + c.val) * 64 + h.val) * 64 + w.val) / 2097152 = b.val; omega
    | ⟨1, _⟩ => show (((b.val * 512 + c.val) * 64 + h.val) * 64 + w.val) / 4096 % 512 = c.val; omega
    | ⟨2, _⟩ => show (((b.val * 512 + c.val) * 64 + h.val) * 64 + w.val) % 4096 = 64 * h.val + w.val; omega), v17_at]

/-! ## The stacked means (stages 19 to 22) -/

/-- The input's own entry as the matrix entry. -/
theorem x0_at (b : Fin 16) (c : Fin 512) (h w : Fin 64) : x0 (ix4 b c h w) = qOf x0 b c (hw h w) := by
  show _ = x0 (ix4 b c (rowOf (hw h w)) (colOf (hw h w)))
  rw [rowOf_hw, colOf_hw]

/-- The stack of the input on the mixed map, along the channels: below 512 the input. -/
theorem v19_lo (b : Fin 16) (k : Fin 1024) (hk : k.val < 512) (h w : Fin 64) :
    val_main_v19 (F := Ideal) x0 (ix4 b k h w) = x0 (ix4 b ⟨k.val, hk⟩ h w) := by
  unfold val_main_v19
  exact concatenate_pair_apply_left (t := S16x1024x64x64) 1 x0 (val_main_v18 (F := Ideal) x0)
    concatenates_S16x512x64x64_S16x512x64x64_S16x1024x64x64_d1 (ix4 b k h w) rfl (ix4 b ⟨k.val, hk⟩ h w)
    (fun a => by match a with | ⟨0, _⟩ => rfl | ⟨1, _⟩ => rfl | ⟨2, _⟩ => rfl | ⟨3, _⟩ => rfl)

/-- From 512 on, the mixed map. -/
theorem v19_hi (b : Fin 16) (k : Fin 1024) (hk : ¬ k.val < 512) (h w : Fin 64) :
    val_main_v19 (F := Ideal) x0 (ix4 b k h w)
      = val_main_v18 (F := Ideal) x0 (ix4 b (⟨k.val - 512, by have := k.isLt; omega⟩ : Fin 512) h w) := by
  unfold val_main_v19
  exact concatenate_pair_apply_right (t := S16x1024x64x64) 1 x0 (val_main_v18 (F := Ideal) x0)
    concatenates_S16x512x64x64_S16x512x64x64_S16x1024x64x64_d1 (ix4 b k h w) rfl rfl
    (ix4 b (⟨k.val - 512, by have := k.isLt; omega⟩ : Fin 512) h w)
    (fun a ha => by match a with | ⟨0, _⟩ => rfl | ⟨1, _⟩ => exact absurd rfl ha | ⟨2, _⟩ => rfl | ⟨3, _⟩ => rfl)
    (by show k.val - 512 + 512 = k.val; omega)

/-- The sum over the two position axes, from an initial value that denotes `0`: the sum over the 4096 positions. -/
theorem v20_at (b : Fin 16) (k : Fin 1024) :
    val_main_v20 (F := Ideal) x0 (ix2 b k)
      = ∑ n : Fin 4096, val_main_v19 (F := Ideal) x0 (ix4 b k (rowOf n) (colOf n)) := by
  unfold val_main_v20
  generalize val_main_v19 (F := Ideal) x0 = y
  simp only [Host.reduceAdd, Ideal.hostReduceAdd_def]
  unfold Ideal.hostReduceAdd
  rw [val_main_cst_3_apply]
  show Ideal.ofBits .f32 0x00000000#32 + _ = _
  rw [ofBits_zero, zero_add]
  have key : ∀ i : S16x1024x64x64.Idx, reducesTo_S16x1024x64x64_S16x1024_d2_3.drop i = ix2 b k →
      ix4 b k (rowOf (⟨64 * (i 2).val + (i 3).val, by
          have h2 : (i 2).val < 64 := (i 2).isLt; have h3 : (i 3).val < 64 := (i 3).isLt; omega⟩ : Fin 4096))
        (colOf (⟨64 * (i 2).val + (i 3).val, by
          have h2 : (i 2).val < 64 := (i 2).isLt; have h3 : (i 3).val < 64 := (i 3).isLt; omega⟩ : Fin 4096)) = i := by
    intro i hj
    have h0 : (i 0).val = b.val := congrArg (fun j : S16x1024.Idx => (j 0).val) hj
    have h1 : (i 1).val = k.val := congrArg (fun j : S16x1024.Idx => (j 1).val) hj
    have h2 : (i 2).val < 64 := (i 2).isLt
    have h3 : (i 3).val < 64 := (i 3).isLt
    funext a
    refine Fin.ext ?_
    match a with
    | ⟨0, _⟩ => exact h0.symm
    | ⟨1, _⟩ => exact h1.symm
    | ⟨2, _⟩ => show (64 * (i 2).val + (i 3).val) / 64 = (i 2).val; omega
    | ⟨3, _⟩ => show (64 * (i 2).val + (i 3).val) % 64 = (i 3).val; omega
  refine Finset.sum_nbij' (fun i => (⟨64 * (i 2).val + (i 3).val, by
      have h2 : (i 2).val < 64 := (i 2).isLt; have h3 : (i 3).val < 64 := (i 3).isLt; omega⟩ : Fin 4096))
    (fun n => ix4 b k (rowOf n) (colOf n)) ?_ ?_ ?_ ?_ ?_
  · intro i _; exact Finset.mem_univ _
  · intro n _
    refine Finset.mem_filter.2 ⟨Finset.mem_univ _, funext fun a => Fin.ext ?_⟩
    match a with
    | ⟨0, _⟩ => rfl
    | ⟨1, _⟩ => rfl
  · intro i hi; exact key i (Finset.mem_filter.1 hi).2
  · intro n _; exact Fin.ext (by show 64 * (n.val / 64) + n.val % 64 = n.val; omega)
  · intro i hi; exact congrArg y (key i (Finset.mem_filter.1 hi).2).symm

theorem v22_at (b : Fin 16) (k : Fin 1024) : val_main_v22 (F := Ideal) x0 (ix2 b k) = catMeanR (qOf x0 b) k := by
  rw [val_main_v22_apply, val_main_v21_apply, val_main_cst_4_apply, v20_at]
  show Ideal.div _ (Ideal.ofBits .f32 0x45800000#32) = _
  rw [ofBits_4096]
  unfold catMeanR
  congr 1
  split
  · next hk =>
    unfold rowSum
    exact Finset.sum_congr rfl fun n _ => v19_lo x0 b k hk _ _
  · next hk =>
    refine Finset.sum_congr rfl fun n _ => ?_
    rw [v19_hi x0 b k hk, v18_at, hw_rowOf_colOf]

/-! ## The gate (stages 23 to 39) -/

theorem v24_at (b : Fin 16) (j : Fin 64) :
    val_main_v24 (F := Ideal) x0 x1 (ix2 b j) = ∑ k : Fin 1024, catMeanR (qOf x0 b) k * w1Of x1 j k := by
  rw [val_main_v24_apply]
  refine Finset.sum_congr rfl fun k _ => ?_
  rw [show lidx_main_v24 (ix2 b j) k = ix2 b k from funext fun a => by match a with | ⟨0, _⟩ => rfl | ⟨1, _⟩ => rfl, show ridx_main_v24 (ix2 b j) k = ix2 k j from funext fun a => by match a with | ⟨0, _⟩ => rfl | ⟨1, _⟩ => rfl,
    v22_at, val_main_v23_apply, show idx_main_v23 (ix2 k j) = ix2 j k from funext fun a => by match a with | ⟨0, _⟩ => rfl | ⟨1, _⟩ => rfl]
  rfl

theorem v28_at (b : Fin 16) (j : Fin 64) :
    val_main_v28 (F := Ideal) x0 x1 x2 (ix2 b j) = max (preHiddenR (qOf x0 b) (w1Of x1) (b1Of x2) j) 0 := by
  rw [val_main_v28_apply, val_main_call0_v0_apply, val_main_call0_cst_apply, val_main_v27_apply, val_main_v26_apply,
    val_main_v25_apply, show idx_main_v25 (idx_main_v26 (ix2 b j)) = ix1 j from funext fun a => by match a with | ⟨0, _⟩ => rfl, v24_at]
  show max _ (Ideal.ofBits .f32 0x00000000#32) = _
  rw [ofBits_zero]
  rfl

theorem v30_at (b : Fin 16) (c : Fin 512) :
    val_main_v30 (F := Ideal) x0 x1 x2 x3 (ix2 b c)
      = ∑ j : Fin 64, max (preHiddenR (qOf x0 b) (w1Of x1) (b1Of x2) j) 0 * w2Of x3 c j := by
  rw [val_main_v30_apply]
  refine Finset.sum_congr rfl fun k _ => ?_
  rw [show lidx_main_v30 (ix2 b c) k = ix2 b k from funext fun a => by match a with | ⟨0, _⟩ => rfl | ⟨1, _⟩ => rfl, show ridx_main_v30 (ix2 b c) k = ix2 k c from funext fun a => by match a with | ⟨0, _⟩ => rfl | ⟨1, _⟩ => rfl,
    v28_at, val_main_v29_apply, show idx_main_v29 (ix2 k c) = ix2 c k from funext fun a => by match a with | ⟨0, _⟩ => rfl | ⟨1, _⟩ => rfl]
  rfl

theorem v39_at (b : Fin 16) (c : Fin 512) :
    val_main_v39 (F := Ideal) x0 x1 x2 x3 x4 (ix2 b c)
      = gateR (qOf x0 b) (w1Of x1) (b1Of x2) (w2Of x3) (b2Of x4) c := by
  rw [val_main_v39_apply, val_main_v38_apply, val_main_cst_6_apply, val_main_v37_apply, val_main_v36_apply,
    val_main_cst_5_apply, val_main_v35_apply, val_main_v34_apply, val_main_v33_apply, val_main_v32_apply,
    val_main_v31_apply, show idx_main_v31 (idx_main_v32 (ix2 b c)) = ix1 c from funext fun a => by match a with | ⟨0, _⟩ => rfl, v30_at]
  simp only [Ideal.hostDivf_def, Ideal.ofBits_def, Ideal.addf_def, Ideal.hostUnary_exp_def, Ideal.hostNegf_def, Ideal.negf_def,
    ofBits_one]
  rfl

/-! ## The blend (stages 40 to 47) -/

theorem v47_at (b : Fin 16) (c : Fin 512) (h w : Fin 64) :
    val_main_v47 (F := Ideal) x0 x1 x2 x3 x4 (ix4 b c h w)
      = outR (qOf x0 b) (w1Of x1) (b1Of x2) (w2Of x3) (b2Of x4) c (hw h w) := by
  rw [val_main_v47_apply, val_main_v42_apply, val_main_v41_apply, val_main_v46_apply, val_main_v45_apply,
    val_main_v44_apply, val_main_v43_apply, val_main_cst_7_apply, val_main_v40_apply,
    show idx_main_v40 (idx_main_v41 (ix4 b c h w)) = ix2 b c from funext fun a => by match a with | ⟨0, _⟩ => rfl | ⟨1, _⟩ => rfl,
    v39_at, v18_at, x0_at x0 b c h w]
  simp only [Ideal.addf_def, Ideal.mulf_def, Ideal.subf_def, Ideal.ofBits_def, ofBits_one]
  rfl

/-! ## The result -/

/-- The plain program's result at batch `b`, channel `c`, position `(h, w)` is `outR` of batch element `b`. -/
theorem res_apply (m : (ℓ : Loc nD τ sig) → Buf (Elt Ideal) ℓ) (dev : Dev nD) (b : Fin 16) (c : Fin 512) (h w : Fin 64) :
    (Cert.ReferenceIdeal.ValueP.res_main_v47 (F := Ideal) m dev : S16x512x64x64.Idx → EReal) (ix4 b c h w)
      = outR (qOf (m ((dev.tc : Thread nD τ).loc main_arg0)) b) (w1Of (m ((dev.tc : Thread nD τ).loc main_arg1)))
          (b1Of (m ((dev.tc : Thread nD τ).loc main_arg2))) (w2Of (m ((dev.tc : Thread nD τ).loc main_arg3)))
          (b2Of (m ((dev.tc : Thread nD τ).loc main_arg4))) c (hw h w) := by
  rw [val_main_v47_eq]
  exact v47_at _ _ _ _ _ b c h w

end Cert.ReferenceIdeal.RefValue

end
-- ==== Proof.SpecLaw.lean ====
/-
  The two arrangements of channel attention with a squeeze-and-excite gate are one function on real entries.

  With every entry of the element real, every channel energy is real. A softmax row does not depend on the
  real shift of its exponents, because the factor the shift contributes is a nonzero real that cancels
  from the quotient; so both arrangements' attention weights equal the same real,
  the exponential of minus the energy divided by the row's sum of such exponentials. A product with the real
  1/4096 is a quotient by 4096; the mean of the mixed map is the attention applied to the means, by exchanging
  two finite sums of reals; a sum over 1024 entries is the sum over its two halves; and the logistic function
  is by definition the quotient of 1 by 1 plus the exponential of the negated argument.
-/
import proofs.«407397_j81492709474559_3_alg».proof.Proof.Spec
import Mathlib.Data.Finset.Fold
import Mathlib.Data.EReal.Operations
import Mathlib.Data.EReal.Inv

noncomputable section

namespace Cert.ChannelAttn

open Idealize.ShloMosaic

/-! ## Coercions, finite sums, and folds of minima and maxima -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The least of finitely many reals, at least one of them, folded from the top element, is a real. -/
theorem fold_min_real {ι : Type*} [DecidableEq ι] (f : ι → EReal) (hf : ∀ d, ∃ r : ℝ, f d = (r : EReal))
    (s : Finset ι) (hs : s.Nonempty) : ∃ r : ℝ, s.fold min ⊤ f = (r : EReal) := by
  induction s using Finset.induction_on with
  | empty => exact absurd hs (by simp)
  | insert a s ha ih =>
    rw [Finset.fold_insert ha]
    obtain ⟨ra, hra⟩ := hf a
    rcases s.eq_empty_or_nonempty with rfl | hne
    · exact ⟨ra, by rw [Finset.fold_empty, min_eq_left le_top, hra]⟩
    · obtain ⟨r, hr⟩ := ih hne
      rw [hr, hra]
      rcases min_choice (ra : EReal) (r : EReal) with h | h
      · exact ⟨ra, h⟩
      · exact ⟨r, h⟩

/-- The greatest of finitely many reals, at least one of them, folded from the bottom element, is a real. -/
theorem fold_max_real {ι : Type*} [DecidableEq ι] (f : ι → EReal) (hf : ∀ d, ∃ r : ℝ, f d = (r : EReal))
    (s : Finset ι) (hs : s.Nonempty) : ∃ r : ℝ, s.fold max ⊥ f = (r : EReal) := by
  induction s using Finset.induction_on with
  | empty => exact absurd hs (by simp)
  | insert a s ha ih =>
    rw [Finset.fold_insert ha]
    obtain ⟨ra, hra⟩ := hf a
    rcases s.eq_empty_or_nonempty with rfl | hne
    · exact ⟨ra, by rw [Finset.fold_empty, max_eq_left bot_le, hra]⟩
    · obtain ⟨r, hr⟩ := ih hne
      rw [hr, hra]
      rcases max_choice (ra : EReal) (r : EReal) with h | h
      · exact ⟨ra, h⟩
      · exact ⟨r, h⟩

/-! ## A softmax row does not see a real shift -/

/-- If the exponents of a row are `a - e d` for a real `a` and reals `e d`, the normalised exponential is
    `exp (-e d) / ∑ d', exp (-e d')`, whatever `a` is: `exp (a - e d) = exp a * exp (-e d)` and `exp a ≠ 0`
    cancels. -/
theorem softmax_canon {ι : Type*} [Fintype ι] [Nonempty ι] (a : ℝ) (e : ι → ℝ) (x : ι → EReal)
    (hx : ∀ d, x d = ((a - e d : ℝ) : EReal)) (d : ι) :
    Ideal.div (Ideal.exp (x d)) (∑ d', Ideal.exp (x d')) =
      ((Real.exp (-(e d)) / ∑ d', Real.exp (-(e d')) : ℝ) : EReal) := by
  have hexp : ∀ d, Ideal.exp (x d) = ((Real.exp a * Real.exp (-(e d)) : ℝ) : EReal) := by
    intro d
    rw [hx d, Ideal.exp_coe, sub_eq_add_neg, Real.exp_add]
  have hsum : (∑ d', Ideal.exp (x d')) = ((Real.exp a * ∑ d', Real.exp (-(e d')) : ℝ) : EReal) := by
    rw [Finset.mul_sum, coe_finset_sum]
    exact Finset.sum_congr rfl (fun d' _ => hexp d')
  have hpos : 0 < ∑ d', Real.exp (-(e d')) :=
    Finset.sum_pos (fun d' _ => Real.exp_pos _) Finset.univ_nonempty
  have hne : Real.exp a * ∑ d', Real.exp (-(e d')) ≠ 0 := mul_ne_zero (Real.exp_pos a).ne' hpos.ne'
  rw [hexp d, hsum, Ideal.div_coe hne, ← EReal.coe_mul]
  congr 1
  rw [one_div, ← div_eq_mul_inv, mul_div_mul_left _ _ (Real.exp_pos a).ne']

/-! ## The real element -/

section Real

variable (q : Fin 512 → Fin 4096 → EReal) (qr : Fin 512 → Fin 4096 → ℝ)

/-- The energy of two channels of the real element. -/
def energyReal (c d : Fin 512) : ℝ := ∑ n : Fin 4096, qr c n * qr d n

/-- The attention weight both arrangements compute: `exp (-e c d) / ∑ d', exp (-e c d')`. -/
def attnReal (c d : Fin 512) : ℝ :=
  Real.exp (-(energyReal qr c d)) / ∑ d' : Fin 512, Real.exp (-(energyReal qr c d'))

variable (hq : ∀ c n, q c n = (qr c n : EReal))
include hq

theorem energy_coe (c d : Fin 512) : energy q c d = (energyReal qr c d : EReal) := by
  unfold energy energyReal
  rw [coe_finset_sum]
  exact Finset.sum_congr rfl (fun n _ => by rw [hq c n, hq d n, EReal.coe_mul])

theorem rowSum_coe (c : Fin 512) : rowSum q c = ((∑ n : Fin 4096, qr c n : ℝ) : EReal) := by
  unfold rowSum
  rw [coe_finset_sum]
  exact Finset.sum_congr rfl (fun n _ => hq c n)

/-- Shifted by the row minimum, the weight is the common real. -/
theorem attnK_coe (c d : Fin 512) : attnK q c d = (attnReal qr c d : EReal) := by
  obtain ⟨m, hm⟩ : ∃ m : ℝ, rowMin q c = (m : EReal) :=
    fold_min_real _ (fun d => ⟨_, energy_coe q qr hq c d⟩) _ ⟨0, Finset.mem_univ _⟩
  exact softmax_canon m (energyReal qr c) (fun d => rowMin q c - energy q c d)
    (fun d => by rw [hm, energy_coe q qr hq, EReal.coe_sub]) d

/-- Shifted by the row maximum and then by the maximum of the shifted row, the weight is the common real:
    the two shifts are reals `M` and `S`, and `(M - e) - S = (M - S) - e`. -/
theorem attnR_coe (c d : Fin 512) : attnR q c d = (attnReal qr c d : EReal) := by
  obtain ⟨M, hM⟩ : ∃ M : ℝ, rowMax q c = (M : EReal) :=
    fold_max_real _ (fun d => ⟨_, energy_coe q qr hq c d⟩) _ ⟨0, Finset.mem_univ _⟩
  have hshift : ∀ d, shiftR q c d = ((M - energyReal qr c d : ℝ) : EReal) := fun d => by
    rw [shiftR, hM, energy_coe q qr hq, EReal.coe_sub]
  obtain ⟨S, hS⟩ : ∃ S : ℝ, shiftMaxR q c = (S : EReal) := by
    obtain ⟨S, hS⟩ := fold_max_real (fun d => shiftR q c d) (fun d => ⟨_, hshift d⟩) Finset.univ
      ⟨0, Finset.mem_univ _⟩
    exact ⟨S, by rw [shiftMaxR, hS, max_eq_right bot_le]⟩
  exact softmax_canon (M - S) (energyReal qr c) (fun d => shiftR q c d - shiftMaxR q c)
    (fun d => by rw [hshift, hS, ← EReal.coe_sub]; congr 1; ring) d

theorem mixK_eq_mixR (c : Fin 512) (n : Fin 4096) : mixK q c n = mixR q c n := by
  unfold mixK mixR
  exact Finset.sum_congr rfl (fun d _ => by rw [attnK_coe q qr hq, attnR_coe q qr hq])

theorem mixR_coe (c : Fin 512) (n : Fin 4096) :
    mixR q c n = ((∑ d : Fin 512, attnReal qr c d * qr d n : ℝ) : EReal) := by
  unfold mixR
  rw [coe_finset_sum]
  exact Finset.sum_congr rfl (fun d _ => by rw [attnR_coe q qr hq, hq d n, EReal.coe_mul])

omit hq in
/-- The product with `1/4096` is the quotient by `4096`; entry `lo k` of the stacked vector is the first case. -/
theorem meanK_eq (k : Fin 512) : meanK q k = catMeanR q (lo k) := by
  have h : (lo k).val < 512 := k.isLt
  rw [catMeanR, dif_pos h, Ideal.div_coe (by norm_num : (4096 : ℝ) ≠ 0), meanK]

/-- The attention applied to the means is the mean of the mixed map: exchange the two finite sums. -/
theorem mixMeanK_eq (k : Fin 512) : mixMeanK q k = catMeanR q (hi k) := by
  have h : ¬ (hi k).val < 512 := by
    show ¬ 512 + k.val < 512
    omega
  have hk : ∀ p : (hi k).val - 512 < 512, (⟨(hi k).val - 512, p⟩ : Fin 512) = k :=
    fun p => Fin.ext (by show 512 + k.val - 512 = k.val; omega)
  have hL : mixMeanK q k
      = ((∑ d : Fin 512, attnReal qr k d * ((∑ n : Fin 4096, qr d n) * (1 / 4096)) : ℝ) : EReal) := by
    unfold mixMeanK
    rw [coe_finset_sum]
    exact Finset.sum_congr rfl (fun d _ => by
      rw [attnK_coe q qr hq, meanK, rowSum_coe q qr hq, ← EReal.coe_mul, ← EReal.coe_mul])
  have hR : (∑ n : Fin 4096, mixR q k n)
      = ((∑ n : Fin 4096, ∑ d : Fin 512, attnReal qr k d * qr d n : ℝ) : EReal) := by
    rw [coe_finset_sum]
    exact Finset.sum_congr rfl (fun n _ => mixR_coe q qr hq k n)
  rw [catMeanR, dif_neg h, Ideal.div_coe (by norm_num : (4096 : ℝ) ≠ 0)]
  simp only [hk]
  rw [hL, hR, ← EReal.coe_mul]
  congr 1
  conv_rhs => rw [Finset.sum_comm, Finset.sum_mul]
  exact Finset.sum_congr rfl (fun d _ => by rw [← Finset.mul_sum, mul_assoc])

end Real

/-! ## The stacked vector and the gate -/

/-- A sum over the 1024 entries is the sum over the first half plus the sum over the second half. -/
theorem sum_lo_hi (g : Fin 1024 → EReal) :
    ∑ k : Fin 1024, g k = (∑ k : Fin 512, g (lo k)) + ∑ k : Fin 512, g (hi k) :=
  Fin.sum_univ_add (a := 512) (b := 512) g

section Gate

variable (q : Fin 512 → Fin 4096 → EReal) (qr : Fin 512 → Fin 4096 → ℝ)
  (w1 : Fin 64 → Fin 1024 → EReal) (b1 : Fin 64 → EReal) (w2 : Fin 512 → Fin 64 → EReal) (b2 : Fin 512 → EReal)
  (hq : ∀ c n, q c n = (qr c n : EReal))
include hq

theorem preHidden_eq (j : Fin 64) : preHiddenK q w1 b1 j = preHiddenR q w1 b1 j := by
  have h1 : (∑ k : Fin 512, w1 j (lo k) * meanK q k) = ∑ k : Fin 512, catMeanR q (lo k) * w1 j (lo k) :=
    Finset.sum_congr rfl (fun k _ => by rw [meanK_eq, mul_comm])
  have h2 : (∑ k : Fin 512, w1 j (hi k) * mixMeanK q k) = ∑ k : Fin 512, catMeanR q (hi k) * w1 j (hi k) :=
    Finset.sum_congr rfl (fun k _ => by rw [mixMeanK_eq q qr hq, mul_comm])
  rw [preHiddenK, preHiddenR, sum_lo_hi, h1, h2]

/-- The logistic function is the quotient of `1` by `1 + exp (-·)`; the second-layer products commute. -/
theorem gate_eq (c : Fin 512) : gateK q w1 b1 w2 b2 c = gateR q w1 b1 w2 b2 c := by
  have h : (∑ j : Fin 64, w2 c j * max (preHiddenK q w1 b1 j) 0)
      = ∑ j : Fin 64, max (preHiddenR q w1 b1 j) 0 * w2 c j :=
    Finset.sum_congr rfl (fun j _ => by rw [preHidden_eq q qr w1 b1 hq, mul_comm])
  rw [gateK, gateR, Ideal.logistic, h]

end Gate

/-- On real entries the two arrangements are one function. -/
theorem outK_eq_outR (q : Fin 512 → Fin 4096 → EReal) (w1 : Fin 64 → Fin 1024 → EReal) (b1 : Fin 64 → EReal)
    (w2 : Fin 512 → Fin 64 → EReal) (b2 : Fin 512 → EReal)
    (hq : ∀ c n, ∃ r : ℝ, q c n = (r : EReal)) (hw1 : ∀ j k, ∃ r : ℝ, w1 j k = (r : EReal)) (hb1 : ∀ j, ∃ r : ℝ, b1 j = (r : EReal))
    (hw2 : ∀ c j, ∃ r : ℝ, w2 c j = (r : EReal)) (hb2 : ∀ c, ∃ r : ℝ, b2 c = (r : EReal))
    (c : Fin 512) (n : Fin 4096) :
    outK q w1 b1 w2 b2 c n = outR q w1 b1 w2 b2 c n := by
  choose qr hqr using hq
  rw [outK, outR, gate_eq q qr w1 b1 w2 b2 hqr, mixK_eq_mixR q qr hqr]

end Cert.ChannelAttn

end
-- ==== Proof.Finite.lean ====
/-
  Finite inputs are real inputs.

  The certificate's precondition is one rank-0 truth value: for each of the five inputs, `|x| < +∞` at every entry (an
  all-reduce of the entrywise comparison against the word of `+∞`), the five joined by `and`. Over the extended reals
  `|x| = max x (-x)`, and `max x (-x) < ⊤` rules out both `⊤` and `⊥`: so under the precondition every entry of every
  input is (the coercion of) a real number.
-/
import proofs.«407397_j81492709474559_3_alg».proof.Pre_finite_inputs
import Idealize.ShloMosaic.Lib.ReduceAll
import Idealize.ShloMosaic.Lib.ValueIdx
import Idealize.ShloMosaic.Lib.IdealHost
import Idealize.ShloMosaic.PureOps.Ideal
import Idealize.ShloMosaic.PureOps.Ideal.Laws

noncomputable section
namespace Cert.Finite
open Idealize.ShloMosaic Cert.Pre_finite_inputs

/-- The word `0x7F800000` denotes `+∞`. -/
theorem ofBits_inf : Ideal.ofBits .f32 0x7F800000#32 = (⊤ : EReal) := by
  simp [Ideal.ofBits, Ideal.ieee]

/-- An extended real whose absolute value `max x (-x)` is below `+∞` is a real number. -/
theorem real_of_abs_lt_top (x : EReal) (h : Ideal.cmp .olt (max x (-x)) ⊤ = 1#1) :
    ∃ r : ℝ, x = (r : EReal) := by
  have hlt : max x (-x) < ⊤ := by
    by_contra hn
    simp [Ideal.cmp, hn] at h
  induction x using EReal.rec with
  | bot => simp at hlt
  | coe r => exact ⟨r, rfl⟩
  | top => simp at hlt

/-- The scalar shape has one index. -/
local instance subsingleton_scalar_idx : Subsingleton S_.Idx := ⟨fun a b => funext fun d => d.elim0⟩

/-- If `|a| < +∞` holds at every index of an array, every entry of the array is a real number. -/
theorem real_of_all_lt_top {s : Shape} (hb : S_.BroadcastsInDim s (![] : Fin 0 → Fin s.rank))
    (a : FVec Ideal s .f32)
    (h : ∀ i, cmpf .olt (Host.absf a) (broadcastInDim s ![] hb (constant S_ .f32 0x7F800000#32)) i = 1#1) :
    ∀ i, ∃ r : ℝ, a i = (r : EReal) := by
  intro i
  have hi := h i
  rw [ValueIdx.cmpf_apply, ValueIdx.broadcastInDim_scalar_apply, ValueIdx.constant_apply, ofBits_inf] at hi
  exact real_of_abs_lt_top (a i) hi

/-- Under `finite_inputs` every entry of every input is a real number. -/
theorem real_of_pre [Cert.Pre_finite_inputs.Facts]
    (a0 : FVec Ideal S16x512x64x64 .f32) (a1 : FVec Ideal S64x1024 .f32) (a2 : FVec Ideal S64 .f32)
    (a3 : FVec Ideal S512x64 .f32) (a4 : FVec Ideal S512 .f32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨real_of_all_lt_top _ a0 (Host.reduce_andi_all _ _ _ _ _ e0),
    real_of_all_lt_top _ a1 (Host.reduce_andi_all _ _ _ _ _ e1),
    real_of_all_lt_top _ a2 (Host.reduce_andi_all _ _ _ _ _ e2),
    real_of_all_lt_top _ a3 (Host.reduce_andi_all _ _ _ _ _ e3),
    real_of_all_lt_top _ a4 (Host.reduce_andi_all _ _ _ _ _ e4)⟩

end Cert.Finite
end
-- ==== Proof.lean ====
/-
  Channel attention with a squeeze-and-excite gate: the tiled program and the plain one compute one function.

  For each of 16 batch elements, a matrix `q` of 512 channels by 4096 positions: energies `e = q qᵀ`; a row-wise softmax of
  `-e` (shifted, for the exponent's sake, by the row's minimum in the tiled program and by its maximum, twice, in the plain one);
  the mixed map `a q`; the position-means of `q` and of `a q` through a two-layer gate; and the blend
  `g · q + (1 - g) · (a q)`, channel by channel (Proof/Spec.lean states both arrangements, `outK` and `outR`).

  The tiled program takes one grid point per batch element. Its body copies the element run by run into a narrow-format copy
  (the identity on the extended reals) while summing its rows, computes the attention weights from the whole copy, obtains
  the mean of `a q` as `a` applied to the means of `q` (the sum over positions and the sum over channels exchanged), feeds
  the gate's first layer in two halves, and stores the blend run by run. What one point writes is therefore `outK` of its
  element (Proof/Pieces.lean: the body's 8 stores as an explicit list; Proof/Payload.lean and Proof/BlockValue.lean: their
  values; Proof/KValue.lean: the 16 blocks tile the result, and the reshapes around the region). The plain program's result
  is `outR` of each element (Proof/RefValue.lean, over the program's run read back one operation at a time). On finite
  inputs (Proof/Finite.lean: every entry is a real number) the two arrangements agree (Proof/SpecLaw.lean): both softmaxes
  are `exp (-e) / ∑ exp (-e)`, a real times `1/4096` is that real divided by `4096`, and sums of products of reals may be
  exchanged and split.

  The frames: both forms of the tiled program run to the end without a fault and leave their arguments as they were
  (the body's run, with its stores named, under the library's pipeline theorem); the plain program's frame is its run with the
  result dropped. The idealization rewrote no operation, so it preserves the program trivially.
-/
import proofs.«407397_j81492709474559_3_alg».proof.Defs
import proofs.«407397_j81492709474559_3_alg».proof.Proof.Gen.Kernel
import proofs.«407397_j81492709474559_3_alg».proof.Proof.Gen.KernelIdeal
import proofs.«407397_j81492709474559_3_alg».proof.Proof.Gen.ReferenceIdeal
import proofs.«407397_j81492709474559_3_alg».proof.Proof.Gen.Pre_finite_inputs
import proofs.«407397_j81492709474559_3_alg».proof.Proof.FramePBits
import proofs.«407397_j81492709474559_3_alg».proof.Proof.KValue
import proofs.«407397_j81492709474559_3_alg».proof.Proof.RefValue
import proofs.«407397_j81492709474559_3_alg».proof.Proof.SpecLaw
import proofs.«407397_j81492709474559_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.ChannelAttn

/-- The word-level tiled program runs and keeps its arguments. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The plain program's frame is its run with the result dropped. -/
theorem frame_r : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the arguments, finite, both idealized programs end with the blend `outK = outR` of every batch
    element in their result arrays. -/
theorem algebraic : Cert.algebraic_KernelIdeal_ReferenceIdeal := by
  intro m ρ m' ρ' hpre hagree
  refine ⟨fun c => Cert.KernelIdeal.KValue.res4 m c, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4⟩ := Cert.Finite.real_of_pre _ _ _ _ _ (hpre c)
  funext i
  obtain ⟨b, ch, h, w, rfl⟩ : ∃ (b : Fin 16) (ch : Fin 512) (h w : Fin 64), i = ix4 b ch h w := ⟨i 0, i 1, i 2, i 3, eq_ix4 i⟩
  refine (Cert.ReferenceIdeal.RefValue.res_apply m' c b ch h w).trans ?_
  rw [(hagree c).1, (hagree c).2.1, (hagree c).2.2.1, (hagree c).2.2.2.1, (hagree c).2.2.2.2]
  exact (outK_eq_outR _ _ _ _ _ (fun _ _ => h0 _) (fun _ _ => h1 _) (fun _ => h2 _) (fun _ _ => h3 _) (fun _ => h4 _) ch (hw h w)).symm

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
